-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S4x128 .f32) (main_arg7 : FVec F S128x10 .f32) (main_arg8 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S4x128x128 .f32) (main_arg6 : FVec F S4x128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S1x128 : Shape := ⟨2, ![1, 128]⟩
abbrev S5000x128 : Shape := ⟨2, ![5000, 128]⟩
abbrev S1x128x128 : Shape := ⟨3, ![1, 128, 128]⟩
abbrev S800000x128 : Shape := ⟨2, ![800000, 128]⟩
abbrev S5000x1 : Shape := ⟨2, ![5000, 1]⟩
abbrev S1x10 : Shape := ⟨2, ![1, 10]⟩
abbrev S50000x10 : Shape := ⟨2, ![50000, 10]⟩
abbrev S5000x10 : Shape := ⟨2, ![5000, 10]⟩
abbrev S128x11 : Shape := ⟨2, ![128, 11]⟩
abbrev S5000x11 : Shape := ⟨2, ![5000, 11]⟩
abbrev S128x1 : Shape := ⟨2, ![128, 1]⟩

abbrev nBuf : Space → Nat
  | .hbm => 154
  | .vmem => 77
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S128x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S50000x1, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000, .f32⟩
  | 47 => ⟨S50000x1, .f32⟩
  | 48 => ⟨S1x128, .f32⟩
  | 49 => ⟨S50000x128, .f32⟩
  | 50 => ⟨S_, .f32⟩
  | 51 => ⟨S128, .f32⟩
  | 52 => ⟨S1x128x128, .f32⟩
  | 53 => ⟨S128x128, .f32⟩
  | 54 => ⟨S1x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S1x128x128, .f32⟩
  | 76 => ⟨S128x128, .f32⟩
  | 77 => ⟨S1x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S1x128x128, .f32⟩
  | 99 => ⟨S128x128, .f32⟩
  | 100 => ⟨S1x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S1x128x128, .f32⟩
  | 122 => ⟨S128x128, .f32⟩
  | 123 => ⟨S1x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S800000x128, .f32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S1x10, .f32⟩
  | 17 => ⟨S50000x10, .f32⟩
  | 18 => ⟨S128x11, .f32⟩
  | 19 => ⟨S128x10, .f32⟩
  | 20 => ⟨S128x1, .f32⟩
  | 21 => ⟨S_, .f32⟩
  | 22 => ⟨S128x1, .f32⟩
  | 23 => ⟨S128x1, .f32⟩
  | 24 => ⟨S128x10, .f32⟩
  | 25 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x1, .f32⟩
  | .local _ .vmem, ⟨62, _⟩ => ⟨S5000x1, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x10, .f32⟩
  | .local _ .vmem, ⟨69, _⟩ => ⟨S1x10, .f32⟩
  | .local _ .vmem, ⟨70, _⟩ => ⟨S5000x10, .f32⟩
  | .local _ .vmem, ⟨71, _⟩ => ⟨S5000x10, .f32⟩
  | .local _ .vmem, ⟨72, _⟩ => ⟨S5000x10, .f32⟩
  | .local _ .vmem, ⟨73, _⟩ => ⟨S5000x10, .f32⟩
  | .local _ .vmem, ⟨74, _⟩ => ⟨S5000x1, .i32⟩
  | .local _ .vmem, ⟨75, _⟩ => ⟨S5000x1, .i32⟩
  | .local _ .vmem, ⟨76, _⟩ => ⟨S128x11, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_13 : Ref sig .tc := ⟨.hbm, 102, rfl⟩
abbrev main_v78 : Ref sig .tc := ⟨.hbm, 103, rfl⟩
abbrev main_v79 : Ref sig .tc := ⟨.hbm, 104, rfl⟩
abbrev main_c_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_15 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_18 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_19 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg4_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg1_1 : Ref sig .tc := ⟨.vmem, 75, rfl⟩
abbrev cc10_stg2_0 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem2_1 : DmaSem sig := 62
abbrev cc8_sem3_0 : DmaSem sig := 63
abbrev cc8_sem4_0 : DmaSem sig := 64
abbrev cc8_sem4_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem3_1 : DmaSem sig := 71
abbrev cc10_sem0_0 : DmaSem sig := 72
abbrev cc10_sem0_1 : DmaSem sig := 73
abbrev cc10_sem1_0 : DmaSem sig := 74
abbrev cc10_sem1_1 : DmaSem sig := 75
abbrev cc10_sem2_0 : DmaSem sig := 76

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x10 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x10 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x11 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  inb_S128x11_S128x11_0_0 : ∀ a, (![0, 0] : Fin 2 → Nat) a + S128x11.size a ≤ S128x11.size a
  h_S128x11 : 0 < S128x11.numel
  iota_S5000x128_d1_w32 : S5000x128.Iotas .tc 32 [1]
  natLt_1_32 : 1 < 32
  shapeCasts_S5000x10_S5000x10 : S5000x10.ShapeCasts S5000x10
  concatenates_S5000x10_S5000x1_S5000x11_d1 : Shape.Concatenates [S5000x10, S5000x1] S5000x11 1
  shapeCasts_S128x11_S128x11 : S128x11.ShapeCasts S128x11
  slices_S128x11_S128x10_0_0 : S128x11.Slices ![0, 0] S128x10
  slices_S128x11_S128x1_0_10 : S128x11.Slices ![0, 10] S128x1
  bcast_S_S128x1 : S_.BroadcastsInDim S128x1 (![] : Fin 0 → Fin S128x1.rank)
  bcast_S128x1_S128x10_0_1 : S128x1.BroadcastsInDim S128x10 (![0, 1] : Fin 2 → Fin S128x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x10_S5000x10_1_0_0_1_n_n_wf : DotDims.WF S5000x128 S128x10 S5000x10 [1] [0] [0] [1] [] []
  dot_S5000x128_S5000x11_S128x11_0_0_1_1_n_n_wf : DotDims.WF S5000x128 S5000x11 S128x11 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x10.size a ≤ S128x10.size a
  hwx9_1 : ∀ i : grid9.Coords, EltTy.bits .f32 = 32 ∨ (Rect.block (s := S128x10) S128x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x10.size a ≤ S50000x10.size a
  hwx9_3 : ∀ i : grid9.Coords, EltTy.bits .f32 = 32 ∨ (Rect.block (s := S50000x10) S5000x10.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x10.size a ≤ S50000x10.size a
  hwx10_0 : ∀ i : grid10.Coords, EltTy.bits .f32 = 32 ∨ (Rect.block (s := S50000x10) S5000x10.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S50000x1.size a
  hwx10_1 : ∀ i : grid10.Coords, EltTy.bits .i32 = 32 ∨ (Rect.block (s := S50000x1) S5000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x11.size a ≤ S128x11.size a
  hwx10_2 : ∀ i : grid10.Coords, EltTy.bits .f32 = 32 ∨ (Rect.block (s := S128x11) S128x11.size (cc10_transform_2 i) (hinb10_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S5000x128_S5000x11_S128x11_0_0_1_1_n_n : DotDims S5000x128 S5000x11 S128x11 where
  lhsContracting := [0]
  rhsContracting := [0]
  lhsNonContracting := [1]
  rhsNonContracting := [1]
  lhsBatch := []
  rhsBatch := []
  wf := dot_S5000x128_S5000x11_S128x11_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v30) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v92) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v93) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v109) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v30) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v112) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v113) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v113) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S128x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115) S5000x10.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v115) S5000x10.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v4) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v116) S128x11.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S800000x128 : Shape := ⟨2, ![800000, 128]⟩
abbrev S50000x10 : Shape := ⟨2, ![50000, 10]⟩
abbrev S1x10 : Shape := ⟨2, ![1, 10]⟩
abbrev S128x1 : Shape := ⟨2, ![128, 1]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S128x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S50000, .f32⟩
  | 50 => ⟨S50000x1, .f32⟩
  | 51 => ⟨S1x128x128, .f32⟩
  | 52 => ⟨S128x128, .f32⟩
  | 53 => ⟨S1x128, .f32⟩
  | 54 => ⟨S128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S1x128, .f32⟩
  | 83 => ⟨S128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x128, .f32⟩
  | 110 => ⟨S128x128, .f32⟩
  | 111 => ⟨S1x128, .f32⟩
  | 112 => ⟨S128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S800000x128, .f32⟩
  | 124 => ⟨S800000x128, .f32⟩
  | 125 => ⟨S_, .f32⟩
  | 126 => ⟨S50000x128, .f32⟩
  | 127 => ⟨S800000x1, .i32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x128x128, .f32⟩
  | 11 => ⟨S128x128, .f32⟩
  | 12 => ⟨S1x128, .f32⟩
  | 13 => ⟨S128, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x128, .f32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S50000x10, .f32⟩
  | 37 => ⟨S1x10, .f32⟩
  | 38 => ⟨S50000x10, .f32⟩
  | 39 => ⟨S50000x10, .f32⟩
  | 40 => ⟨S_, .f32⟩
  | 41 => ⟨S128x10, .f32⟩
  | 42 => ⟨S50000x1, .i32⟩
  | 43 => ⟨S128x10, .f32⟩
  | 44 => ⟨S_, .f32⟩
  | 45 => ⟨S50000, .f32⟩
  | 46 => ⟨S_, .f32⟩
  | 47 => ⟨S128, .f32⟩
  | 48 => ⟨S50000x1, .i32⟩
  | 49 => ⟨S128, .f32⟩
  | 50 => ⟨S_, .f32⟩
  | 51 => ⟨S128, .f32⟩
  | 52 => ⟨S128, .f32⟩
  | 53 => ⟨S128x1, .f32⟩
  | 54 => ⟨S128x10, .f32⟩
  | 55 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_9 : Ref sig .tc := ⟨.hbm, 85, rfl⟩
abbrev main_v63 : Ref sig .tc := ⟨.hbm, 86, rfl⟩
abbrev main_v64 : Ref sig .tc := ⟨.hbm, 87, rfl⟩
abbrev main_c_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_cst : Ref sig .tc := ⟨.hbm, 106, rfl⟩
abbrev main_call1_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_12 : Ref sig .tc := ⟨.hbm, 114, rfl⟩
abbrev main_v87 : Ref sig .tc := ⟨.hbm, 115, rfl⟩
abbrev main_v88 : Ref sig .tc := ⟨.hbm, 116, rfl⟩
abbrev main_c_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_call2_cst : Ref sig .tc := ⟨.hbm, 135, rfl⟩
abbrev main_call2_v0 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_15 : Ref sig .tc := ⟨.hbm, 143, rfl⟩
abbrev main_v111 : Ref sig .tc := ⟨.hbm, 144, rfl⟩
abbrev main_v112 : Ref sig .tc := ⟨.hbm, 145, rfl⟩
abbrev main_c_16 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_17 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_18 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_19 : Ref sig .tc := ⟨.hbm, 172, rfl⟩
abbrev main_v136 : Ref sig .tc := ⟨.hbm, 173, rfl⟩
abbrev main_cst_20 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_21 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S128x10 : S_.BroadcastsInDim S128x10 (![] : Fin 0 → Fin S128x10.rank)
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x10_S50000x10_1_0_0_1_n_n_wf : DotDims.WF S50000x128 S128x10 S50000x10 [1] [0] [0] [1] [] []
  scatter_S128x10_S50000x1_S50000x10_1_0_0_1_wf : ScatterDims.WF S128x10 S50000x1 S50000x10 [1] [0] [0] 1
  scatter_S128_S50000x1_S50000_n_0_0_1_wf : ScatterDims.WF S128 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def scatter_S128x10_S50000x1_S50000x10_1_0_0_1 : ScatterDims S128x10 S50000x1 S50000x10 where
  updateWindowDims := [1]
  insertedWindowDims := [0]
  scatterDimsToOperandDims := [0]
  indexVectorDim := 1
  wf := scatter_S128x10_S50000x1_S50000x10_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.Spec.lean ====
/-
  What the eleven kernel regions compute, as whole-array functions over the extended reals, index by index.

  * `linear x w b`    : row `r`, column `j` is `(∑ k, x[r,k] · w[k,j]) + b[0,j]` — a dense layer with a bias row.
  * `combine a y s b` : `(a[r,j] + y[r,j] · s[r,0]) + b[0,j]` — the aggregated messages plus the node's own
                         normalized features plus the bias; `combineRelu` clamps that at zero from below.
  * `hit ids n g`     : node `n` carries segment id `g` (its id word `ids n` equals `g`'s 32-bit word).
  * `segSum`, `segCnt` : per segment, the sum of the rows of `y` carrying its id, and the number of such rows
                         counted in units of `one`.
  * `pooled`          : the [G, C+1] array holding `segSum` in its first `C` columns and `segCnt` in the last.
  * `segMean`         : `segSum / max segCnt one`.

  Sums over the extended reals are commutative and associative, so no order of accumulation is recorded here.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A dense layer: rows of `x` against the columns of `w`, plus the bias row `b`. -/
def linear {N K H : Nat} (x : FVec Ideal ⟨2, ![N, K]⟩ .f32) (w : FVec Ideal ⟨2, ![K, H]⟩ .f32)
    (b : FVec Ideal ⟨2, ![1, H]⟩ .f32) : FVec Ideal ⟨2, ![N, H]⟩ .f32 :=
  fun i => (∑ k : Fin K, x (ix2 (i 0) k) * w (ix2 k (i 1))) + b (ix2 0 (i 1))

/-- Aggregated messages `a`, plus own features `y` scaled per row by `s`, plus the bias row `b`. -/
def combine {N H : Nat} (a y : FVec Ideal ⟨2, ![N, H]⟩ .f32) (s : FVec Ideal ⟨2, ![N, 1]⟩ .f32)
    (b : FVec Ideal ⟨2, ![1, H]⟩ .f32) : FVec Ideal ⟨2, ![N, H]⟩ .f32 :=
  fun i => (a i + y i * s (ix2 (i 0) 0)) + b (ix2 0 (i 1))

/-- The same, clamped at zero from below. -/
def combineRelu {N H : Nat} (a y : FVec Ideal ⟨2, ![N, H]⟩ .f32) (s : FVec Ideal ⟨2, ![N, 1]⟩ .f32)
    (b : FVec Ideal ⟨2, ![1, H]⟩ .f32) : FVec Ideal ⟨2, ![N, H]⟩ .f32 :=
  fun i => max (combine a y s b i) 0

/-- Node `n` carries segment id `g`. -/
def hit {N : Nat} (ids : Fin N → BitVec 32) (n : Fin N) (g : Nat) : Prop := ids n = BitVec.ofNat 32 g

instance {N : Nat} (ids : Fin N → BitVec 32) (n : Fin N) (g : Nat) : Decidable (hit ids n g) := by
  unfold hit; infer_instance

/-- Per segment and column: the sum of the rows of `y` that carry the segment's id. -/
def segSum {N C : Nat} (G : Nat) (y : FVec Ideal ⟨2, ![N, C]⟩ .f32) (ids : Fin N → BitVec 32) :
    FVec Ideal ⟨2, ![G, C]⟩ .f32 :=
  fun i => ∑ n : Fin N, if hit ids n (i 0).val then y (ix2 n (i 1)) else 0

/-- Per segment: how many rows carry its id, in units of `one`. -/
def segCnt {N : Nat} (ids : Fin N → BitVec 32) (one : EReal) (g : Nat) : EReal :=
  ∑ n : Fin N, if hit ids n g then one else 0

/-- Sums in the first `C` columns, the count in the last. -/
def pooled {N C : Nat} (G : Nat) (y : FVec Ideal ⟨2, ![N, C]⟩ .f32) (ids : Fin N → BitVec 32) (one : EReal) :
    FVec Ideal ⟨2, ![G, C + 1]⟩ .f32 :=
  fun i => if h : (i 1).val < C then segSum G y ids (ix2 (i 0) ⟨(i 1).val, h⟩) else segCnt ids one (i 0).val

/-- The mean over each segment, an empty segment's divisor raised to `one`. -/
def segMean {N C : Nat} (G : Nat) (y : FVec Ideal ⟨2, ![N, C]⟩ .f32) (ids : Fin N → BitVec 32) (one : EReal) :
    FVec Ideal ⟨2, ![G, C]⟩ .f32 :=
  fun i => Ideal.div (segSum G y ids i) (max (segCnt ids one (i 0).val) one)

end Cert.Spec

end
-- ==== Proof.KStages.lean ====
/-
  The kernel program's host stretches as named functions of @main's arguments, at the extended reals, and the whole
  program's result as their composition with the regions' whole-array functions (Spec.lean).

  `src`, `dst` : the two rows of the edge list. `dinv` : (1 + in-degree)^(-1/2) per node. `nidx` : an index vector with
  its negative entries wrapped by the node count, as a column. `enorm` : dinv[src] · dinv[dst] per edge, as a column.
  `snorm` : dinv² per node, as a column. `agg xw` : the rows of `xw` gathered at `src`, scaled by `enorm`, and added
  up at `dst`. `wk k`, `bk k` : hop k's weight matrix and bias row. `fin p` : the first ten columns of `p` over its
  last column raised to at least one.
-/
import proofs.«427692_j27324581937611_1_alg».proof.Proof.Gen.KernelIdeal
import proofs.«427692_j27324581937611_1_alg».proof.Proof.Spec

noncomputable section

namespace Cert.KernelIdeal.Stage

open Cert.KernelIdeal Cert.KernelIdeal.Facts₀ Cert.KernelIdeal.Facts Idealize.ShloMosaic Idealize.ShloMosaic.ValueIdx

def src (x1 : IVec S2x800000 32) : IVec S800000 32 :=
  shapeCast S800000 (extractStridedSlice S1x800000 ![0, 0] x1 slices_S2x800000_S1x800000_0_0) shapeCasts_S1x800000_S800000
def dst (x1 : IVec S2x800000 32) : IVec S800000 32 :=
  shapeCast S800000 (extractStridedSlice S1x800000 ![1, 0] x1 slices_S2x800000_S1x800000_1_0) shapeCasts_S1x800000_S800000
/-- The segment ids as a column. -/
def idcol (x2 : IVec S50000 32) : IVec S50000x1 32 := shapeCast S50000x1 x2 shapeCasts_S50000_S50000x1
/-- (1 + the number of edges arriving at a node) to the power -1/2. -/
def dinv (x1 : IVec S2x800000 32) : FVec Ideal S50000 .f32 :=
  Host.powf
    (addf (broadcastInDim S50000 ![] bcast_S_S50000 (constant S_ .f32 0x3F800000#32))
      (Host.scatterAdd scatter_S50000_S800000x1_S800000_n_0_0_1
        (broadcastInDim S50000 ![] bcast_S_S50000 (constant S_ .f32 0x00000000#32))
        (broadcastInDim S800000x1 ![0] bcast_S800000_S800000x1_0 (dst x1))
        (broadcastInDim S800000 ![] bcast_S_S800000 (constant S_ .f32 0x3F800000#32))))
    (broadcastInDim S50000 ![] bcast_S_S50000 (constant S_ .f32 0xBF000000#32))
/-- An index vector, negative entries wrapped by the node count, as a column of gather indices. -/
def nidx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
def enorm (x1 : IVec S2x800000 32) : FVec Ideal S800000x1 .f32 :=
  broadcastInDim S800000x1 ![0] bcast_S800000_S800000x1_0
    (mulf (Host.gather gather_S50000_S800000x1_S800000_n_0_n_n_0_1_1 (dinv x1) (nidx (src x1)))
      (Host.gather gather_S50000_S800000x1_S800000_n_0_n_n_0_1_1 (dinv x1) (nidx (dst x1))))
def snorm (x1 : IVec S2x800000 32) : FVec Ideal S50000x1 .f32 :=
  broadcastInDim S50000x1 ![0] bcast_S50000_S50000x1_0 (mulf (dinv x1) (dinv x1))
/-- The encoder's bias as a row. -/
def brow (x4 : FVec Ideal S128 .f32) : FVec Ideal S1x128 .f32 := shapeCast S1x128 x4 shapeCasts_S128_S1x128
/-- A row of zeros: the bias the hops' matrix products are given. -/
def zrow : FVec Ideal S1x128 .f32 :=
  shapeCast S1x128 (broadcastInDim S128 ![] bcast_S_S128 (constant S_ .f32 0x00000000#32)) shapeCasts_S128_S1x128
def wk0 (x5 : FVec Ideal S4x128x128 .f32) : FVec Ideal S128x128 .f32 :=
  shapeCast S128x128 (extractStridedSlice S1x128x128 ![0, 0, 0] x5 slices_S4x128x128_S1x128x128_0_0_0) shapeCasts_S1x128x128_S128x128
def bk0 (x6 : FVec Ideal S4x128 .f32) : FVec Ideal S1x128 .f32 :=
  shapeCast S1x128 (shapeCast S128 (extractStridedSlice S1x128 ![0, 0] x6 slices_S4x128_S1x128_0_0) shapeCasts_S1x128_S128) shapeCasts_S128_S1x128
def wk1 (x5 : FVec Ideal S4x128x128 .f32) : FVec Ideal S128x128 .f32 :=
  shapeCast S128x128 (extractStridedSlice S1x128x128 ![1, 0, 0] x5 slices_S4x128x128_S1x128x128_1_0_0) shapeCasts_S1x128x128_S128x128
def bk1 (x6 : FVec Ideal S4x128 .f32) : FVec Ideal S1x128 .f32 :=
  shapeCast S1x128 (shapeCast S128 (extractStridedSlice S1x128 ![1, 0] x6 slices_S4x128_S1x128_1_0) shapeCasts_S1x128_S128) shapeCasts_S128_S1x128
def wk2 (x5 : FVec Ideal S4x128x128 .f32) : FVec Ideal S128x128 .f32 :=
  shapeCast S128x128 (extractStridedSlice S1x128x128 ![2, 0, 0] x5 slices_S4x128x128_S1x128x128_2_0_0) shapeCasts_S1x128x128_S128x128
def bk2 (x6 : FVec Ideal S4x128 .f32) : FVec Ideal S1x128 .f32 :=
  shapeCast S1x128 (shapeCast S128 (extractStridedSlice S1x128 ![2, 0] x6 slices_S4x128_S1x128_2_0) shapeCasts_S1x128_S128) shapeCasts_S128_S1x128
def wk3 (x5 : FVec Ideal S4x128x128 .f32) : FVec Ideal S128x128 .f32 :=
  shapeCast S128x128 (extractStridedSlice S1x128x128 ![3, 0, 0] x5 slices_S4x128x128_S1x128x128_3_0_0) shapeCasts_S1x128x128_S128x128
def bk3 (x6 : FVec Ideal S4x128 .f32) : FVec Ideal S1x128 .f32 :=
  shapeCast S1x128 (shapeCast S128 (extractStridedSlice S1x128 ![3, 0] x6 slices_S4x128_S1x128_3_0) shapeCasts_S1x128_S128) shapeCasts_S128_S1x128

/-- Messages: rows of `xw` gathered at the edges' sources, scaled per edge, added up at the edges' targets. -/
def agg (xw : FVec Ideal S50000x128 .f32) (x1 : IVec S2x800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst x1))
    (mulf (Host.gather gather_S50000x128_S800000x1_S800000x128_1_0_n_n_0_1_1128 xw (nidx (src x1)))
      (broadcastInDim S800000x128 ![0, 1] bcast_S800000x1_S800000x128_0_1 (enorm x1)))
/-- The classifier's bias as a row. -/
def crow (x8 : FVec Ideal S10 .f32) : FVec Ideal S1x10 .f32 := shapeCast S1x10 x8 shapeCasts_S10_S1x10
/-- Sums over counts: the first ten columns of `p` divided by its last column raised to at least one. -/
def fin (p : FVec Ideal S128x11 .f32) : FVec Ideal S128x10 .f32 :=
  Host.divf (extractStridedSlice S128x10 ![0, 0] p slices_S128x11_S128x10_0_0)
    (broadcastInDim S128x10 ![0, 1] bcast_S128x1_S128x10_0_1
      (maximumf (extractStridedSlice S128x1 ![0, 10] p slices_S128x11_S128x1_0_10)
        (broadcastInDim S128x1 ![] bcast_S_S128x1 (constant S_ .f32 0x3F800000#32))))

/-- The encoder. -/
def h0 (x0 : FVec Ideal S50000x128 .f32) (x3 : FVec Ideal S128x128 .f32) (x4 : FVec Ideal S128 .f32) : FVec Ideal S50000x128 .f32 :=
  Cert.Spec.linear x0 x3 (brow x4)
/-- Hop 0: the features times the hop's weights, then messages aggregated along the edges, the node's own
    normalized features and the hop's bias added, clamped at zero. -/
def hop0 (h : FVec Ideal S50000x128 .f32) (x1 : IVec S2x800000 32) (x5 : FVec Ideal S4x128x128 .f32) (x6 : FVec Ideal S4x128 .f32) :
    FVec Ideal S50000x128 .f32 :=
  Cert.Spec.combineRelu (agg (Cert.Spec.linear h (wk0 x5) zrow) x1) (Cert.Spec.linear h (wk0 x5) zrow) (snorm x1) (bk0 x6)
/-- Hop 1: the features times the hop's weights, then messages aggregated along the edges, the node's own
    normalized features and the hop's bias added, clamped at zero. -/
def hop1 (h : FVec Ideal S50000x128 .f32) (x1 : IVec S2x800000 32) (x5 : FVec Ideal S4x128x128 .f32) (x6 : FVec Ideal S4x128 .f32) :
    FVec Ideal S50000x128 .f32 :=
  Cert.Spec.combineRelu (agg (Cert.Spec.linear h (wk1 x5) zrow) x1) (Cert.Spec.linear h (wk1 x5) zrow) (snorm x1) (bk1 x6)
/-- Hop 2: the features times the hop's weights, then messages aggregated along the edges, the node's own
    normalized features and the hop's bias added, clamped at zero. -/
def hop2 (h : FVec Ideal S50000x128 .f32) (x1 : IVec S2x800000 32) (x5 : FVec Ideal S4x128x128 .f32) (x6 : FVec Ideal S4x128 .f32) :
    FVec Ideal S50000x128 .f32 :=
  Cert.Spec.combineRelu (agg (Cert.Spec.linear h (wk2 x5) zrow) x1) (Cert.Spec.linear h (wk2 x5) zrow) (snorm x1) (bk2 x6)
/-- Hop 3: the features times the hop's weights, then messages aggregated along the edges, the node's own
    normalized features and the hop's bias added. -/
def hop3 (h : FVec Ideal S50000x128 .f32) (x1 : IVec S2x800000 32) (x5 : FVec Ideal S4x128x128 .f32) (x6 : FVec Ideal S4x128 .f32) :
    FVec Ideal S50000x128 .f32 :=
  Cert.Spec.combine (agg (Cert.Spec.linear h (wk3 x5) zrow) x1) (Cert.Spec.linear h (wk3 x5) zrow) (snorm x1) (bk3 x6)

/-- The classifier's logits per node. -/
def logits (h : FVec Ideal S50000x128 .f32) (x7 : FVec Ideal S128x10 .f32) (x8 : FVec Ideal S10 .f32) : FVec Ideal S50000x10 .f32 :=
  Cert.Spec.linear h x7 (crow x8)

/-- The unit the pooling counts in: the word of 1.0. -/
abbrev one : EReal := Ideal.ofBits .f32 0x3F800000#32

/-- The features after the four hops. -/
def feat (x0 : FVec Ideal S50000x128 .f32) (x1 : IVec S2x800000 32) (x3 : FVec Ideal S128x128 .f32) (x4 : FVec Ideal S128 .f32)
    (x5 : FVec Ideal S4x128x128 .f32) (x6 : FVec Ideal S4x128 .f32) : FVec Ideal S50000x128 .f32 :=
  hop3 (hop2 (hop1 (hop0 (h0 x0 x3 x4) x1 x5 x6) x1 x5 x6) x1 x5 x6) x1 x5 x6

/-- What the kernel program returns, as one function of @main's arguments. -/
def result (x0 : FVec Ideal S50000x128 .f32) (x1 : IVec S2x800000 32) (x2 : IVec S50000 32) (x3 : FVec Ideal S128x128 .f32)
    (x4 : FVec Ideal S128 .f32) (x5 : FVec Ideal S4x128x128 .f32) (x6 : FVec Ideal S4x128 .f32) (x7 : FVec Ideal S128x10 .f32)
    (x8 : FVec Ideal S10 .f32) : FVec Ideal S128x10 .f32 :=
  fin (Cert.Spec.pooled 128 (logits (feat x0 x1 x3 x4 x5 x6) x7 x8) (fun n => idcol x2 (ix2 n 0)) one)

end Cert.KernelIdeal.Stage

end
-- ==== Proof.Keep.lean ====
import proofs.«427692_j27324581937611_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-! ## One step: a host stretch leaves every buffer it does not write -/

/-- The buffers host stretch 0 writes. -/
abbrev wrH0 : List (Ref sig .tc) := [main_v0, main_v1, main_v2, main_v3, main_v4, main_cst, main_v5, main_cst_0, main_v6, main_v7, main_v8, main_cst_1, main_v9, main_v10, main_cst_2, main_v11, main_v12, main_c, main_v13, main_v14, main_c_3, main_v15, main_v16, main_v17, main_v18, main_v19, main_c_4, main_v20, main_v21, main_c_5, main_v22, main_v23, main_v24, main_v25, main_v26, main_v27, main_v28, main_v29, main_v30, main_v31]
theorem hostOps0_writes : (hostOps0 : List (HloOp τ sig (Elt F))).Forall fun op => op.writes ⊆ (wrH0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 0 a buffer it does not write keeps its contents. -/
theorem stepH0 (c : Dev nD) (b : Ref sig .tc) (hb : b ∉ wrH0) : W1 m ρ c (Proc.devRef .tc b) = W0 m ρ c (Proc.devRef .tc b) :=
  StableHlo.after_of_writes_sub _ _ (hostOps0_writes (F := F)) hb

/-- The buffers host stretch 1 writes. -/
abbrev wrH1 : List (Ref sig .tc) := [main_cst_6, main_v33, main_v34, main_v35, main_v36]
theorem hostOps1_writes : (hostOps1 : List (HloOp τ sig (Elt F))).Forall fun op => op.writes ⊆ (wrH1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 1 a buffer it does not write keeps its contents. -/
theorem stepH1 (c : Dev nD) (b : Ref sig .tc) (hb : b ∉ wrH1) : W3 m ρ c (Proc.devRef .tc b) = W2 m ρ c (Proc.devRef .tc b) :=
  StableHlo.after_of_writes_sub _ _ (hostOps1_writes (F := F)) hb

/-- The buffers host stretch 2 writes. -/
abbrev wrH2 : List (Ref sig .tc) := [main_c_7, main_v38, main_v39, main_c_8, main_v40, main_v41, main_v42, main_v43, main_v44, main_v45, main_v46, main_cst_9, main_v47, main_v48, main_v49, main_v50, main_v51, main_v52]
theorem hostOps2_writes : (hostOps2 : List (HloOp τ sig (Elt F))).Forall fun op => op.writes ⊆ (wrH2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 2 a buffer it does not write keeps its contents. -/
theorem stepH2 (c : Dev nD) (b : Ref sig .tc) (hb : b ∉ wrH2) : W5 m ρ c (Proc.devRef .tc b) = W4 m ρ c (Proc.devRef .tc b) :=
  StableHlo.after_of_writes_sub _ _ (hostOps2_writes (F := F)) hb

/-- The buffers host stretch 3 writes. -/
abbrev wrH3 : List (Ref sig .tc) := [main_v54, main_v55, main_v56]
theorem hostOps3_writes : (hostOps3 : List (HloOp τ sig (Elt F))).Forall fun op => op.writes ⊆ (wrH3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 3 a buffer it does not write keeps its contents. -/
theorem stepH3 (c : Dev nD) (b : Ref sig .tc) (hb : b ∉ wrH3) : W7 m ρ c (Proc.devRef .tc b) = W6 m ρ c (Proc.devRef .tc b) :=
  StableHlo.after_of_writes_sub _ _ (hostOps3_writes (F := F)) hb

/-- The buffers host stretch 4 writes. -/
abbrev wrH4 : List (Ref sig .tc) := [main_c_10, main_v58, main_v59, main_c_11, main_v60, main_v61, main_v62, main_v63, main_v64, main_v65, main_v66, main_cst_12, main_v67, main_v68, main_v69, main_v70, main_v71, main_v72]
theorem hostOps4_writes : (hostOps4 : List (HloOp τ sig (Elt F))).Forall fun op => op.writes ⊆ (wrH4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 4 a buffer it does not write keeps its contents. -/
theorem stepH4 (c : Dev nD) (b : Ref sig .tc) (hb : b ∉ wrH4) : W9 m ρ c (Proc.devRef .tc b) = W8 m ρ c (Proc.devRef .tc b) :=
  StableHlo.after_of_writes_sub _ _ (hostOps4_writes (F := F)) hb

/-- The buffers host stretch 5 writes. -/
abbrev wrH5 : List (Ref sig .tc) := [main_v74, main_v75, main_v76]
theorem hostOps5_writes : (hostOps5 : List (HloOp τ sig (Elt F))).Forall fun op => op.writes ⊆ (wrH5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 5 a buffer it does not write keeps its contents. -/
theorem stepH5 (c : Dev nD) (b : Ref sig .tc) (hb : b ∉ wrH5) : W11 m ρ c (Proc.devRef .tc b) = W10 m ρ c (Proc.devRef .tc b) :=
  StableHlo.after_of_writes_sub _ _ (hostOps5_writes (F := F)) hb

/-- The buffers host stretch 6 writes. -/
abbrev wrH6 : List (Ref sig .tc) := [main_c_13, main_v78, main_v79, main_c_14, main_v80, main_v81, main_v82, main_v83, main_v84, main_v85, main_v86, main_cst_15, main_v87, main_v88, main_v89, main_v90, main_v91, main_v92]
theorem hostOps6_writes : (hostOps6 : List (HloOp τ sig (Elt F))).Forall fun op => op.writes ⊆ (wrH6.map (Proc.devRef (τ := τ) .tc)).toFinset := by
  simp only [hostOps6, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 6 a buffer it does not write keeps its contents. -/
theorem stepH6 (c : Dev nD) (b : Ref sig .tc) (hb : b ∉ wrH6) : W13 m ρ c (Proc.devRef .tc b) = W12 m ρ c (Proc.devRef .tc b) :=
  StableHlo.after_of_writes_sub _ _ (hostOps6_writes (F := F)) hb

/-- The buffers host stretch 7 writes. -/
abbrev wrH7 : List (Ref sig .tc) := [main_v94, main_v95, main_v96]
theorem hostOps7_writes : (hostOps7 : List (HloOp τ sig (Elt F))).Forall fun op => op.writes ⊆ (wrH7.map (Proc.devRef (τ := τ) .tc)).toFinset := by
  simp only [hostOps7, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 7 a buffer it does not write keeps its contents. -/
theorem stepH7 (c : Dev nD) (b : Ref sig .tc) (hb : b ∉ wrH7) : W15 m ρ c (Proc.devRef .tc b) = W14 m ρ c (Proc.devRef .tc b) :=
  StableHlo.after_of_writes_sub _ _ (hostOps7_writes (F := F)) hb

/-- The buffers host stretch 8 writes. -/
abbrev wrH8 : List (Ref sig .tc) := [main_c_16, main_v98, main_v99, main_c_17, main_v100, main_v101, main_v102, main_v103, main_v104, main_v105, main_v106, main_cst_18, main_v107, main_v108, main_v109, main_v110, main_v111, main_v112]
theorem hostOps8_writes : (hostOps8 : List (HloOp τ sig (Elt F))).Forall fun op => op.writes ⊆ (wrH8.map (Proc.devRef (τ := τ) .tc)).toFinset := by
  simp only [hostOps8, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 8 a buffer it does not write keeps its contents. -/
theorem stepH8 (c : Dev nD) (b : Ref sig .tc) (hb : b ∉ wrH8) : W17 m ρ c (Proc.devRef .tc b) = W16 m ρ c (Proc.devRef .tc b) :=
  StableHlo.after_of_writes_sub _ _ (hostOps8_writes (F := F)) hb

/-- The buffers host stretch 9 writes. -/
abbrev wrH9 : List (Ref sig .tc) := [main_v114]
theorem hostOps9_writes : (hostOps9 : List (HloOp τ sig (Elt F))).Forall fun op => op.writes ⊆ (wrH9.map (Proc.devRef (τ := τ) .tc)).toFinset := by
  simp only [hostOps9, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 9 a buffer it does not write keeps its contents. -/
theorem stepH9 (c : Dev nD) (b : Ref sig .tc) (hb : b ∉ wrH9) : W19 m ρ c (Proc.devRef .tc b) = W18 m ρ c (Proc.devRef .tc b) :=
  StableHlo.after_of_writes_sub _ _ (hostOps9_writes (F := F)) hb

/-- The buffers host stretch 11 writes. -/
abbrev wrH11 : List (Ref sig .tc) := [main_v117, main_v118, main_cst_19, main_v119, main_v120, main_v121, main_v122]
theorem hostOps11_writes : (hostOps11 : List (HloOp τ sig (Elt F))).Forall fun op => op.writes ⊆ (wrH11.map (Proc.devRef (τ := τ) .tc)).toFinset := by
  simp only [hostOps11, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- Across host stretch 11 a buffer it does not write keeps its contents. -/
theorem stepH11 (c : Dev nD) (b : Ref sig .tc) (hb : b ∉ wrH11) : W22 m ρ c (Proc.devRef .tc b) = W21 m ρ c (Proc.devRef .tc b) :=
  StableHlo.after_of_writes_sub _ _ (hostOps11_writes (F := F)) hb

/-! ## One step: a region leaves every buffer that is not one of its arrays -/

theorem stepR0 (c : Dev nD) (b : Ref sig .tc) (hb : ∀ w, Pipeline.arrRef spec0 w ≠ b) : W2 m ρ c (Proc.devRef .tc b) = W1 m ρ c (Proc.devRef .tc b) :=
  W2_of_ne m ρ c b hb
theorem stepR1 (c : Dev nD) (b : Ref sig .tc) (hb : ∀ w, Pipeline.arrRef spec1 w ≠ b) : W4 m ρ c (Proc.devRef .tc b) = W3 m ρ c (Proc.devRef .tc b) :=
  W4_of_ne m ρ c b hb
theorem stepR2 (c : Dev nD) (b : Ref sig .tc) (hb : ∀ w, Pipeline.arrRef spec2 w ≠ b) : W6 m ρ c (Proc.devRef .tc b) = W5 m ρ c (Proc.devRef .tc b) :=
  W6_of_ne m ρ c b hb
theorem stepR3 (c : Dev nD) (b : Ref sig .tc) (hb : ∀ w, Pipeline.arrRef spec3 w ≠ b) : W8 m ρ c (Proc.devRef .tc b) = W7 m ρ c (Proc.devRef .tc b) :=
  W8_of_ne m ρ c b hb
theorem stepR4 (c : Dev nD) (b : Ref sig .tc) (hb : ∀ w, Pipeline.arrRef spec4 w ≠ b) : W10 m ρ c (Proc.devRef .tc b) = W9 m ρ c (Proc.devRef .tc b) :=
  W10_of_ne m ρ c b hb
theorem stepR5 (c : Dev nD) (b : Ref sig .tc) (hb : ∀ w, Pipeline.arrRef spec5 w ≠ b) : W12 m ρ c (Proc.devRef .tc b) = W11 m ρ c (Proc.devRef .tc b) :=
  W12_of_ne m ρ c b hb
theorem stepR6 (c : Dev nD) (b : Ref sig .tc) (hb : ∀ w, Pipeline.arrRef spec6 w ≠ b) : W14 m ρ c (Proc.devRef .tc b) = W13 m ρ c (Proc.devRef .tc b) :=
  W14_of_ne m ρ c b hb
theorem stepR7 (c : Dev nD) (b : Ref sig .tc) (hb : ∀ w, Pipeline.arrRef spec7 w ≠ b) : W16 m ρ c (Proc.devRef .tc b) = W15 m ρ c (Proc.devRef .tc b) :=
  W16_of_ne m ρ c b hb
theorem stepR8 (c : Dev nD) (b : Ref sig .tc) (hb : ∀ w, Pipeline.arrRef spec8 w ≠ b) : W18 m ρ c (Proc.devRef .tc b) = W17 m ρ c (Proc.devRef .tc b) :=
  W18_of_ne m ρ c b hb
theorem stepR9 (c : Dev nD) (b : Ref sig .tc) (hb : ∀ w, Pipeline.arrRef spec9 w ≠ b) : W20 m ρ c (Proc.devRef .tc b) = W19 m ρ c (Proc.devRef .tc b) :=
  W20_of_ne m ρ c b hb
theorem stepR10 (c : Dev nD) (b : Ref sig .tc) (hb : ∀ w, Pipeline.arrRef spec10 w ≠ b) : W21 m ρ c (Proc.devRef .tc b) = W20 m ρ c (Proc.devRef .tc b) :=
  W21_of_ne m ρ c b hb

/-! ## One step: a region leaves an input window's array as it found it -/

theorem stepR2_in2 (c : Dev nD) : W6 m ρ c (Proc.devRef .tc main_v30) = W5 m ρ c (Proc.devRef .tc main_v30) :=
  (W6_arr m ρ c 2).trans (((dat2 (V5 m ρ) c).arrAt_in 2 rfl _).trans (A_eq2 (V5 m ρ) c 2))
theorem stepR4_in2 (c : Dev nD) : W10 m ρ c (Proc.devRef .tc main_v30) = W9 m ρ c (Proc.devRef .tc main_v30) :=
  (W10_arr m ρ c 2).trans (((dat4 (V9 m ρ) c).arrAt_in 2 rfl _).trans (A_eq4 (V9 m ρ) c 2))
theorem stepR6_in2 (c : Dev nD) : W14 m ρ c (Proc.devRef .tc main_v30) = W13 m ρ c (Proc.devRef .tc main_v30) :=
  (W14_arr m ρ c 2).trans (((dat6 (V13 m ρ) c).arrAt_in 2 rfl _).trans (A_eq6 (V13 m ρ) c 2))
theorem stepR8_in2 (c : Dev nD) : W18 m ρ c (Proc.devRef .tc main_v30) = W17 m ρ c (Proc.devRef .tc main_v30) :=
  (W18_arr m ρ c 2).trans (((dat8 (V17 m ρ) c).arrAt_in 2 rfl _).trans (A_eq8 (V17 m ρ) c 2))

/-! ## Buffers read downstream of the boundary where they were last written -/

theorem keep_v1_W4 (c : Dev nD) : W4 m ρ c (Proc.devRef .tc main_v1) = W1 m ρ c (Proc.devRef .tc main_v1) :=
  (stepR1 m ρ c main_v1 (by decide)).trans ((stepH1 m ρ c main_v1 (by decide)).trans (stepR0 m ρ c main_v1 (by decide)))
theorem keep_v1_W8 (c : Dev nD) : W8 m ρ c (Proc.devRef .tc main_v1) = W1 m ρ c (Proc.devRef .tc main_v1) :=
  (stepR3 m ρ c main_v1 (by decide)).trans ((stepH3 m ρ c main_v1 (by decide)).trans ((stepR2 m ρ c main_v1 (by decide)).trans ((stepH2 m ρ c main_v1 (by decide)).trans ((stepR1 m ρ c main_v1 (by decide)).trans ((stepH1 m ρ c main_v1 (by decide)).trans (stepR0 m ρ c main_v1 (by decide)))))))
theorem keep_v1_W12 (c : Dev nD) : W12 m ρ c (Proc.devRef .tc main_v1) = W1 m ρ c (Proc.devRef .tc main_v1) :=
  (stepR5 m ρ c main_v1 (by decide)).trans ((stepH5 m ρ c main_v1 (by decide)).trans ((stepR4 m ρ c main_v1 (by decide)).trans ((stepH4 m ρ c main_v1 (by decide)).trans ((stepR3 m ρ c main_v1 (by decide)).trans ((stepH3 m ρ c main_v1 (by decide)).trans ((stepR2 m ρ c main_v1 (by decide)).trans ((stepH2 m ρ c main_v1 (by decide)).trans ((stepR1 m ρ c main_v1 (by decide)).trans ((stepH1 m ρ c main_v1 (by decide)).trans (stepR0 m ρ c main_v1 (by decide)))))))))))
theorem keep_v1_W16 (c : Dev nD) : W16 m ρ c (Proc.devRef .tc main_v1) = W1 m ρ c (Proc.devRef .tc main_v1) :=
  (stepR7 m ρ c main_v1 (by decide)).trans ((stepH7 m ρ c main_v1 (by decide)).trans ((stepR6 m ρ c main_v1 (by decide)).trans ((stepH6 m ρ c main_v1 (by decide)).trans ((stepR5 m ρ c main_v1 (by decide)).trans ((stepH5 m ρ c main_v1 (by decide)).trans ((stepR4 m ρ c main_v1 (by decide)).trans ((stepH4 m ρ c main_v1 (by decide)).trans ((stepR3 m ρ c main_v1 (by decide)).trans ((stepH3 m ρ c main_v1 (by decide)).trans ((stepR2 m ρ c main_v1 (by decide)).trans ((stepH2 m ρ c main_v1 (by decide)).trans ((stepR1 m ρ c main_v1 (by decide)).trans ((stepH1 m ρ c main_v1 (by decide)).trans (stepR0 m ρ c main_v1 (by decide)))))))))))))))
theorem keep_v3_W4 (c : Dev nD) : W4 m ρ c (Proc.devRef .tc main_v3) = W1 m ρ c (Proc.devRef .tc main_v3) :=
  (stepR1 m ρ c main_v3 (by decide)).trans ((stepH1 m ρ c main_v3 (by decide)).trans (stepR0 m ρ c main_v3 (by decide)))
theorem keep_v3_W8 (c : Dev nD) : W8 m ρ c (Proc.devRef .tc main_v3) = W1 m ρ c (Proc.devRef .tc main_v3) :=
  (stepR3 m ρ c main_v3 (by decide)).trans ((stepH3 m ρ c main_v3 (by decide)).trans ((stepR2 m ρ c main_v3 (by decide)).trans ((stepH2 m ρ c main_v3 (by decide)).trans ((stepR1 m ρ c main_v3 (by decide)).trans ((stepH1 m ρ c main_v3 (by decide)).trans (stepR0 m ρ c main_v3 (by decide)))))))
theorem keep_v3_W12 (c : Dev nD) : W12 m ρ c (Proc.devRef .tc main_v3) = W1 m ρ c (Proc.devRef .tc main_v3) :=
  (stepR5 m ρ c main_v3 (by decide)).trans ((stepH5 m ρ c main_v3 (by decide)).trans ((stepR4 m ρ c main_v3 (by decide)).trans ((stepH4 m ρ c main_v3 (by decide)).trans ((stepR3 m ρ c main_v3 (by decide)).trans ((stepH3 m ρ c main_v3 (by decide)).trans ((stepR2 m ρ c main_v3 (by decide)).trans ((stepH2 m ρ c main_v3 (by decide)).trans ((stepR1 m ρ c main_v3 (by decide)).trans ((stepH1 m ρ c main_v3 (by decide)).trans (stepR0 m ρ c main_v3 (by decide)))))))))))
theorem keep_v3_W16 (c : Dev nD) : W16 m ρ c (Proc.devRef .tc main_v3) = W1 m ρ c (Proc.devRef .tc main_v3) :=
  (stepR7 m ρ c main_v3 (by decide)).trans ((stepH7 m ρ c main_v3 (by decide)).trans ((stepR6 m ρ c main_v3 (by decide)).trans ((stepH6 m ρ c main_v3 (by decide)).trans ((stepR5 m ρ c main_v3 (by decide)).trans ((stepH5 m ρ c main_v3 (by decide)).trans ((stepR4 m ρ c main_v3 (by decide)).trans ((stepH4 m ρ c main_v3 (by decide)).trans ((stepR3 m ρ c main_v3 (by decide)).trans ((stepH3 m ρ c main_v3 (by decide)).trans ((stepR2 m ρ c main_v3 (by decide)).trans ((stepH2 m ρ c main_v3 (by decide)).trans ((stepR1 m ρ c main_v3 (by decide)).trans ((stepH1 m ρ c main_v3 (by decide)).trans (stepR0 m ρ c main_v3 (by decide)))))))))))))))
theorem keep_v28_W4 (c : Dev nD) : W4 m ρ c (Proc.devRef .tc main_v28) = W1 m ρ c (Proc.devRef .tc main_v28) :=
  (stepR1 m ρ c main_v28 (by decide)).trans ((stepH1 m ρ c main_v28 (by decide)).trans (stepR0 m ρ c main_v28 (by decide)))
theorem keep_v28_W8 (c : Dev nD) : W8 m ρ c (Proc.devRef .tc main_v28) = W1 m ρ c (Proc.devRef .tc main_v28) :=
  (stepR3 m ρ c main_v28 (by decide)).trans ((stepH3 m ρ c main_v28 (by decide)).trans ((stepR2 m ρ c main_v28 (by decide)).trans ((stepH2 m ρ c main_v28 (by decide)).trans ((stepR1 m ρ c main_v28 (by decide)).trans ((stepH1 m ρ c main_v28 (by decide)).trans (stepR0 m ρ c main_v28 (by decide)))))))
theorem keep_v28_W12 (c : Dev nD) : W12 m ρ c (Proc.devRef .tc main_v28) = W1 m ρ c (Proc.devRef .tc main_v28) :=
  (stepR5 m ρ c main_v28 (by decide)).trans ((stepH5 m ρ c main_v28 (by decide)).trans ((stepR4 m ρ c main_v28 (by decide)).trans ((stepH4 m ρ c main_v28 (by decide)).trans ((stepR3 m ρ c main_v28 (by decide)).trans ((stepH3 m ρ c main_v28 (by decide)).trans ((stepR2 m ρ c main_v28 (by decide)).trans ((stepH2 m ρ c main_v28 (by decide)).trans ((stepR1 m ρ c main_v28 (by decide)).trans ((stepH1 m ρ c main_v28 (by decide)).trans (stepR0 m ρ c main_v28 (by decide)))))))))))
theorem keep_v28_W16 (c : Dev nD) : W16 m ρ c (Proc.devRef .tc main_v28) = W1 m ρ c (Proc.devRef .tc main_v28) :=
  (stepR7 m ρ c main_v28 (by decide)).trans ((stepH7 m ρ c main_v28 (by decide)).trans ((stepR6 m ρ c main_v28 (by decide)).trans ((stepH6 m ρ c main_v28 (by decide)).trans ((stepR5 m ρ c main_v28 (by decide)).trans ((stepH5 m ρ c main_v28 (by decide)).trans ((stepR4 m ρ c main_v28 (by decide)).trans ((stepH4 m ρ c main_v28 (by decide)).trans ((stepR3 m ρ c main_v28 (by decide)).trans ((stepH3 m ρ c main_v28 (by decide)).trans ((stepR2 m ρ c main_v28 (by decide)).trans ((stepH2 m ρ c main_v28 (by decide)).trans ((stepR1 m ρ c main_v28 (by decide)).trans ((stepH1 m ρ c main_v28 (by decide)).trans (stepR0 m ρ c main_v28 (by decide)))))))))))))))
theorem keep_v30_W5 (c : Dev nD) : W5 m ρ c (Proc.devRef .tc main_v30) = W1 m ρ c (Proc.devRef .tc main_v30) :=
  (stepH2 m ρ c main_v30 (by decide)).trans ((stepR1 m ρ c main_v30 (by decide)).trans ((stepH1 m ρ c main_v30 (by decide)).trans (stepR0 m ρ c main_v30 (by decide))))
theorem keep_v30_W9 (c : Dev nD) : W9 m ρ c (Proc.devRef .tc main_v30) = W1 m ρ c (Proc.devRef .tc main_v30) :=
  (stepH4 m ρ c main_v30 (by decide)).trans ((stepR3 m ρ c main_v30 (by decide)).trans ((stepH3 m ρ c main_v30 (by decide)).trans ((stepR2_in2 m ρ c).trans ((stepH2 m ρ c main_v30 (by decide)).trans ((stepR1 m ρ c main_v30 (by decide)).trans ((stepH1 m ρ c main_v30 (by decide)).trans (stepR0 m ρ c main_v30 (by decide))))))))
theorem keep_v30_W13 (c : Dev nD) : W13 m ρ c (Proc.devRef .tc main_v30) = W1 m ρ c (Proc.devRef .tc main_v30) :=
  (stepH6 m ρ c main_v30 (by decide)).trans ((stepR5 m ρ c main_v30 (by decide)).trans ((stepH5 m ρ c main_v30 (by decide)).trans ((stepR4_in2 m ρ c).trans ((stepH4 m ρ c main_v30 (by decide)).trans ((stepR3 m ρ c main_v30 (by decide)).trans ((stepH3 m ρ c main_v30 (by decide)).trans ((stepR2_in2 m ρ c).trans ((stepH2 m ρ c main_v30 (by decide)).trans ((stepR1 m ρ c main_v30 (by decide)).trans ((stepH1 m ρ c main_v30 (by decide)).trans (stepR0 m ρ c main_v30 (by decide))))))))))))
theorem keep_v30_W17 (c : Dev nD) : W17 m ρ c (Proc.devRef .tc main_v30) = W1 m ρ c (Proc.devRef .tc main_v30) :=
  (stepH8 m ρ c main_v30 (by decide)).trans ((stepR7 m ρ c main_v30 (by decide)).trans ((stepH7 m ρ c main_v30 (by decide)).trans ((stepR6_in2 m ρ c).trans ((stepH6 m ρ c main_v30 (by decide)).trans ((stepR5 m ρ c main_v30 (by decide)).trans ((stepH5 m ρ c main_v30 (by decide)).trans ((stepR4_in2 m ρ c).trans ((stepH4 m ρ c main_v30 (by decide)).trans ((stepR3 m ρ c main_v30 (by decide)).trans ((stepH3 m ρ c main_v30 (by decide)).trans ((stepR2_in2 m ρ c).trans ((stepH2 m ρ c main_v30 (by decide)).trans ((stepR1 m ρ c main_v30 (by decide)).trans ((stepH1 m ρ c main_v30 (by decide)).trans (stepR0 m ρ c main_v30 (by decide))))))))))))))))
theorem keep_v4_W20 (c : Dev nD) : W20 m ρ c (Proc.devRef .tc main_v4) = W1 m ρ c (Proc.devRef .tc main_v4) :=
  (stepR9 m ρ c main_v4 (by decide)).trans ((stepH9 m ρ c main_v4 (by decide)).trans ((stepR8 m ρ c main_v4 (by decide)).trans ((stepH8 m ρ c main_v4 (by decide)).trans ((stepR7 m ρ c main_v4 (by decide)).trans ((stepH7 m ρ c main_v4 (by decide)).trans ((stepR6 m ρ c main_v4 (by decide)).trans ((stepH6 m ρ c main_v4 (by decide)).trans ((stepR5 m ρ c main_v4 (by decide)).trans ((stepH5 m ρ c main_v4 (by decide)).trans ((stepR4 m ρ c main_v4 (by decide)).trans ((stepH4 m ρ c main_v4 (by decide)).trans ((stepR3 m ρ c main_v4 (by decide)).trans ((stepH3 m ρ c main_v4 (by decide)).trans ((stepR2 m ρ c main_v4 (by decide)).trans ((stepH2 m ρ c main_v4 (by decide)).trans ((stepR1 m ρ c main_v4 (by decide)).trans ((stepH1 m ρ c main_v4 (by decide)).trans (stepR0 m ρ c main_v4 (by decide)))))))))))))))))))
theorem keep_v33_W6 (c : Dev nD) : W6 m ρ c (Proc.devRef .tc main_v33) = W3 m ρ c (Proc.devRef .tc main_v33) :=
  (stepR2 m ρ c main_v33 (by decide)).trans ((stepH2 m ρ c main_v33 (by decide)).trans (stepR1 m ρ c main_v33 (by decide)))
theorem keep_v33_W10 (c : Dev nD) : W10 m ρ c (Proc.devRef .tc main_v33) = W3 m ρ c (Proc.devRef .tc main_v33) :=
  (stepR4 m ρ c main_v33 (by decide)).trans ((stepH4 m ρ c main_v33 (by decide)).trans ((stepR3 m ρ c main_v33 (by decide)).trans ((stepH3 m ρ c main_v33 (by decide)).trans ((stepR2 m ρ c main_v33 (by decide)).trans ((stepH2 m ρ c main_v33 (by decide)).trans (stepR1 m ρ c main_v33 (by decide)))))))
theorem keep_v33_W14 (c : Dev nD) : W14 m ρ c (Proc.devRef .tc main_v33) = W3 m ρ c (Proc.devRef .tc main_v33) :=
  (stepR6 m ρ c main_v33 (by decide)).trans ((stepH6 m ρ c main_v33 (by decide)).trans ((stepR5 m ρ c main_v33 (by decide)).trans ((stepH5 m ρ c main_v33 (by decide)).trans ((stepR4 m ρ c main_v33 (by decide)).trans ((stepH4 m ρ c main_v33 (by decide)).trans ((stepR3 m ρ c main_v33 (by decide)).trans ((stepH3 m ρ c main_v33 (by decide)).trans ((stepR2 m ρ c main_v33 (by decide)).trans ((stepH2 m ρ c main_v33 (by decide)).trans (stepR1 m ρ c main_v33 (by decide)))))))))))
theorem keep_arg0_W1 (c : Dev nD) : W1 m ρ c (Proc.devRef .tc main_arg0) = W0 m ρ c (Proc.devRef .tc main_arg0) :=
  stepH0 m ρ c main_arg0 (by decide)
theorem keep_arg3_W1 (c : Dev nD) : W1 m ρ c (Proc.devRef .tc main_arg3) = W0 m ρ c (Proc.devRef .tc main_arg3) :=
  stepH0 m ρ c main_arg3 (by decide)
theorem keep_arg5_W2 (c : Dev nD) : W2 m ρ c (Proc.devRef .tc main_arg5) = W0 m ρ c (Proc.devRef .tc main_arg5) :=
  (stepR0 m ρ c main_arg5 (by decide)).trans (stepH0 m ρ c main_arg5 (by decide))
theorem keep_arg5_W6 (c : Dev nD) : W6 m ρ c (Proc.devRef .tc main_arg5) = W0 m ρ c (Proc.devRef .tc main_arg5) :=
  (stepR2 m ρ c main_arg5 (by decide)).trans ((stepH2 m ρ c main_arg5 (by decide)).trans ((stepR1 m ρ c main_arg5 (by decide)).trans ((stepH1 m ρ c main_arg5 (by decide)).trans ((stepR0 m ρ c main_arg5 (by decide)).trans (stepH0 m ρ c main_arg5 (by decide))))))
theorem keep_arg5_W10 (c : Dev nD) : W10 m ρ c (Proc.devRef .tc main_arg5) = W0 m ρ c (Proc.devRef .tc main_arg5) :=
  (stepR4 m ρ c main_arg5 (by decide)).trans ((stepH4 m ρ c main_arg5 (by decide)).trans ((stepR3 m ρ c main_arg5 (by decide)).trans ((stepH3 m ρ c main_arg5 (by decide)).trans ((stepR2 m ρ c main_arg5 (by decide)).trans ((stepH2 m ρ c main_arg5 (by decide)).trans ((stepR1 m ρ c main_arg5 (by decide)).trans ((stepH1 m ρ c main_arg5 (by decide)).trans ((stepR0 m ρ c main_arg5 (by decide)).trans (stepH0 m ρ c main_arg5 (by decide))))))))))
theorem keep_arg5_W14 (c : Dev nD) : W14 m ρ c (Proc.devRef .tc main_arg5) = W0 m ρ c (Proc.devRef .tc main_arg5) :=
  (stepR6 m ρ c main_arg5 (by decide)).trans ((stepH6 m ρ c main_arg5 (by decide)).trans ((stepR5 m ρ c main_arg5 (by decide)).trans ((stepH5 m ρ c main_arg5 (by decide)).trans ((stepR4 m ρ c main_arg5 (by decide)).trans ((stepH4 m ρ c main_arg5 (by decide)).trans ((stepR3 m ρ c main_arg5 (by decide)).trans ((stepH3 m ρ c main_arg5 (by decide)).trans ((stepR2 m ρ c main_arg5 (by decide)).trans ((stepH2 m ρ c main_arg5 (by decide)).trans ((stepR1 m ρ c main_arg5 (by decide)).trans ((stepH1 m ρ c main_arg5 (by decide)).trans ((stepR0 m ρ c main_arg5 (by decide)).trans (stepH0 m ρ c main_arg5 (by decide))))))))))))))
theorem keep_arg6_W4 (c : Dev nD) : W4 m ρ c (Proc.devRef .tc main_arg6) = W0 m ρ c (Proc.devRef .tc main_arg6) :=
  (stepR1 m ρ c main_arg6 (by decide)).trans ((stepH1 m ρ c main_arg6 (by decide)).trans ((stepR0 m ρ c main_arg6 (by decide)).trans (stepH0 m ρ c main_arg6 (by decide))))
theorem keep_arg6_W8 (c : Dev nD) : W8 m ρ c (Proc.devRef .tc main_arg6) = W0 m ρ c (Proc.devRef .tc main_arg6) :=
  (stepR3 m ρ c main_arg6 (by decide)).trans ((stepH3 m ρ c main_arg6 (by decide)).trans ((stepR2 m ρ c main_arg6 (by decide)).trans ((stepH2 m ρ c main_arg6 (by decide)).trans ((stepR1 m ρ c main_arg6 (by decide)).trans ((stepH1 m ρ c main_arg6 (by decide)).trans ((stepR0 m ρ c main_arg6 (by decide)).trans (stepH0 m ρ c main_arg6 (by decide))))))))
theorem keep_arg6_W12 (c : Dev nD) : W12 m ρ c (Proc.devRef .tc main_arg6) = W0 m ρ c (Proc.devRef .tc main_arg6) :=
  (stepR5 m ρ c main_arg6 (by decide)).trans ((stepH5 m ρ c main_arg6 (by decide)).trans ((stepR4 m ρ c main_arg6 (by decide)).trans ((stepH4 m ρ c main_arg6 (by decide)).trans ((stepR3 m ρ c main_arg6 (by decide)).trans ((stepH3 m ρ c main_arg6 (by decide)).trans ((stepR2 m ρ c main_arg6 (by decide)).trans ((stepH2 m ρ c main_arg6 (by decide)).trans ((stepR1 m ρ c main_arg6 (by decide)).trans ((stepH1 m ρ c main_arg6 (by decide)).trans ((stepR0 m ρ c main_arg6 (by decide)).trans (stepH0 m ρ c main_arg6 (by decide))))))))))))
theorem keep_arg6_W16 (c : Dev nD) : W16 m ρ c (Proc.devRef .tc main_arg6) = W0 m ρ c (Proc.devRef .tc main_arg6) :=
  (stepR7 m ρ c main_arg6 (by decide)).trans ((stepH7 m ρ c main_arg6 (by decide)).trans ((stepR6 m ρ c main_arg6 (by decide)).trans ((stepH6 m ρ c main_arg6 (by decide)).trans ((stepR5 m ρ c main_arg6 (by decide)).trans ((stepH5 m ρ c main_arg6 (by decide)).trans ((stepR4 m ρ c main_arg6 (by decide)).trans ((stepH4 m ρ c main_arg6 (by decide)).trans ((stepR3 m ρ c main_arg6 (by decide)).trans ((stepH3 m ρ c main_arg6 (by decide)).trans ((stepR2 m ρ c main_arg6 (by decide)).trans ((stepH2 m ρ c main_arg6 (by decide)).trans ((stepR1 m ρ c main_arg6 (by decide)).trans ((stepH1 m ρ c main_arg6 (by decide)).trans ((stepR0 m ρ c main_arg6 (by decide)).trans (stepH0 m ρ c main_arg6 (by decide))))))))))))))))
theorem keep_arg7_W19 (c : Dev nD) : W19 m ρ c (Proc.devRef .tc main_arg7) = W0 m ρ c (Proc.devRef .tc main_arg7) :=
  (stepH9 m ρ c main_arg7 (by decide)).trans ((stepR8 m ρ c main_arg7 (by decide)).trans ((stepH8 m ρ c main_arg7 (by decide)).trans ((stepR7 m ρ c main_arg7 (by decide)).trans ((stepH7 m ρ c main_arg7 (by decide)).trans ((stepR6 m ρ c main_arg7 (by decide)).trans ((stepH6 m ρ c main_arg7 (by decide)).trans ((stepR5 m ρ c main_arg7 (by decide)).trans ((stepH5 m ρ c main_arg7 (by decide)).trans ((stepR4 m ρ c main_arg7 (by decide)).trans ((stepH4 m ρ c main_arg7 (by decide)).trans ((stepR3 m ρ c main_arg7 (by decide)).trans ((stepH3 m ρ c main_arg7 (by decide)).trans ((stepR2 m ρ c main_arg7 (by decide)).trans ((stepH2 m ρ c main_arg7 (by decide)).trans ((stepR1 m ρ c main_arg7 (by decide)).trans ((stepH1 m ρ c main_arg7 (by decide)).trans ((stepR0 m ρ c main_arg7 (by decide)).trans (stepH0 m ρ c main_arg7 (by decide)))))))))))))))))))
theorem keep_arg8_W18 (c : Dev nD) : W18 m ρ c (Proc.devRef .tc main_arg8) = W0 m ρ c (Proc.devRef .tc main_arg8) :=
  (stepR8 m ρ c main_arg8 (by decide)).trans ((stepH8 m ρ c main_arg8 (by decide)).trans ((stepR7 m ρ c main_arg8 (by decide)).trans ((stepH7 m ρ c main_arg8 (by decide)).trans ((stepR6 m ρ c main_arg8 (by decide)).trans ((stepH6 m ρ c main_arg8 (by decide)).trans ((stepR5 m ρ c main_arg8 (by decide)).trans ((stepH5 m ρ c main_arg8 (by decide)).trans ((stepR4 m ρ c main_arg8 (by decide)).trans ((stepH4 m ρ c main_arg8 (by decide)).trans ((stepR3 m ρ c main_arg8 (by decide)).trans ((stepH3 m ρ c main_arg8 (by decide)).trans ((stepR2 m ρ c main_arg8 (by decide)).trans ((stepH2 m ρ c main_arg8 (by decide)).trans ((stepR1 m ρ c main_arg8 (by decide)).trans ((stepH1 m ρ c main_arg8 (by decide)).trans ((stepR0 m ρ c main_arg8 (by decide)).trans (stepH0 m ρ c main_arg8 (by decide))))))))))))))))))

end Cert.KernelIdeal.Keep

end
-- ==== Proof.RegLinear0.lean ====
/- Region 0, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear0

/-! ## The block operations at an index

A block of 5000 rows is multiplied into a weight matrix with 128 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction place as its column; -/
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction place as its row … -/
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row p, column q: row p of the left block against column q of the
    right one, the record's one contraction axis renamed to the 128 places. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the block's rows, at row p, column q: the row's entry q. -/
theorem bias128_apply (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-! ## The region's blocks and its array -/

/-- Region 0's payload at row p, column q of the block. -/
theorem pay0_apply (x : Vec Ideal S5000x128 .f32) (w : Vec Ideal S128x128 .f32) (b : Vec Ideal S1x128 .f32) (p : Fin 5000) (q : Fin 128) :
    k0_pay1 x w b (ix2 p q) = (∑ k : Fin 128, x (ix2 p k) * w (ix2 k q)) + b (ix2 0 q) := by
  unfold k0_pay1
  simp only [shapeCast_self]
  rw [addf_apply, matmul128_apply, bias128_apply]
  rfl

/-- Blocks whose entries are those of the arrays at the matching places: the payload at (p, q) is the dense layer of
    the arrays at the matching index i. -/
theorem lin0_block (X : Vec Ideal S50000x128 .f32) (W : Vec Ideal S128x128 .f32) (B : Vec Ideal S1x128 .f32)
    (x : Vec Ideal S5000x128 .f32) (w : Vec Ideal S128x128 .f32) (b : Vec Ideal S1x128 .f32)
    (p : Fin 5000) (q : Fin 128) (i : S50000x128.Idx)
    (hx : ∀ k : Fin 128, x (ix2 p k) = X (ix2 (i 0) k))
    (hw : ∀ k : Fin 128, w (ix2 k q) = W (ix2 k (i 1)))
    (hb : b (ix2 0 q) = B (ix2 0 (i 1))) :
    k0_pay1 x w b (ix2 p q) = Cert.Spec.linear X W B i := by
  rw [pay0_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays the region was entered with: the one store
    leaves the payload of the loaded blocks, the left block is rows 5000·t … of its array, the weight matrix and the
    bias row are loaded whole, and the output block sits at the same rows. -/
theorem flushed0 (c : Dev nD) (t : Fin cfg0.N) :
    (dat0 (F := Ideal) V c).flushed 3 t = ((cfg0.win 3).blk t).view.read (Elt Ideal) (Cert.Spec.linear (V c main_arg0) (V c main_arg3) (V c main_v31)) := by
  show (cfg0.win 3).cut (grid0.coords t) ((dat0 V c).after 3 t) = _
  rw [after0_3]
  unfold out0_3
  rw [View.canon_unit_zero off00]
  simp only [View.ld_unit_zero (S := S5000x128) off00, View.ld_unit_zero (S := S128x128) off00, View.ld_unit_zero (S := S1x128) off00]
  obtain ⟨e00, e01, e10, e11, e20, e21, e30, e31⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q) = Cert.Spec.linear (V c main_arg0) (V c main_arg3) (V c main_v31) (((cfg0.win 3).blk t).view.emb (ix2 p q))
  refine lin0_block (V c main_arg0) (V c main_arg3) (V c main_v31) (iblk0 V c 0 t) (iblk0 V c 1 t) (iblk0 V c 2 t) p q (((cfg0.win 3).blk t).view.emb (ix2 p q)) (fun k => ?_) (fun k => ?_) ?_
  · show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg3 (((cfg0.win 1).blk t).view.emb (ix2 k q)) = V c main_arg3 (ix2 k ((((cfg0.win 3).blk t).view.emb (ix2 p q)) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v31 (((cfg0.win 2).blk t).view.emb (ix2 0 q)) = V c main_v31 (ix2 0 ((((cfg0.win 3).blk t).view.emb (ix2 p q)) 1))
    refine congrArg (V c main_v31) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array lies in point t's block iff each coordinate lies in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Row r of the output array lies in the block of point r / 5000, and every point writes its block back. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by show _ < grid0.N; rw [N_0]; omega⟩, rfl⟩
  obtain ⟨-, -, -, -, -, -, e30, e31⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end Linear0

/-- Region 0's output array after its ten points: the dense layer of the arrays it was entered with. -/
theorem arr0 (c : Dev nD) :
    (dat0 (F := Ideal) V c).arrAt 3 cfg0.N = Cert.Spec.linear (V c main_arg0) (V c main_arg3) (V c main_v31) := by
  exact (dat0 (F := Ideal) V c).arrAt_eq_of_cover 3 (Cert.Spec.linear (V c main_arg0) (V c main_arg3) (V c main_v31)) (fun t _ => Linear0.flushed0 V c t) Linear0.cover0

end Cert.KernelIdeal.Reg

end
-- ==== Proof.RegLinear1.lean ====
/- Region 1, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear1

/-! ## The block operations at an index

A block of 5000 rows is multiplied into a weight matrix with 128 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction place as its column; -/
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction place as its row … -/
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row p, column q: row p of the left block against column q of the
    right one, the record's one contraction axis renamed to the 128 places. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the block's rows, at row p, column q: the row's entry q. -/
theorem bias128_apply (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-! ## The region's blocks and its array -/

/-- Region 1's payload at row p, column q of the block. -/
theorem pay1_apply (x : Vec Ideal S5000x128 .f32) (w : Vec Ideal S128x128 .f32) (b : Vec Ideal S1x128 .f32) (p : Fin 5000) (q : Fin 128) :
    k1_pay1 x w b (ix2 p q) = (∑ k : Fin 128, x (ix2 p k) * w (ix2 k q)) + b (ix2 0 q) := by
  unfold k1_pay1
  simp only [shapeCast_self]
  rw [addf_apply, matmul128_apply, bias128_apply]
  rfl

/-- Blocks whose entries are those of the arrays at the matching places: the payload at (p, q) is the dense layer of
    the arrays at the matching index i. -/
theorem lin1_block (X : Vec Ideal S50000x128 .f32) (W : Vec Ideal S128x128 .f32) (B : Vec Ideal S1x128 .f32)
    (x : Vec Ideal S5000x128 .f32) (w : Vec Ideal S128x128 .f32) (b : Vec Ideal S1x128 .f32)
    (p : Fin 5000) (q : Fin 128) (i : S50000x128.Idx)
    (hx : ∀ k : Fin 128, x (ix2 p k) = X (ix2 (i 0) k))
    (hw : ∀ k : Fin 128, w (ix2 k q) = W (ix2 k (i 1)))
    (hb : b (ix2 0 q) = B (ix2 0 (i 1))) :
    k1_pay1 x w b (ix2 p q) = Cert.Spec.linear X W B i := by
  rw [pay1_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer of the arrays the region was entered with: the one store
    leaves the payload of the loaded blocks, the left block is rows 5000·t … of its array, the weight matrix and the
    bias row are loaded whole, and the output block sits at the same rows. -/
theorem flushed1 (c : Dev nD) (t : Fin cfg1.N) :
    (dat1 (F := Ideal) V c).flushed 3 t = ((cfg1.win 3).blk t).view.read (Elt Ideal) (Cert.Spec.linear (V c main_v32) (V c main_v35) (V c main_v36)) := by
  show (cfg1.win 3).cut (grid1.coords t) ((dat1 V c).after 3 t) = _
  rw [after1_3]
  unfold out1_3
  rw [View.canon_unit_zero off00]
  simp only [View.ld_unit_zero (S := S5000x128) off00, View.ld_unit_zero (S := S128x128) off00, View.ld_unit_zero (S := S1x128) off00]
  obtain ⟨e00, e01, e10, e11, e20, e21, e30, e31⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = Cert.Spec.linear (V c main_v32) (V c main_v35) (V c main_v36) (((cfg1.win 3).blk t).view.emb (ix2 p q))
  refine lin1_block (V c main_v32) (V c main_v35) (V c main_v36) (iblk1 V c 0 t) (iblk1 V c 1 t) (iblk1 V c 2 t) p q (((cfg1.win 3).blk t).view.emb (ix2 p q)) (fun k => ?_) (fun k => ?_) ?_
  · show V c main_v32 (((cfg1.win 0).blk t).view.emb (ix2 p k)) = V c main_v32 (ix2 ((((cfg1.win 3).blk t).view.emb (ix2 p q)) 0) k)
    refine congrArg (V c main_v32) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · show V c main_v35 (((cfg1.win 1).blk t).view.emb (ix2 k q)) = V c main_v35 (ix2 k ((((cfg1.win 3).blk t).view.emb (ix2 p q)) 1))
    refine congrArg (V c main_v35) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  · show V c main_v36 (((cfg1.win 2).blk t).view.emb (ix2 0 q)) = V c main_v36 (ix2 0 ((((cfg1.win 3).blk t).view.emb (ix2 p q)) 1))
    refine congrArg (V c main_v36) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the output array lies in point t's block iff each coordinate lies in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

/-- Row r of the output array lies in the block of point r / 5000, and every point writes its block back. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by show _ < grid1.N; rw [N_1]; omega⟩, rfl⟩
  obtain ⟨-, -, -, -, -, -, e30, e31⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

end Linear1

/-- Region 1's output array after its ten points: the dense layer of the arrays it was entered with. -/
theorem arr1 (c : Dev nD) :
    (dat1 (F := Ideal) V c).arrAt 3 cfg1.N = Cert.Spec.linear (V c main_v32) (V c main_v35) (V c main_v36) := by
  exact (dat1 (F := Ideal) V c).arrAt_eq_of_cover 3 (Cert.Spec.linear (V c main_v32) (V c main_v35) (V c main_v36)) (fun t _ => Linear1.flushed1 V c t) Linear1.cover1

end Cert.KernelIdeal.Reg

end
-- ==== Proof.RegLinear3.lean ====
/- Region 3, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear3

/-! ## The block operations at an index

A block of 5000 rows is multiplied into a weight matrix with 128 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction place as its column; -/
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction place as its row … -/
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row p, column q: row p of the left block against column q of the
    right one, the record's one contraction axis renamed to the 128 places. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the block's rows, at row p, column q: the row's entry q. -/
theorem bias128_apply (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-! ## The region's blocks and its array -/

/-- Region 3's payload at row p, column q of the block. -/
theorem pay3_apply (x : Vec Ideal S5000x128 .f32) (w : Vec Ideal S128x128 .f32) (b : Vec Ideal S1x128 .f32) (p : Fin 5000) (q : Fin 128) :
    k3_pay1 x w b (ix2 p q) = (∑ k : Fin 128, x (ix2 p k) * w (ix2 k q)) + b (ix2 0 q) := by
  unfold k3_pay1
  simp only [shapeCast_self]
  rw [addf_apply, matmul128_apply, bias128_apply]
  rfl

/-- Blocks whose entries are those of the arrays at the matching places: the payload at (p, q) is the dense layer of
    the arrays at the matching index i. -/
theorem lin3_block (X : Vec Ideal S50000x128 .f32) (W : Vec Ideal S128x128 .f32) (B : Vec Ideal S1x128 .f32)
    (x : Vec Ideal S5000x128 .f32) (w : Vec Ideal S128x128 .f32) (b : Vec Ideal S1x128 .f32)
    (p : Fin 5000) (q : Fin 128) (i : S50000x128.Idx)
    (hx : ∀ k : Fin 128, x (ix2 p k) = X (ix2 (i 0) k))
    (hw : ∀ k : Fin 128, w (ix2 k q) = W (ix2 k (i 1)))
    (hb : b (ix2 0 q) = B (ix2 0 (i 1))) :
    k3_pay1 x w b (ix2 p q) = Cert.Spec.linear X W B i := by
  rw [pay3_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the dense layer of the arrays the region was entered with: the one store
    leaves the payload of the loaded blocks, the left block is rows 5000·t … of its array, the weight matrix and the
    bias row are loaded whole, and the output block sits at the same rows. -/
theorem flushed3 (c : Dev nD) (t : Fin cfg3.N) :
    (dat3 (F := Ideal) V c).flushed 3 t = ((cfg3.win 3).blk t).view.read (Elt Ideal) (Cert.Spec.linear (V c main_v53) (V c main_v55) (V c main_v56)) := by
  show (cfg3.win 3).cut (grid3.coords t) ((dat3 V c).after 3 t) = _
  rw [after3_3]
  unfold out3_3
  rw [View.canon_unit_zero off00]
  simp only [View.ld_unit_zero (S := S5000x128) off00, View.ld_unit_zero (S := S128x128) off00, View.ld_unit_zero (S := S1x128) off00]
  obtain ⟨e00, e01, e10, e11, e20, e21, e30, e31⟩ := idx3 t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q) = Cert.Spec.linear (V c main_v53) (V c main_v55) (V c main_v56) (((cfg3.win 3).blk t).view.emb (ix2 p q))
  refine lin3_block (V c main_v53) (V c main_v55) (V c main_v56) (iblk3 V c 0 t) (iblk3 V c 1 t) (iblk3 V c 2 t) p q (((cfg3.win 3).blk t).view.emb (ix2 p q)) (fun k => ?_) (fun k => ?_) ?_
  · show V c main_v53 (((cfg3.win 0).blk t).view.emb (ix2 p k)) = V c main_v53 (ix2 ((((cfg3.win 3).blk t).view.emb (ix2 p q)) 0) k)
    refine congrArg (V c main_v53) (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * k.val = k.val; omega
  · show V c main_v55 (((cfg3.win 1).blk t).view.emb (ix2 k q)) = V c main_v55 (ix2 k ((((cfg3.win 3).blk t).view.emb (ix2 p q)) 1))
    refine congrArg (V c main_v55) (funext fun a => Fin.ext ?_)
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  · show V c main_v56 (((cfg3.win 2).blk t).view.emb (ix2 0 q)) = V c main_v56 (ix2 0 ((((cfg3.win 3).blk t).view.emb (ix2 p q)) 1))
    refine congrArg (V c main_v56) (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the output array lies in point t's block iff each coordinate lies in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v57).slice (win3_3.rect t)).set ↔ _
  rw [View.set_slice_whole, Rect.mem_set_unit]
  exact Iff.rfl

/-- Row r of the output array lies in the block of point r / 5000, and every point writes its block back. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by show _ < grid3.N; rw [N_3]; omega⟩, rfl⟩
  obtain ⟨-, -, -, -, -, -, e30, e31⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

end Linear3

/-- Region 3's output array after its ten points: the dense layer of the arrays it was entered with. -/
theorem arr3 (c : Dev nD) :
    (dat3 (F := Ideal) V c).arrAt 3 cfg3.N = Cert.Spec.linear (V c main_v53) (V c main_v55) (V c main_v56) := by
  exact (dat3 (F := Ideal) V c).arrAt_eq_of_cover 3 (Cert.Spec.linear (V c main_v53) (V c main_v55) (V c main_v56)) (fun t _ => Linear3.flushed3 V c t) Linear3.cover3

end Cert.KernelIdeal.Reg

end
-- ==== Proof.RegLinear5.lean ====
/- Region 5, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear5

/-! ## The block operations at an index

A block of 5000 rows is multiplied into a weight matrix with 128 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction place as its column; -/
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction place as its row … -/
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row p, column q: row p of the left block against column q of the
    right one, the record's one contraction axis renamed to the 128 places. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the block's rows, at row p, column q: the row's entry q. -/
theorem bias128_apply (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-! ## The region's blocks and its array -/

/-- Region 5's payload at row p, column q of the block. -/
theorem pay5_apply (x : Vec Ideal S5000x128 .f32) (w : Vec Ideal S128x128 .f32) (b : Vec Ideal S1x128 .f32) (p : Fin 5000) (q : Fin 128) :
    k5_pay1 x w b (ix2 p q) = (∑ k : Fin 128, x (ix2 p k) * w (ix2 k q)) + b (ix2 0 q) := by
  unfold k5_pay1
  simp only [shapeCast_self]
  rw [addf_apply, matmul128_apply, bias128_apply]
  rfl

/-- Blocks whose entries are those of the arrays at the matching places: the payload at (p, q) is the dense layer of
    the arrays at the matching index i. -/
theorem lin5_block (X : Vec Ideal S50000x128 .f32) (W : Vec Ideal S128x128 .f32) (B : Vec Ideal S1x128 .f32)
    (x : Vec Ideal S5000x128 .f32) (w : Vec Ideal S128x128 .f32) (b : Vec Ideal S1x128 .f32)
    (p : Fin 5000) (q : Fin 128) (i : S50000x128.Idx)
    (hx : ∀ k : Fin 128, x (ix2 p k) = X (ix2 (i 0) k))
    (hw : ∀ k : Fin 128, w (ix2 k q) = W (ix2 k (i 1)))
    (hb : b (ix2 0 q) = B (ix2 0 (i 1))) :
    k5_pay1 x w b (ix2 p q) = Cert.Spec.linear X W B i := by
  rw [pay5_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the dense layer of the arrays the region was entered with: the one store
    leaves the payload of the loaded blocks, the left block is rows 5000·t … of its array, the weight matrix and the
    bias row are loaded whole, and the output block sits at the same rows. -/
theorem flushed5 (c : Dev nD) (t : Fin cfg5.N) :
    (dat5 (F := Ideal) V c).flushed 3 t = ((cfg5.win 3).blk t).view.read (Elt Ideal) (Cert.Spec.linear (V c main_v73) (V c main_v75) (V c main_v76)) := by
  show (cfg5.win 3).cut (grid5.coords t) ((dat5 V c).after 3 t) = _
  rw [after5_3]
  unfold out5_3
  rw [View.canon_unit_zero off00]
  simp only [View.ld_unit_zero (S := S5000x128) off00, View.ld_unit_zero (S := S128x128) off00, View.ld_unit_zero (S := S1x128) off00]
  obtain ⟨e00, e01, e10, e11, e20, e21, e30, e31⟩ := idx5 t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q) = Cert.Spec.linear (V c main_v73) (V c main_v75) (V c main_v76) (((cfg5.win 3).blk t).view.emb (ix2 p q))
  refine lin5_block (V c main_v73) (V c main_v75) (V c main_v76) (iblk5 V c 0 t) (iblk5 V c 1 t) (iblk5 V c 2 t) p q (((cfg5.win 3).blk t).view.emb (ix2 p q)) (fun k => ?_) (fun k => ?_) ?_
  · show V c main_v73 (((cfg5.win 0).blk t).view.emb (ix2 p k)) = V c main_v73 (ix2 ((((cfg5.win 3).blk t).view.emb (ix2 p q)) 0) k)
    refine congrArg (V c main_v73) (funext fun a => Fin.ext ?_)
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * k.val = k.val; omega
  · show V c main_v75 (((cfg5.win 1).blk t).view.emb (ix2 k q)) = V c main_v75 (ix2 k ((((cfg5.win 3).blk t).view.emb (ix2 p q)) 1))
    refine congrArg (V c main_v75) (funext fun a => Fin.ext ?_)
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  · show V c main_v76 (((cfg5.win 2).blk t).view.emb (ix2 0 q)) = V c main_v76 (ix2 0 ((((cfg5.win 3).blk t).view.emb (ix2 p q)) 1))
    refine congrArg (V c main_v76) (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega

/-- An index of the output array lies in point t's block iff each coordinate lies in the block's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v77).slice (win5_3.rect t)).set ↔ _
  rw [View.set_slice_whole, Rect.mem_set_unit]
  exact Iff.rfl

/-- Row r of the output array lies in the block of point r / 5000, and every point writes its block back. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ : ∃ t : Fin cfg5.N, t.val = (i 0).val / 5000 := ⟨⟨(i 0).val / 5000, by show _ < grid5.N; rw [N_5]; omega⟩, rfl⟩
  obtain ⟨-, -, -, -, -, -, e30, e31⟩ := idx5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

end Linear5

/-- Region 5's output array after its ten points: the dense layer of the arrays it was entered with. -/
theorem arr5 (c : Dev nD) :
    (dat5 (F := Ideal) V c).arrAt 3 cfg5.N = Cert.Spec.linear (V c main_v73) (V c main_v75) (V c main_v76) := by
  exact (dat5 (F := Ideal) V c).arrAt_eq_of_cover 3 (Cert.Spec.linear (V c main_v73) (V c main_v75) (V c main_v76)) (fun t _ => Linear5.flushed5 V c t) Linear5.cover5

end Cert.KernelIdeal.Reg

end
-- ==== Proof.RegLinear7.lean ====
/- Region 7, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear7

/-! ## The block operations at an index

A block of 5000 rows is multiplied into a weight matrix with 128 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction place as its column; -/
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction place as its row … -/
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row p, column q: row p of the left block against column q of the
    right one, the record's one contraction axis renamed to the 128 places. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The bias row spread over the block's rows, at row p, column q: the row's entry q. -/
theorem bias128_apply (b : FVec Ideal S1x128 .f32) (h : S1x128.Broadcasts S5000x128) (p : Fin 5000) (q : Fin 128) :
    broadcastTo S5000x128 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else _; rw [if_neg (by decide)]; rfl)

/-! ## The region's blocks and its array -/

/-- Region 7's payload at row p, column q of the block. -/
theorem pay7_apply (x : Vec Ideal S5000x128 .f32) (w : Vec Ideal S128x128 .f32) (b : Vec Ideal S1x128 .f32) (p : Fin 5000) (q : Fin 128) :
    k7_pay1 x w b (ix2 p q) = (∑ k : Fin 128, x (ix2 p k) * w (ix2 k q)) + b (ix2 0 q) := by
  unfold k7_pay1
  simp only [shapeCast_self]
  rw [addf_apply, matmul128_apply, bias128_apply]
  rfl

/-- Blocks whose entries are those of the arrays at the matching places: the payload at (p, q) is the dense layer of
    the arrays at the matching index i. -/
theorem lin7_block (X : Vec Ideal S50000x128 .f32) (W : Vec Ideal S128x128 .f32) (B : Vec Ideal S1x128 .f32)
    (x : Vec Ideal S5000x128 .f32) (w : Vec Ideal S128x128 .f32) (b : Vec Ideal S1x128 .f32)
    (p : Fin 5000) (q : Fin 128) (i : S50000x128.Idx)
    (hx : ∀ k : Fin 128, x (ix2 p k) = X (ix2 (i 0) k))
    (hw : ∀ k : Fin 128, w (ix2 k q) = W (ix2 k (i 1)))
    (hb : b (ix2 0 q) = B (ix2 0 (i 1))) :
    k7_pay1 x w b (ix2 p q) = Cert.Spec.linear X W B i := by
  rw [pay7_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the dense layer of the arrays the region was entered with: the one store
    leaves the payload of the loaded blocks, the left block is rows 5000·t … of its array, the weight matrix and the
    bias row are loaded whole, and the output block sits at the same rows. -/
theorem flushed7 (c : Dev nD) (t : Fin cfg7.N) :
    (dat7 (F := Ideal) V c).flushed 3 t = ((cfg7.win 3).blk t).view.read (Elt Ideal) (Cert.Spec.linear (V c main_v93) (V c main_v95) (V c main_v96)) := by
  show (cfg7.win 3).cut (grid7.coords t) ((dat7 V c).after 3 t) = _
  rw [after7_3]
  unfold out7_3
  rw [View.canon_unit_zero off00]
  simp only [View.ld_unit_zero (S := S5000x128) off00, View.ld_unit_zero (S := S128x128) off00, View.ld_unit_zero (S := S1x128) off00]
  obtain ⟨e00, e01, e10, e11, e20, e21, e30, e31⟩ := idx7 t
  funext j
  obtain ⟨p, q, rfl⟩ : ∃ (p : Fin 5000) (q : Fin 128), j = ix2 p q := ⟨j 0, j 1, eq_ix2 j⟩
  show k7_pay1 (iblk7 V c 0 t) (iblk7 V c 1 t) (iblk7 V c 2 t) (ix2 p q) = Cert.Spec.linear (V c main_v93) (V c main_v95) (V c main_v96) (((cfg7.win 3).blk t).view.emb (ix2 p q))
  refine lin7_block (V c main_v93) (V c main_v95) (V c main_v96) (iblk7 V c 0 t) (iblk7 V c 1 t) (iblk7 V c 2 t) p q (((cfg7.win 3).blk t).view.emb (ix2 p q)) (fun k => ?_) (fun k => ?_) ?_
  · show V c main_v93 (((cfg7.win 0).blk t).view.emb (ix2 p k)) = V c main_v93 (ix2 ((((cfg7.win 3).blk t).view.emb (ix2 p q)) 0) k)
    refine congrArg (V c main_v93) (funext fun a => Fin.ext ?_)
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  · show V c main_v95 (((cfg7.win 1).blk t).view.emb (ix2 k q)) = V c main_v95 (ix2 k ((((cfg7.win 3).blk t).view.emb (ix2 p q)) 1))
    refine congrArg (V c main_v95) (funext fun a => Fin.ext ?_)
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  · show V c main_v96 (((cfg7.win 2).blk t).view.emb (ix2 0 q)) = V c main_v96 (ix2 0 ((((cfg7.win 3).blk t).view.emb (ix2 p q)) 1))
    refine congrArg (V c main_v96) (funext fun a => Fin.ext ?_)
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega

/-- An index of the output array lies in point t's block iff each coordinate lies in the block's range on its axis. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v97).slice (win7_3.rect t)).set ↔ _
  rw [View.set_slice_whole, Rect.mem_set_unit]
  exact Iff.rfl

/-- Row r of the output array lies in the block of point r / 5000, and every point writes its block back. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ : ∃ t : Fin cfg7.N, t.val = (i 0).val / 5000 := ⟨⟨(i 0).val / 5000, by show _ < grid7.N; rw [N_7]; omega⟩, rfl⟩
  obtain ⟨-, -, -, -, -, -, e30, e31⟩ := idx7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

end Linear7

/-- Region 7's output array after its ten points: the dense layer of the arrays it was entered with. -/
theorem arr7 (c : Dev nD) :
    (dat7 (F := Ideal) V c).arrAt 3 cfg7.N = Cert.Spec.linear (V c main_v93) (V c main_v95) (V c main_v96) := by
  exact (dat7 (F := Ideal) V c).arrAt_eq_of_cover 3 (Cert.Spec.linear (V c main_v93) (V c main_v95) (V c main_v96)) (fun t _ => Linear7.flushed7 V c t) Linear7.cover7

end Cert.KernelIdeal.Reg

end
-- ==== Proof.RegLinear9.lean ====
/- Region 9, a matrix product with a bias row: its output array, once every block of rows has been written back, is the dense layer of the arrays the region was entered with. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

namespace Linear9

/-! ## The block operations at an index

A block of 5000 rows is multiplied into a weight matrix with 10 columns and a bias row is added to every row. At the
extended reals the narrowing of the operands before the product changes nothing, the zero accumulator adds nothing, and
the product at row p, column q is the sum over the 128 contraction places k of left[p,k] · right[k,q]. -/

/-- Both offsets of a whole-block access are zero. -/
theorem off00 : (![0, 0] : Fin 2 → Nat) = fun _ => 0 := funext fun a => by fin_cases a <;> rfl

/-- The left operand is read at the output's row … -/
theorem lhs10_0 (i : S5000x10.Idx) (q : dot_S5000x128_S128x10_S5000x10_1_0_0_1_n_n.contr.Idx) :
    (dot_S5000x128_S128x10_S5000x10_1_0_0_1_n_n.lhsIdx i q 0).val = (i 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
/-- … and at the contraction place as its column; -/
theorem lhs10_1 (i : S5000x10.Idx) (q : dot_S5000x128_S128x10_S5000x10_1_0_0_1_n_n.contr.Idx) :
    (dot_S5000x128_S128x10_S5000x10_1_0_0_1_n_n.lhsIdx i q 1).val = (q ⟨0, by decide⟩).val :=
  dot_S5000x128_S128x10_S5000x10_1_0_0_1_n_n.lhsIdx_val_of_single rfl i q
/-- the right operand at the contraction place as its row … -/
theorem rhs10_0 (i : S5000x10.Idx) (q : dot_S5000x128_S128x10_S5000x10_1_0_0_1_n_n.contr.Idx) :
    (dot_S5000x128_S128x10_S5000x10_1_0_0_1_n_n.rhsIdx i q 0).val = (q ⟨0, by decide⟩).val :=
  dot_S5000x128_S128x10_S5000x10_1_0_0_1_n_n.rhsIdx_val_of_single rfl i q
/-- … and at the output's column. -/
theorem rhs10_1 (i : S5000x10.Idx) (q : dot_S5000x128_S128x10_S5000x10_1_0_0_1_n_n.contr.Idx) :
    (dot_S5000x128_S128x10_S5000x10_1_0_0_1_n_n.rhsIdx i q 1).val = (i 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-- The block product into the zero accumulator at row p, column q: row p of the left block against column q of the
    right one, the record's one contraction axis renamed to the 128 places. -/
theorem matmul10_apply (x : FVec Ideal S5000x128 .bf16) (w : FVec Ideal S128x10 .bf16) (p : Fin 5000) (q : Fin 10) :
    matmul dot_S5000x128_S128x10_S5000x10_1_0_0_1_n_n none x w (constant (F := Ideal) S5000x10 .f32 0x00000000#32) (ix2 p q)
      = ∑ k : Fin 128, x (ix2 p k) * w (ix2 k q) := by
  show FloatOps.matmul dot_S5000x128_S128x10_S5000x10_1_0_0_1_n_n none x w (constant S5000x10 .f32 0x00000000#32) (ix2 p q) = _
  rw [Ideal.matmul_constant_zero_apply, ← Equiv.sum_comp (ValueIdx.contrEquiv1 dot_S5000x128_S128x10_S5000x10_1_0_0_1_n_n 128 rfl rfl).symm]
  refine Finset.sum_congr rfl fun k _ => ?_
  have hk := ValueIdx.contrEquiv1_symm_val dot_S5000x128_S128x10_S5000x10_1_0_0_1_n_n 128 rfl rfl k
  have el : dot_S5000x128_S128x10_S5000x10_1_0_0_1_n_n.lhsIdx (ix2 p q) ((ValueIdx.contrEquiv1 dot_S5000x128_S128x10_S5000x10_1_0_0_1_n_n 128 rfl rfl).symm k) = ix2 p k := funext fun a => Fin.ext (by
    match a with
    | ⟨0, _⟩ => exact lhs10_0 _ _
    | ⟨1, _⟩ => exact (lhs10_1 _ _).trans hk)
  have er : dot_S5000x128_S128x10_S5000x10_1_0_0_1_n_n.rhsIdx (ix2 p q) ((ValueIdx.contrEquiv1 dot_S5000x128_S128x10_S5000x10_1_0_0_1_n_n 128 rfl rfl).symm k) = ix2 k q := funext fun a => Fin.ext (by
    match a with
    | ⟨0, _⟩ => exact (rhs10_0 _ _).trans hk
    | ⟨1, _⟩ => exact rhs10_1 _ _)
  rw [el, er]

/-- The bias row spread over the block's rows, at row p, column q: the row's entry q. -/
theorem bias10_apply (b : FVec Ideal S1x10 .f32) (h : S1x10.Broadcasts S5000x10) (p : Fin 5000) (q : Fin 10) :
    broadcastTo S5000x10 b h (ix2 p q) = b (ix2 0 q) :=
  broadcastTo_apply b h (ix2 p q) (ix2 0 q) (fun a => match a with
    | ⟨0, _⟩ => by show 0 = if (1 : Nat) = 1 then 0 else _; rw [if_pos rfl]
    | ⟨1, _⟩ => by show q.val = if (10 : Nat) = 1 then 0 else _; rw [if_neg (by decide)]; rfl)

/-! ## The region's blocks and its array -/

/-- Region 9's payload at row p, column q of the block. -/
theorem pay9_apply (x : Vec Ideal S5000x128 .f32) (w : Vec Ideal S128x10 .f32) (b : Vec Ideal S1x10 .f32) (p : Fin 5000) (q : Fin 10) :
    k9_pay1 x w b (ix2 p q) = (∑ k : Fin 128, x (ix2 p k) * w (ix2 k q)) + b (ix2 0 q) := by
  unfold k9_pay1
  simp only [shapeCast_self]
  rw [addf_apply, matmul10_apply, bias10_apply]
  rfl

/-- Blocks whose entries are those of the arrays at the matching places: the payload at (p, q) is the dense layer of
    the arrays at the matching index i. -/
theorem lin9_block (X : Vec Ideal S50000x128 .f32) (W : Vec Ideal S128x10 .f32) (B : Vec Ideal S1x10 .f32)
    (x : Vec Ideal S5000x128 .f32) (w : Vec Ideal S128x10 .f32) (b : Vec Ideal S1x10 .f32)
    (p : Fin 5000) (q : Fin 10) (i : S50000x10.Idx)
    (hx : ∀ k : Fin 128, x (ix2 p k) = X (ix2 (i 0) k))
    (hw : ∀ k : Fin 128, w (ix2 k q) = W (ix2 k (i 1)))
    (hb : b (ix2 0 q) = B (ix2 0 (i 1))) :
    k9_pay1 x w b (ix2 p q) = Cert.Spec.linear X W B i := by
  rw [pay9_apply]
  show _ = (∑ k : Fin 128, X (ix2 (i 0) k) * W (ix2 k (i 1))) + B (ix2 0 (i 1))
  rw [hb]
  exact congrArg (· + B (ix2 0 (i 1))) (Finset.sum_congr rfl fun k _ => by rw [hx k, hw k])

/-- The printed index maps over the ten points: the row-blocked windows sit at block t, the whole ones at block 0. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the dense layer of the arrays the region was entered with: the one store
    leaves the payload of the loaded blocks, the left block is rows 5000·t … of its array, the weight matrix and the
    bias row are loaded whole, and the output block sits at the same rows. -/
theorem flushed9 (c : Dev nD) (t : Fin cfg9.N) :
    (dat9 (F := Ideal) V c).flushed 3 t = ((cfg9.win 3).blk t).view.read (Elt Ideal) (Cert.Spec.linear (V c main_v113) (V c main_arg7) (V c main_v114)) := by
  show (cfg9.win 3).cut (grid9.coords t) ((dat9 V c).after 3 t) = _
  rw [after9_3]
  unfold out9_3
  rw [View.canon_unit_zero off00]
  simp only [View.ld_unit_zero (S := S5000x128) off00, View.ld_unit_zero (S := S128x10) off00, View.ld_unit_zero (S := S1x10) off00]
  obtain ⟨e00, e01, e10, e11, e20, e21, e30, e31⟩ := idx9 t
  funext j
  obtain ⟨p, q, rfl⟩ : ∃ (p : Fin 5000) (q : Fin 10), j = ix2 p q := ⟨j 0, j 1, eq_ix2 j⟩
  show k9_pay1 (iblk9 V c 0 t) (iblk9 V c 1 t) (iblk9 V c 2 t) (ix2 p q) = Cert.Spec.linear (V c main_v113) (V c main_arg7) (V c main_v114) (((cfg9.win 3).blk t).view.emb (ix2 p q))
  refine lin9_block (V c main_v113) (V c main_arg7) (V c main_v114) (iblk9 V c 0 t) (iblk9 V c 1 t) (iblk9 V c 2 t) p q (((cfg9.win 3).blk t).view.emb (ix2 p q)) (fun k => ?_) (fun k => ?_) ?_
  · show V c main_v113 (((cfg9.win 0).blk t).view.emb (ix2 p k)) = V c main_v113 (ix2 ((((cfg9.win 3).blk t).view.emb (ix2 p q)) 0) k)
    refine congrArg (V c main_v113) (funext fun a => Fin.ext ?_)
    match a with
    | ⟨0, _⟩ => show win9_0.index t (0 : Fin 2) * 5000 + 1 * p.val = win9_3.index t (0 : Fin 2) * 5000 + 1 * p.val; omega
    | ⟨1, _⟩ => show win9_0.index t (1 : Fin 2) * 128 + 1 * k.val = k.val; omega
  · show V c main_arg7 (((cfg9.win 1).blk t).view.emb (ix2 k q)) = V c main_arg7 (ix2 k ((((cfg9.win 3).blk t).view.emb (ix2 p q)) 1))
    refine congrArg (V c main_arg7) (funext fun a => Fin.ext ?_)
    match a with
    | ⟨0, _⟩ => show win9_1.index t (0 : Fin 2) * 128 + 1 * k.val = k.val; omega
    | ⟨1, _⟩ => show win9_1.index t (1 : Fin 2) * 10 + 1 * q.val = win9_3.index t (1 : Fin 2) * 10 + 1 * q.val; omega
  · show V c main_v114 (((cfg9.win 2).blk t).view.emb (ix2 0 q)) = V c main_v114 (ix2 0 ((((cfg9.win 3).blk t).view.emb (ix2 p q)) 1))
    refine congrArg (V c main_v114) (funext fun a => Fin.ext ?_)
    match a with
    | ⟨0, _⟩ => show win9_2.index t (0 : Fin 2) * 1 + 1 * 0 = 0; omega
    | ⟨1, _⟩ => show win9_2.index t (1 : Fin 2) * 10 + 1 * q.val = win9_3.index t (1 : Fin 2) * 10 + 1 * q.val; omega

/-- An index of the output array lies in point t's block iff each coordinate lies in the block's range on its axis. -/
theorem mem_blk9 (t : Fin cfg9.N) (i : S50000x10.Idx) :
    i ∈ ((cfg9.win 3).blk t).view.set ↔ ∀ a : Fin 2, win9_3.index t a * S5000x10.size a ≤ (i a).val ∧ (i a).val < win9_3.index t a * S5000x10.size a + S5000x10.size a := by
  show i ∈ ((View.whole main_v115).slice (win9_3.rect t)).set ↔ _
  rw [View.set_slice_whole, Rect.mem_set_unit]
  exact Iff.rfl

/-- Row r of the output array lies in the block of point r / 5000, and every point writes its block back. -/
theorem cover9 (i : S50000x10.Idx) : ∃ t : Fin cfg9.N, (cfg9.win 3).flush t = true ∧ i ∈ ((cfg9.win 3).blk t).view.set := by
  have hi0 : (i 0).val < 50000 := (i 0).isLt
  have hi1 : (i 1).val < 10 := (i 1).isLt
  obtain ⟨t, ht⟩ : ∃ t : Fin cfg9.N, t.val = (i 0).val / 5000 := ⟨⟨(i 0).val / 5000, by show _ < grid9.N; rw [N_9]; omega⟩, rfl⟩
  obtain ⟨-, -, -, -, -, -, e30, e31⟩ := idx9 t
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 10 ≤ (i 1).val ∧ (i 1).val < win9_3.index t (1 : Fin 2) * 10 + 10; omega

end Linear9

/-- Region 9's output array after its ten points: the dense layer of the arrays it was entered with. -/
theorem arr9 (c : Dev nD) :
    (dat9 (F := Ideal) V c).arrAt 3 cfg9.N = Cert.Spec.linear (V c main_v113) (V c main_arg7) (V c main_v114) := by
  exact (dat9 (F := Ideal) V c).arrAt_eq_of_cover 3 (Cert.Spec.linear (V c main_v113) (V c main_arg7) (V c main_v114)) (fun t _ => Linear9.flushed9 V c t) Linear9.cover9

end Cert.KernelIdeal.Reg

end
-- ==== Proof.RegLinear.lean ====
/- The six matrix-product regions: each output array, once every block of rows has been written back, is the dense layer of the region's input arrays; one module per region. -/
import proofs.«427692_j27324581937611_1_alg».proof.Proof.RegLinear0
import proofs.«427692_j27324581937611_1_alg».proof.Proof.RegLinear1
import proofs.«427692_j27324581937611_1_alg».proof.Proof.RegLinear3
import proofs.«427692_j27324581937611_1_alg».proof.Proof.RegLinear5
import proofs.«427692_j27324581937611_1_alg».proof.Proof.RegLinear7
import proofs.«427692_j27324581937611_1_alg».proof.Proof.RegLinear9
-- ==== Proof.KVals.lean ====
/- The first host stretch's results, and the zero vector of the second, as the stage functions of the launch contents:
   the edge list's two rows, the segment ids as a column, the per-edge and per-node normalizers, the encoder's bias row. -/
import proofs.«427692_j27324581937611_1_alg».proof.Proof.Gen.KernelIdeal.Frame
import proofs.«427692_j27324581937611_1_alg».proof.Proof.KStages
import proofs.«427692_j27324581937611_1_alg».proof.Proof.Keep
import Idealize.ShloMosaic.Lib.StableHlo.Run

set_option maxRecDepth 16384

noncomputable section

namespace Cert.KernelIdeal.Vals

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

theorem W1_v1 (c : Dev nD) : W1 m ρ c (Proc.devRef .tc main_v1) = Stage.src (m ((c : Thread nD τ).loc main_arg1)) := by
  show StableHlo.after hostOps0 _ (Proc.devRef .tc main_v1) = _
  simp only [hostOps0, List.flatten_cons, List.flatten_nil, List.append_nil, List.cons_append, List.nil_append]
  after_results_simp
  rfl

theorem W1_v3 (c : Dev nD) : W1 m ρ c (Proc.devRef .tc main_v3) = Stage.dst (m ((c : Thread nD τ).loc main_arg1)) := by
  show StableHlo.after hostOps0 _ (Proc.devRef .tc main_v3) = _
  simp only [hostOps0, List.flatten_cons, List.flatten_nil, List.append_nil, List.cons_append, List.nil_append]
  after_results_simp
  rfl

theorem W1_v4 (c : Dev nD) : W1 m ρ c (Proc.devRef .tc main_v4) = Stage.idcol (m ((c : Thread nD τ).loc main_arg2)) := by
  show StableHlo.after hostOps0 _ (Proc.devRef .tc main_v4) = _
  simp only [hostOps0, List.flatten_cons, List.flatten_nil, List.append_nil, List.cons_append, List.nil_append]
  after_results_simp
  rfl

theorem W1_v28 (c : Dev nD) : W1 m ρ c (Proc.devRef .tc main_v28) = Stage.enorm (m ((c : Thread nD τ).loc main_arg1)) := by
  show StableHlo.after hostOps0 _ (Proc.devRef .tc main_v28) = _
  simp only [hostOps0, List.flatten_cons, List.flatten_nil, List.append_nil, List.cons_append, List.nil_append]
  after_results_simp
  rfl

theorem W1_v30 (c : Dev nD) : W1 m ρ c (Proc.devRef .tc main_v30) = Stage.snorm (m ((c : Thread nD τ).loc main_arg1)) := by
  show StableHlo.after hostOps0 _ (Proc.devRef .tc main_v30) = _
  simp only [hostOps0, List.flatten_cons, List.flatten_nil, List.append_nil, List.cons_append, List.nil_append]
  after_results_simp
  rfl

theorem W1_v31 (c : Dev nD) : W1 m ρ c (Proc.devRef .tc main_v31) = Stage.brow (m ((c : Thread nD τ).loc main_arg4)) := by
  show StableHlo.after hostOps0 _ (Proc.devRef .tc main_v31) = _
  simp only [hostOps0, List.flatten_cons, List.flatten_nil, List.append_nil, List.cons_append, List.nil_append]
  after_results_simp
  rfl

/-- The vector of zeros the hops' bias rows are reshaped from. -/
theorem W3_v33 (c : Dev nD) : W3 m ρ c (Proc.devRef .tc main_v33) = broadcastInDim S128 ![] Facts₀.bcast_S_S128 (constant (F := Ideal) S_ .f32 0x00000000#32) := by
  show StableHlo.after hostOps1 _ (Proc.devRef .tc main_v33) = _
  simp only [hostOps1, List.flatten_cons, List.flatten_nil, List.append_nil, List.cons_append, List.nil_append]
  after_results_simp

end Cert.KernelIdeal.Vals

end
-- ==== Proof.KEnc.lean ====
/- From the launch to the encoder's output: the first host stretch prepares the edge lists, the normalizers and the bias row; region 0 is the encoder's dense layer. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.RegLinear
import proofs.«427692_j27324581937611_1_alg».proof.Proof.KVals
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- After region 0 the encoder's output buffer holds the dense layer of the node features. -/
theorem enc (c : Dev nD) :
    W2 m ρ c (Proc.devRef .tc main_v32) = Stage.h0 (m ((c : Thread nD τ).loc main_arg0)) (m ((c : Thread nD τ).loc main_arg3)) (m ((c : Thread nD τ).loc main_arg4)) := by
  -- The output buffer is region 0's fourth array; the region makes it the dense layer of its entry contents.
  refine (W2_arr m ρ c 3).trans ((Reg.arr0 (V1 m ρ) c).trans ?_)
  -- The entry contents: the two arguments untouched since launch, and the bias row of the first host stretch.
  have e0 : V1 m ρ c main_arg0 = m ((c : Thread nD τ).loc main_arg0) := Keep.keep_arg0_W1 m ρ c
  have e3 : V1 m ρ c main_arg3 = m ((c : Thread nD τ).loc main_arg3) := Keep.keep_arg3_W1 m ρ c
  have e31 : V1 m ρ c main_v31 = Stage.brow (m ((c : Thread nD τ).loc main_arg4)) := Vals.W1_v31 m ρ c
  rw [e0, e3, e31]
  rfl

end Cert.KernelIdeal.Chain

end
-- ==== Proof.RegCombine2.lean ====
/- Combining region 2: its output array is the pointwise combination of its input arrays, row blocks laid side by side. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Reading the spread column and the repeated row

Every block starts at the origin of its staging buffer; a column spread over the lanes and a row repeated over the
rows read back the column's row and the row's lane. -/

/-- The staging buffers are read and written from their origin. -/
theorem origin2 : (![0, 0] : Fin 2 → Nat) = fun _ => 0 := funext fun a => by fin_cases a <;> rfl

/-- A column of height 5000 spread over 128 lanes reads, at row `p` and lane `q`, the column's row `p`. -/
theorem col_spread2 (x : Vec Ideal S5000x1 .f32) (h : S5000x1.Broadcasts S5000x128) (p : Fin 5000) (q : Fin 128) :
    broadcastTo S5000x128 x h (ix2 p q) = x (ix2 p 0) := by
  refine broadcastTo_apply x h (ix2 p q) (ix2 p 0) ?_
  intro a
  match a with
  | ⟨0, _⟩ => rfl
  | ⟨1, _⟩ => rfl

/-- A row of 128 lanes repeated over 5000 rows reads, at row `p` and lane `q`, the row's lane `q`. -/
theorem row_spread2 (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) ?_
  intro a
  match a with
  | ⟨0, _⟩ => rfl
  | ⟨1, _⟩ => rfl

/-! ## Region 2 -/

/-- The body's value at row `p`, lane `q` of a block: the messages there, plus the own features there scaled by the
    row's norm, plus the lane's bias, clamped at zero (the zero word is the real 0). -/
theorem pay2_at (x0 x1 : Vec Ideal S5000x128 .f32) (x2 : Vec Ideal S5000x1 .f32) (x3 : Vec Ideal S1x128 .f32)
    (p : Fin 5000) (q : Fin 128) :
    k2_pay1 x0 x1 x2 x3 (ix2 p q) = max ((x0 (ix2 p q) + x1 (ix2 p q) * x2 (ix2 p 0)) + x3 (ix2 0 q)) 0 := by
  unfold k2_pay1
  simp only [shapeCast_self]
  rw [maximumf_apply, addf_apply, addf_apply, mulf_apply, broadcast_apply, col_spread2, row_spread2]
  rw [show (Scalar.ofBits .f32 0x00000000#32 : Ideal .f32) = 0 from Ideal.ofBits_zero_f32]

/-- Where the windows' blocks sit at point `t`: the three row-blocked inputs and the output at block row `t`, the
    bias row at its one block; decided over the ten points. -/
theorem maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's value at row `p`, lane `q` of a block is the combined array's entry at row `r`, lane `q`, once the loaded
    blocks hold the arrays' entries of that row and lane. -/
theorem blk_point2 (x0 x1 : Vec Ideal S5000x128 .f32) (x2 : Vec Ideal S5000x1 .f32) (x3 : Vec Ideal S1x128 .f32)
    (a y : Vec Ideal S50000x128 .f32) (s : Vec Ideal S50000x1 .f32) (b : Vec Ideal S1x128 .f32)
    (p : Fin 5000) (q : Fin 128) (r : Fin 50000)
    (h0 : x0 (ix2 p q) = a (ix2 r q)) (h1 : x1 (ix2 p q) = y (ix2 r q)) (h2 : x2 (ix2 p 0) = s (ix2 r 0))
    (h3 : x3 (ix2 0 q) = b (ix2 0 q)) :
    k2_pay1 x0 x1 x2 x3 (ix2 p q) = Cert.Spec.combineRelu a y s b (ix2 r q) := by
  rw [pay2_at, h0, h1, h2, h3]
  rfl

/-- What point `t` writes back is rows `5000·t … 5000·t + 4999` of the combined array: row `p` of every row-blocked
    window's block is row `5000·t + p` of its array, and the bias row's block is the bias row. -/
theorem flushed2_eq (c : Dev nD) (t : Fin cfg2.N) :
    (dat2 V c).flushed 4 t = ((cfg2.win 4).blk t).view.read (Elt Ideal)
      (Cert.Spec.combineRelu (V c main_v49) (V c main_v37) (V c main_v30) (V c main_v52)) := by
  show (cfg2.win 4).cut (grid2.coords t) ((dat2 V c).after 4 t) = _
  rw [after2_4]
  unfold out2_4
  rw [View.canon_unit_zero origin2]
  simp only [View.ld_unit_zero (S := S5000x128) origin2, View.ld_unit_zero (S := S5000x1) origin2, View.ld_unit_zero (S := S1x128) origin2]
  obtain ⟨e00, e01, e10, e11, e20, e21, e30, e31, e40, e41⟩ := maps2 t
  have hN : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg2.win 4).blk t).view.emb (ix2 p q) = ix2 (⟨t.val * 5000 + p.val, by omega⟩ : Fin 50000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  show k2_pay1 (iblk2 V c 0 t) (iblk2 V c 1 t) (iblk2 V c 2 t) (iblk2 V c 3 t) (ix2 p q)
    = Cert.Spec.combineRelu (V c main_v49) (V c main_v37) (V c main_v30) (V c main_v52) (((cfg2.win 4).blk t).view.emb (ix2 p q))
  rw [hemb]
  refine blk_point2 (iblk2 V c 0 t) (iblk2 V c 1 t) (iblk2 V c 2 t) (iblk2 V c 3 t) (V c main_v49) (V c main_v37) (V c main_v30) (V c main_v52) p q ⟨t.val * 5000 + p.val, by omega⟩ ?_ ?_ ?_ ?_
  · show V c main_v49 (((cfg2.win 0).blk t).view.emb (ix2 p q)) = V c main_v49 _
    refine congrArg (V c main_v49) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  · show V c main_v37 (((cfg2.win 1).blk t).view.emb (ix2 p q)) = V c main_v37 _
    refine congrArg (V c main_v37) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * q.val = q.val; omega
  · show V c main_v30 (((cfg2.win 2).blk t).view.emb (ix2 p 0)) = V c main_v30 _
    refine congrArg (V c main_v30) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · show V c main_v52 (((cfg2.win 3).blk t).view.emb (ix2 0 q)) = V c main_v52 _
    refine congrArg (V c main_v52) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega

/-- An index of the output array is in point `t`'s block iff, on each axis, it lies in the block's range. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53).slice (win2_4.rect t)).set ↔ _
  rw [View.set_slice_whole, Rect.mem_set_unit]
  exact Iff.rfl

/-- Row `r` of the output array is written back by point `r / 5000`. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, e40, e41⟩ := maps2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- Region 2's output array after its ten points: messages, own features and bias combined, clamped at zero. -/
theorem arr2 (c : Dev nD) :
    (dat2 (F := Ideal) V c).arrAt 4 cfg2.N = Cert.Spec.combineRelu (V c main_v49) (V c main_v37) (V c main_v30) (V c main_v52) :=
  (dat2 V c).arrAt_eq_of_cover 4 (Cert.Spec.combineRelu (V c main_v49) (V c main_v37) (V c main_v30) (V c main_v52))
    (fun t _ => flushed2_eq V c t) cover2

end Cert.KernelIdeal.Reg

end
-- ==== Proof.RegCombine4.lean ====
/- Combining region 4: its output array is the pointwise combination of its input arrays, row blocks laid side by side. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Reading the spread column and the repeated row

Every block starts at the origin of its staging buffer; a column spread over the lanes and a row repeated over the
rows read back the column's row and the row's lane. -/

/-- The staging buffers are read and written from their origin. -/
theorem origin4 : (![0, 0] : Fin 2 → Nat) = fun _ => 0 := funext fun a => by fin_cases a <;> rfl

/-- A column of height 5000 spread over 128 lanes reads, at row `p` and lane `q`, the column's row `p`. -/
theorem col_spread4 (x : Vec Ideal S5000x1 .f32) (h : S5000x1.Broadcasts S5000x128) (p : Fin 5000) (q : Fin 128) :
    broadcastTo S5000x128 x h (ix2 p q) = x (ix2 p 0) := by
  refine broadcastTo_apply x h (ix2 p q) (ix2 p 0) ?_
  intro a
  match a with
  | ⟨0, _⟩ => rfl
  | ⟨1, _⟩ => rfl

/-- A row of 128 lanes repeated over 5000 rows reads, at row `p` and lane `q`, the row's lane `q`. -/
theorem row_spread4 (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) ?_
  intro a
  match a with
  | ⟨0, _⟩ => rfl
  | ⟨1, _⟩ => rfl

/-! ## Region 4 -/

/-- The body's value at row `p`, lane `q` of a block: the messages there, plus the own features there scaled by the
    row's norm, plus the lane's bias, clamped at zero (the zero word is the real 0). -/
theorem pay4_at (x0 x1 : Vec Ideal S5000x128 .f32) (x2 : Vec Ideal S5000x1 .f32) (x3 : Vec Ideal S1x128 .f32)
    (p : Fin 5000) (q : Fin 128) :
    k4_pay1 x0 x1 x2 x3 (ix2 p q) = max ((x0 (ix2 p q) + x1 (ix2 p q) * x2 (ix2 p 0)) + x3 (ix2 0 q)) 0 := by
  unfold k4_pay1
  simp only [shapeCast_self]
  rw [maximumf_apply, addf_apply, addf_apply, mulf_apply, broadcast_apply, col_spread4, row_spread4]
  rw [show (Scalar.ofBits .f32 0x00000000#32 : Ideal .f32) = 0 from Ideal.ofBits_zero_f32]

/-- Where the windows' blocks sit at point `t`: the three row-blocked inputs and the output at block row `t`, the
    bias row at its one block; decided over the ten points. -/
theorem maps4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The body's value at row `p`, lane `q` of a block is the combined array's entry at row `r`, lane `q`, once the loaded
    blocks hold the arrays' entries of that row and lane. -/
theorem blk_point4 (x0 x1 : Vec Ideal S5000x128 .f32) (x2 : Vec Ideal S5000x1 .f32) (x3 : Vec Ideal S1x128 .f32)
    (a y : Vec Ideal S50000x128 .f32) (s : Vec Ideal S50000x1 .f32) (b : Vec Ideal S1x128 .f32)
    (p : Fin 5000) (q : Fin 128) (r : Fin 50000)
    (h0 : x0 (ix2 p q) = a (ix2 r q)) (h1 : x1 (ix2 p q) = y (ix2 r q)) (h2 : x2 (ix2 p 0) = s (ix2 r 0))
    (h3 : x3 (ix2 0 q) = b (ix2 0 q)) :
    k4_pay1 x0 x1 x2 x3 (ix2 p q) = Cert.Spec.combineRelu a y s b (ix2 r q) := by
  rw [pay4_at, h0, h1, h2, h3]
  rfl

/-- What point `t` writes back is rows `5000·t … 5000·t + 4999` of the combined array: row `p` of every row-blocked
    window's block is row `5000·t + p` of its array, and the bias row's block is the bias row. -/
theorem flushed4_eq (c : Dev nD) (t : Fin cfg4.N) :
    (dat4 V c).flushed 4 t = ((cfg4.win 4).blk t).view.read (Elt Ideal)
      (Cert.Spec.combineRelu (V c main_v69) (V c main_v57) (V c main_v30) (V c main_v72)) := by
  show (cfg4.win 4).cut (grid4.coords t) ((dat4 V c).after 4 t) = _
  rw [after4_4]
  unfold out4_4
  rw [View.canon_unit_zero origin4]
  simp only [View.ld_unit_zero (S := S5000x128) origin4, View.ld_unit_zero (S := S5000x1) origin4, View.ld_unit_zero (S := S1x128) origin4]
  obtain ⟨e00, e01, e10, e11, e20, e21, e30, e31, e40, e41⟩ := maps4 t
  have hN : t.val < 10 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg4.win 4).blk t).view.emb (ix2 p q) = ix2 (⟨t.val * 5000 + p.val, by omega⟩ : Fin 50000) q := by
    funext a; apply Fin.ext
    match a with
    | ⟨0, _⟩ => show win4_4.index t (0 : Fin 2) * 5000 + 1 * p.val = t.val * 5000 + p.val; omega
    | ⟨1, _⟩ => show win4_4.index t (1 : Fin 2) * 128 + 1 * q.val = q.val; omega
  show k4_pay1 (iblk4 V c 0 t) (iblk4 V c 1 t) (iblk4 V c 2 t) (iblk4 V c 3 t) (ix2 p q)
    = Cert.Spec.combineRelu (V c main_v69) (V c main_v57) (V c main_v30) (V c main_v72) (((cfg4.win 4).blk t).view.emb (ix2 p q))
  rw [hemb]
  refine blk_point4 (iblk4 V c 0 t) (iblk4 V c 1 t) (iblk4 V c 2 t) (iblk4 V c 3 t) (V c main_v69) (V c main_v57) (V c main_v30) (V c main_v72) p q ⟨t.val * 5000 + p.val, by omega⟩ ?_ ?_ ?_ ?_
  · show V c main_v69 (((cfg4.win 0).blk t).view.emb (ix2 p q)) = V c main_v69 _
    refine congrArg (V c main_v69) (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * q.val = q.val; omega
  · show V c main_v57 (((cfg4.win 1).blk t).view.emb (ix2 p q)) = V c main_v57 _
    refine congrArg (V c main_v57) (funext fun a => Fin.ext ?_)
    match a with
    | ⟨0, _⟩ => show win4_1.index t (0 : Fin 2) * 5000 + 1 * p.val = t.val * 5000 + p.val; omega
    | ⟨1, _⟩ => show win4_1.index t (1 : Fin 2) * 128 + 1 * q.val = q.val; omega
  · show V c main_v30 (((cfg4.win 2).blk t).view.emb (ix2 p 0)) = V c main_v30 _
    refine congrArg (V c main_v30) (funext fun a => Fin.ext ?_)
    match a with
    | ⟨0, _⟩ => show win4_2.index t (0 : Fin 2) * 5000 + 1 * p.val = t.val * 5000 + p.val; omega
    | ⟨1, _⟩ => show win4_2.index t (1 : Fin 2) * 1 + 1 * 0 = 0; omega
  · show V c main_v72 (((cfg4.win 3).blk t).view.emb (ix2 0 q)) = V c main_v72 _
    refine congrArg (V c main_v72) (funext fun a => Fin.ext ?_)
    match a with
    | ⟨0, _⟩ => show win4_3.index t (0 : Fin 2) * 1 + 1 * 0 = 0; omega
    | ⟨1, _⟩ => show win4_3.index t (1 : Fin 2) * 128 + 1 * q.val = q.val; omega

/-- An index of the output array is in point `t`'s block iff, on each axis, it lies in the block's range. -/
theorem mem_blk4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v73).slice (win4_4.rect t)).set ↔ _
  rw [View.set_slice_whole, Rect.mem_set_unit]
  exact Iff.rfl

/-- Row `r` of the output array is written back by point `r / 5000`. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, -, -, -, -, e40, e41⟩ := maps4 t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- Region 4's output array after its ten points: messages, own features and bias combined, clamped at zero. -/
theorem arr4 (c : Dev nD) :
    (dat4 (F := Ideal) V c).arrAt 4 cfg4.N = Cert.Spec.combineRelu (V c main_v69) (V c main_v57) (V c main_v30) (V c main_v72) :=
  (dat4 V c).arrAt_eq_of_cover 4 (Cert.Spec.combineRelu (V c main_v69) (V c main_v57) (V c main_v30) (V c main_v72))
    (fun t _ => flushed4_eq V c t) cover4

end Cert.KernelIdeal.Reg

end
-- ==== Proof.RegCombine6.lean ====
/- Combining region 6: its output array is the pointwise combination of its input arrays, row blocks laid side by side. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Reading the spread column and the repeated row

Every block starts at the origin of its staging buffer; a column spread over the lanes and a row repeated over the
rows read back the column's row and the row's lane. -/

/-- The staging buffers are read and written from their origin. -/
theorem origin6 : (![0, 0] : Fin 2 → Nat) = fun _ => 0 := funext fun a => by fin_cases a <;> rfl

/-- A column of height 5000 spread over 128 lanes reads, at row `p` and lane `q`, the column's row `p`. -/
theorem col_spread6 (x : Vec Ideal S5000x1 .f32) (h : S5000x1.Broadcasts S5000x128) (p : Fin 5000) (q : Fin 128) :
    broadcastTo S5000x128 x h (ix2 p q) = x (ix2 p 0) := by
  refine broadcastTo_apply x h (ix2 p q) (ix2 p 0) ?_
  intro a
  match a with
  | ⟨0, _⟩ => rfl
  | ⟨1, _⟩ => rfl

/-- A row of 128 lanes repeated over 5000 rows reads, at row `p` and lane `q`, the row's lane `q`. -/
theorem row_spread6 (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) ?_
  intro a
  match a with
  | ⟨0, _⟩ => rfl
  | ⟨1, _⟩ => rfl

/-! ## Region 6 -/

/-- The body's value at row `p`, lane `q` of a block: the messages there, plus the own features there scaled by the
    row's norm, plus the lane's bias, clamped at zero (the zero word is the real 0). -/
theorem pay6_at (x0 x1 : Vec Ideal S5000x128 .f32) (x2 : Vec Ideal S5000x1 .f32) (x3 : Vec Ideal S1x128 .f32)
    (p : Fin 5000) (q : Fin 128) :
    k6_pay1 x0 x1 x2 x3 (ix2 p q) = max ((x0 (ix2 p q) + x1 (ix2 p q) * x2 (ix2 p 0)) + x3 (ix2 0 q)) 0 := by
  unfold k6_pay1
  simp only [shapeCast_self]
  rw [maximumf_apply, addf_apply, addf_apply, mulf_apply, broadcast_apply, col_spread6, row_spread6]
  rw [show (Scalar.ofBits .f32 0x00000000#32 : Ideal .f32) = 0 from Ideal.ofBits_zero_f32]

/-- Where the windows' blocks sit at point `t`: the three row-blocked inputs and the output at block row `t`, the
    bias row at its one block; decided over the ten points. -/
theorem maps6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The body's value at row `p`, lane `q` of a block is the combined array's entry at row `r`, lane `q`, once the loaded
    blocks hold the arrays' entries of that row and lane. -/
theorem blk_point6 (x0 x1 : Vec Ideal S5000x128 .f32) (x2 : Vec Ideal S5000x1 .f32) (x3 : Vec Ideal S1x128 .f32)
    (a y : Vec Ideal S50000x128 .f32) (s : Vec Ideal S50000x1 .f32) (b : Vec Ideal S1x128 .f32)
    (p : Fin 5000) (q : Fin 128) (r : Fin 50000)
    (h0 : x0 (ix2 p q) = a (ix2 r q)) (h1 : x1 (ix2 p q) = y (ix2 r q)) (h2 : x2 (ix2 p 0) = s (ix2 r 0))
    (h3 : x3 (ix2 0 q) = b (ix2 0 q)) :
    k6_pay1 x0 x1 x2 x3 (ix2 p q) = Cert.Spec.combineRelu a y s b (ix2 r q) := by
  rw [pay6_at, h0, h1, h2, h3]
  rfl

/-- What point `t` writes back is rows `5000·t … 5000·t + 4999` of the combined array: row `p` of every row-blocked
    window's block is row `5000·t + p` of its array, and the bias row's block is the bias row. -/
theorem flushed6_eq (c : Dev nD) (t : Fin cfg6.N) :
    (dat6 V c).flushed 4 t = ((cfg6.win 4).blk t).view.read (Elt Ideal)
      (Cert.Spec.combineRelu (V c main_v89) (V c main_v77) (V c main_v30) (V c main_v92)) := by
  show (cfg6.win 4).cut (grid6.coords t) ((dat6 V c).after 4 t) = _
  rw [after6_4]
  unfold out6_4
  rw [View.canon_unit_zero origin6]
  simp only [View.ld_unit_zero (S := S5000x128) origin6, View.ld_unit_zero (S := S5000x1) origin6, View.ld_unit_zero (S := S1x128) origin6]
  obtain ⟨e00, e01, e10, e11, e20, e21, e30, e31, e40, e41⟩ := maps6 t
  have hN : t.val < 10 := lt_of_lt_of_eq t.isLt N_6
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg6.win 4).blk t).view.emb (ix2 p q) = ix2 (⟨t.val * 5000 + p.val, by omega⟩ : Fin 50000) q := by
    funext a; apply Fin.ext
    match a with
    | ⟨0, _⟩ => show win6_4.index t (0 : Fin 2) * 5000 + 1 * p.val = t.val * 5000 + p.val; omega
    | ⟨1, _⟩ => show win6_4.index t (1 : Fin 2) * 128 + 1 * q.val = q.val; omega
  show k6_pay1 (iblk6 V c 0 t) (iblk6 V c 1 t) (iblk6 V c 2 t) (iblk6 V c 3 t) (ix2 p q)
    = Cert.Spec.combineRelu (V c main_v89) (V c main_v77) (V c main_v30) (V c main_v92) (((cfg6.win 4).blk t).view.emb (ix2 p q))
  rw [hemb]
  refine blk_point6 (iblk6 V c 0 t) (iblk6 V c 1 t) (iblk6 V c 2 t) (iblk6 V c 3 t) (V c main_v89) (V c main_v77) (V c main_v30) (V c main_v92) p q ⟨t.val * 5000 + p.val, by omega⟩ ?_ ?_ ?_ ?_
  · show V c main_v89 (((cfg6.win 0).blk t).view.emb (ix2 p q)) = V c main_v89 _
    refine congrArg (V c main_v89) (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * q.val = q.val; omega
  · show V c main_v77 (((cfg6.win 1).blk t).view.emb (ix2 p q)) = V c main_v77 _
    refine congrArg (V c main_v77) (funext fun a => Fin.ext ?_)
    match a with
    | ⟨0, _⟩ => show win6_1.index t (0 : Fin 2) * 5000 + 1 * p.val = t.val * 5000 + p.val; omega
    | ⟨1, _⟩ => show win6_1.index t (1 : Fin 2) * 128 + 1 * q.val = q.val; omega
  · show V c main_v30 (((cfg6.win 2).blk t).view.emb (ix2 p 0)) = V c main_v30 _
    refine congrArg (V c main_v30) (funext fun a => Fin.ext ?_)
    match a with
    | ⟨0, _⟩ => show win6_2.index t (0 : Fin 2) * 5000 + 1 * p.val = t.val * 5000 + p.val; omega
    | ⟨1, _⟩ => show win6_2.index t (1 : Fin 2) * 1 + 1 * 0 = 0; omega
  · show V c main_v92 (((cfg6.win 3).blk t).view.emb (ix2 0 q)) = V c main_v92 _
    refine congrArg (V c main_v92) (funext fun a => Fin.ext ?_)
    match a with
    | ⟨0, _⟩ => show win6_3.index t (0 : Fin 2) * 1 + 1 * 0 = 0; omega
    | ⟨1, _⟩ => show win6_3.index t (1 : Fin 2) * 128 + 1 * q.val = q.val; omega

/-- An index of the output array is in point `t`'s block iff, on each axis, it lies in the block's range. -/
theorem mem_blk6 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v93).slice (win6_4.rect t)).set ↔ _
  rw [View.set_slice_whole, Rect.mem_set_unit]
  exact Iff.rfl

/-- Row `r` of the output array is written back by point `r / 5000`. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, lt_of_lt_of_eq (by omega) N_6.symm⟩, rfl⟩
  obtain ⟨-, -, -, -, -, -, -, -, e40, e41⟩ := maps6 t
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- Region 6's output array after its ten points: messages, own features and bias combined, clamped at zero. -/
theorem arr6 (c : Dev nD) :
    (dat6 (F := Ideal) V c).arrAt 4 cfg6.N = Cert.Spec.combineRelu (V c main_v89) (V c main_v77) (V c main_v30) (V c main_v92) :=
  (dat6 V c).arrAt_eq_of_cover 4 (Cert.Spec.combineRelu (V c main_v89) (V c main_v77) (V c main_v30) (V c main_v92))
    (fun t _ => flushed6_eq V c t) cover6

end Cert.KernelIdeal.Reg

end
-- ==== Proof.RegCombine8.lean ====
/- Combining region 8, the last one, which does not clamp: its output array is the pointwise combination of its input arrays, row blocks laid side by side. -/
import proofs.«427692_j27324581937611_1_alg».proof.Proof.Gen.KernelIdeal.Frame
import proofs.«427692_j27324581937611_1_alg».proof.Proof.KStages
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Reading the spread column and the repeated row

Every block starts at the origin of its staging buffer; a column spread over the lanes and a row repeated over the
rows read back the column's row and the row's lane. -/

/-- The staging buffers are read and written from their origin. -/
theorem origin8 : (![0, 0] : Fin 2 → Nat) = fun _ => 0 := funext fun a => by fin_cases a <;> rfl

/-- A column of height 5000 spread over 128 lanes reads, at row `p` and lane `q`, the column's row `p`. -/
theorem col_spread8 (x : Vec Ideal S5000x1 .f32) (h : S5000x1.Broadcasts S5000x128) (p : Fin 5000) (q : Fin 128) :
    broadcastTo S5000x128 x h (ix2 p q) = x (ix2 p 0) := by
  refine broadcastTo_apply x h (ix2 p q) (ix2 p 0) ?_
  intro a
  match a with
  | ⟨0, _⟩ => rfl
  | ⟨1, _⟩ => rfl

/-- A row of 128 lanes repeated over 5000 rows reads, at row `p` and lane `q`, the row's lane `q`. -/
theorem row_spread8 (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) ?_
  intro a
  match a with
  | ⟨0, _⟩ => rfl
  | ⟨1, _⟩ => rfl

/-! ## Region 8 -/

/-- The body's value at row `p`, lane `q` of a block: the messages there, plus the own features there scaled by the
    row's norm, plus the lane's bias. -/
theorem pay8_at (x0 x1 : Vec Ideal S5000x128 .f32) (x2 : Vec Ideal S5000x1 .f32) (x3 : Vec Ideal S1x128 .f32)
    (p : Fin 5000) (q : Fin 128) :
    k8_pay1 x0 x1 x2 x3 (ix2 p q) = (x0 (ix2 p q) + x1 (ix2 p q) * x2 (ix2 p 0)) + x3 (ix2 0 q) := by
  unfold k8_pay1
  simp only [shapeCast_self]
  rw [addf_apply, addf_apply, mulf_apply, col_spread8, row_spread8]

/-- Where the windows' blocks sit at point `t`: the three row-blocked inputs and the output at block row `t`, the
    bias row at its one block; decided over the ten points. -/
theorem maps8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The body's value at row `p`, lane `q` of a block is the combined array's entry at row `r`, lane `q`, once the loaded
    blocks hold the arrays' entries of that row and lane. -/
theorem blk_point8 (x0 x1 : Vec Ideal S5000x128 .f32) (x2 : Vec Ideal S5000x1 .f32) (x3 : Vec Ideal S1x128 .f32)
    (a y : Vec Ideal S50000x128 .f32) (s : Vec Ideal S50000x1 .f32) (b : Vec Ideal S1x128 .f32)
    (p : Fin 5000) (q : Fin 128) (r : Fin 50000)
    (h0 : x0 (ix2 p q) = a (ix2 r q)) (h1 : x1 (ix2 p q) = y (ix2 r q)) (h2 : x2 (ix2 p 0) = s (ix2 r 0))
    (h3 : x3 (ix2 0 q) = b (ix2 0 q)) :
    k8_pay1 x0 x1 x2 x3 (ix2 p q) = Cert.Spec.combine a y s b (ix2 r q) := by
  rw [pay8_at, h0, h1, h2, h3]
  rfl

/-- What point `t` writes back is rows `5000·t … 5000·t + 4999` of the combined array: row `p` of every row-blocked
    window's block is row `5000·t + p` of its array, and the bias row's block is the bias row. -/
theorem flushed8_eq (c : Dev nD) (t : Fin cfg8.N) :
    (dat8 V c).flushed 4 t = ((cfg8.win 4).blk t).view.read (Elt Ideal)
      (Cert.Spec.combine (V c main_v109) (V c main_v97) (V c main_v30) (V c main_v112)) := by
  show (cfg8.win 4).cut (grid8.coords t) ((dat8 V c).after 4 t) = _
  rw [after8_4]
  unfold out8_4
  rw [View.canon_unit_zero origin8]
  simp only [View.ld_unit_zero (S := S5000x128) origin8, View.ld_unit_zero (S := S5000x1) origin8, View.ld_unit_zero (S := S1x128) origin8]
  obtain ⟨e00, e01, e10, e11, e20, e21, e30, e31, e40, e41⟩ := maps8 t
  have hN : t.val < 10 := lt_of_lt_of_eq t.isLt N_8
  funext j
  obtain ⟨p, q, rfl⟩ : ∃ (p : Fin 5000) (q : Fin 128), j = ix2 p q := ⟨j 0, j 1, eq_ix2 j⟩
  have hp : p.val < 5000 := p.isLt
  have hq : q.val < 128 := q.isLt
  have hemb : ((cfg8.win 4).blk t).view.emb (ix2 p q) = ix2 (⟨t.val * 5000 + p.val, by omega⟩ : Fin 50000) q := by
    funext a; apply Fin.ext
    match a with
    | ⟨0, _⟩ => show win8_4.index t (0 : Fin 2) * 5000 + 1 * p.val = t.val * 5000 + p.val; omega
    | ⟨1, _⟩ => show win8_4.index t (1 : Fin 2) * 128 + 1 * q.val = q.val; omega
  show k8_pay1 (iblk8 V c 0 t) (iblk8 V c 1 t) (iblk8 V c 2 t) (iblk8 V c 3 t) (ix2 p q)
    = Cert.Spec.combine (V c main_v109) (V c main_v97) (V c main_v30) (V c main_v112) (((cfg8.win 4).blk t).view.emb (ix2 p q))
  rw [hemb]
  refine blk_point8 (iblk8 V c 0 t) (iblk8 V c 1 t) (iblk8 V c 2 t) (iblk8 V c 3 t) (V c main_v109) (V c main_v97) (V c main_v30) (V c main_v112) p q ⟨t.val * 5000 + p.val, by omega⟩ ?_ ?_ ?_ ?_
  · show V c main_v109 (((cfg8.win 0).blk t).view.emb (ix2 p q)) = V c main_v109 _
    refine congrArg (V c main_v109) (funext fun a => Fin.ext ?_)
    match a with
    | ⟨0, _⟩ => show win8_0.index t (0 : Fin 2) * 5000 + 1 * p.val = t.val * 5000 + p.val; omega
    | ⟨1, _⟩ => show win8_0.index t (1 : Fin 2) * 128 + 1 * q.val = q.val; omega
  · show V c main_v97 (((cfg8.win 1).blk t).view.emb (ix2 p q)) = V c main_v97 _
    refine congrArg (V c main_v97) (funext fun a => Fin.ext ?_)
    match a with
    | ⟨0, _⟩ => show win8_1.index t (0 : Fin 2) * 5000 + 1 * p.val = t.val * 5000 + p.val; omega
    | ⟨1, _⟩ => show win8_1.index t (1 : Fin 2) * 128 + 1 * q.val = q.val; omega
  · show V c main_v30 (((cfg8.win 2).blk t).view.emb (ix2 p 0)) = V c main_v30 _
    refine congrArg (V c main_v30) (funext fun a => Fin.ext ?_)
    match a with
    | ⟨0, _⟩ => show win8_2.index t (0 : Fin 2) * 5000 + 1 * p.val = t.val * 5000 + p.val; omega
    | ⟨1, _⟩ => show win8_2.index t (1 : Fin 2) * 1 + 1 * 0 = 0; omega
  · show V c main_v112 (((cfg8.win 3).blk t).view.emb (ix2 0 q)) = V c main_v112 _
    refine congrArg (V c main_v112) (funext fun a => Fin.ext ?_)
    match a with
    | ⟨0, _⟩ => show win8_3.index t (0 : Fin 2) * 1 + 1 * 0 = 0; omega
    | ⟨1, _⟩ => show win8_3.index t (1 : Fin 2) * 128 + 1 * q.val = q.val; omega

/-- An index of the output array is in point `t`'s block iff, on each axis, it lies in the block's range. -/
theorem mem_blk8 (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v113).slice (win8_4.rect t)).set ↔ _
  rw [View.set_slice_whole, Rect.mem_set_unit]
  exact Iff.rfl

/-- Row `r` of the output array is written back by point `r / 5000`. -/
theorem cover8 (i : S50000x128.Idx) :
    ∃ t : Fin cfg8.N, (cfg8.win 4).flush t = true ∧ i ∈ ((cfg8.win 4).blk t).view.set := by
  have hi0 : (i 0).val < 50000 := (i 0).isLt
  have hi1 : (i 1).val < 128 := (i 1).isLt
  obtain ⟨t, ht⟩ : ∃ t : Fin cfg8.N, t.val = (i 0).val / 5000 :=
    ⟨⟨(i 0).val / 5000, lt_of_lt_of_eq (by omega) N_8.symm⟩, rfl⟩
  obtain ⟨-, -, -, -, -, -, -, -, e40, e41⟩ := maps8 t
  refine ⟨t, flush8_4 t, ?_⟩
  rw [mem_blk8]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 128 ≤ (i 1).val ∧ (i 1).val < win8_4.index t (1 : Fin 2) * 128 + 128; omega

/-- Region 8's output array after its ten points: messages, own features and bias combined. -/
theorem arr8 (c : Dev nD) :
    (dat8 (F := Ideal) V c).arrAt 4 cfg8.N = Cert.Spec.combine (V c main_v109) (V c main_v97) (V c main_v30) (V c main_v112) :=
  (dat8 V c).arrAt_eq_of_cover 4 (Cert.Spec.combine (V c main_v109) (V c main_v97) (V c main_v30) (V c main_v112))
    (fun t _ => flushed8_eq V c t) cover8

end Cert.KernelIdeal.Reg

end
-- ==== Proof.RegCombine.lean ====
/- The four combining regions, one module each: every output array is the pointwise combination of its region's input arrays, row blocks laid side by side. -/
import proofs.«427692_j27324581937611_1_alg».proof.Proof.RegCombine2
import proofs.«427692_j27324581937611_1_alg».proof.Proof.RegCombine4
import proofs.«427692_j27324581937611_1_alg».proof.Proof.RegCombine6
import proofs.«427692_j27324581937611_1_alg».proof.Proof.RegCombine8
-- ==== Proof.KHopA.lean ====
/- Hop 0 of the message passing, from the boundary where its input features are ready to the boundary after its combining region: a host stretch slices the hop's weights, a region multiplies, a host stretch gathers, scales and scatters the messages, a region combines. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.RegLinear
import proofs.«427692_j27324581937611_1_alg».proof.Proof.RegCombine
import proofs.«427692_j27324581937611_1_alg».proof.Proof.KVals
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The hop's weight matrix, sliced out of the stacked weights by the first host stretch. -/
theorem hopA_w (c : Dev nD) :
    W3 m ρ c (Proc.devRef .tc main_v35) = Stage.wk0 (m ((c : Thread nD τ).loc main_arg5)) := by
  show StableHlo.after hostOps1 _ (Proc.devRef .tc main_v35) = _
  simp only [hostOps1, List.flatten_cons, List.flatten_nil, List.append_nil, List.cons_append, List.nil_append]
  after_results_simp
  rw [Keep.keep_arg5_W2 m ρ c]
  rfl

/-- The zero bias row the hop's matrix product is given. -/
theorem hopA_z (c : Dev nD) : W3 m ρ c (Proc.devRef .tc main_v36) = Stage.zrow := by
  show StableHlo.after hostOps1 _ (Proc.devRef .tc main_v36) = _
  simp only [hostOps1, List.flatten_cons, List.flatten_nil, List.append_nil, List.cons_append, List.nil_append]
  after_results_simp
  rfl

/-- The matrix-product region leaves the dense layer of the hop's input. -/
theorem hopA_xw (c : Dev nD) (H : FVec Ideal S50000x128 .f32) (hH : W2 m ρ c (Proc.devRef .tc main_v32) = H) :
    W4 m ρ c (Proc.devRef .tc main_v37)
      = Cert.Spec.linear H (Stage.wk0 (m ((c : Thread nD τ).loc main_arg5))) Stage.zrow := by
  refine (W4_arr m ρ c 3).trans ((Reg.arr1 (V3 m ρ) c).trans ?_)
  have e1 : V3 m ρ c main_v32 = H := (Keep.stepH1 m ρ c main_v32 (by decide)).trans hH
  have e2 : V3 m ρ c main_v35 = Stage.wk0 (m ((c : Thread nD τ).loc main_arg5)) := hopA_w m ρ c
  have e3 : V3 m ρ c main_v36 = Stage.zrow := hopA_z m ρ c
  rw [e1, e2, e3]

/-- The second host stretch gathers the product's rows at the edges' sources, scales them and adds them up at the
    edges' targets. -/
theorem hopA_agg (c : Dev nD) (X : FVec Ideal S50000x128 .f32) (hX : W4 m ρ c (Proc.devRef .tc main_v37) = X) :
    W5 m ρ c (Proc.devRef .tc main_v49) = Stage.agg X (m ((c : Thread nD τ).loc main_arg1)) := by
  have e1 : W4 m ρ c (Proc.devRef .tc main_v1) = Stage.src (m ((c : Thread nD τ).loc main_arg1)) :=
    (Keep.keep_v1_W4 m ρ c).trans (Vals.W1_v1 m ρ c)
  have e3 : W4 m ρ c (Proc.devRef .tc main_v3) = Stage.dst (m ((c : Thread nD τ).loc main_arg1)) :=
    (Keep.keep_v3_W4 m ρ c).trans (Vals.W1_v3 m ρ c)
  have e28 : W4 m ρ c (Proc.devRef .tc main_v28) = Stage.enorm (m ((c : Thread nD τ).loc main_arg1)) :=
    (Keep.keep_v28_W4 m ρ c).trans (Vals.W1_v28 m ρ c)
  show StableHlo.after hostOps2 _ (Proc.devRef .tc main_v49) = _
  simp only [hostOps2, List.flatten_cons, List.flatten_nil, List.append_nil, List.cons_append, List.nil_append]
  after_results_simp
  rw [hX, e1, e3, e28]
  rfl

/-- The hop's bias row, sliced out of the stacked biases by the second host stretch. -/
theorem hopA_b (c : Dev nD) :
    W5 m ρ c (Proc.devRef .tc main_v52) = Stage.bk0 (m ((c : Thread nD τ).loc main_arg6)) := by
  show StableHlo.after hostOps2 _ (Proc.devRef .tc main_v52) = _
  simp only [hostOps2, List.flatten_cons, List.flatten_nil, List.append_nil, List.cons_append, List.nil_append]
  after_results_simp
  rw [Keep.keep_arg6_W4 m ρ c]
  rfl

/-- If the hop's input buffer holds `H` when the hop begins, its output buffer holds hop 0 of `H` when it ends. -/
theorem hopA (c : Dev nD) (H : FVec Ideal S50000x128 .f32) (hH : W2 m ρ c (Proc.devRef .tc main_v32) = H) :
    W6 m ρ c (Proc.devRef .tc main_v53) = Stage.hop0 H (m ((c : Thread nD τ).loc main_arg1)) (m ((c : Thread nD τ).loc main_arg5)) (m ((c : Thread nD τ).loc main_arg6)) := by
  -- The product of the hop's input with its weights, as the matrix-product region leaves it.
  have hX := hopA_xw m ρ c H hH
  -- The output buffer is the combining region's fifth array: the combination of its entry contents.
  refine (W6_arr m ρ c 4).trans ((Reg.arr2 (V5 m ρ) c).trans ?_)
  have eM : V5 m ρ c main_v49 = Stage.agg (Cert.Spec.linear H (Stage.wk0 (m ((c : Thread nD τ).loc main_arg5))) Stage.zrow)
      (m ((c : Thread nD τ).loc main_arg1)) := hopA_agg m ρ c _ hX
  have eP : V5 m ρ c main_v37 = Cert.Spec.linear H (Stage.wk0 (m ((c : Thread nD τ).loc main_arg5))) Stage.zrow :=
    (Keep.stepH2 m ρ c main_v37 (by decide)).trans hX
  have eS : V5 m ρ c main_v30 = Stage.snorm (m ((c : Thread nD τ).loc main_arg1)) :=
    (Keep.keep_v30_W5 m ρ c).trans (Vals.W1_v30 m ρ c)
  have eB : V5 m ρ c main_v52 = Stage.bk0 (m ((c : Thread nD τ).loc main_arg6)) := hopA_b m ρ c
  rw [eM, eP, eS, eB]
  rfl

end Cert.KernelIdeal.Chain

end
-- ==== Proof.KHopB.lean ====
/- Hop 1 of the message passing, from the boundary where its input features are ready to the boundary after its combining region: a host stretch slices the hop's weights, a region multiplies, a host stretch gathers, scales and scatters the messages, a region combines. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.RegLinear
import proofs.«427692_j27324581937611_1_alg».proof.Proof.RegCombine
import proofs.«427692_j27324581937611_1_alg».proof.Proof.KVals
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The hop's weight matrix, sliced out of the stacked weights by the first host stretch. -/
theorem hopB_w (c : Dev nD) :
    W7 m ρ c (Proc.devRef .tc main_v55) = Stage.wk1 (m ((c : Thread nD τ).loc main_arg5)) := by
  show StableHlo.after hostOps3 _ (Proc.devRef .tc main_v55) = _
  simp only [hostOps3, List.flatten_cons, List.flatten_nil, List.append_nil, List.cons_append, List.nil_append]
  after_results_simp
  rw [Keep.keep_arg5_W6 m ρ c]
  rfl

/-- The zero bias row the hop's matrix product is given, reshaped from the zero vector made before hop 0. -/
theorem hopB_z (c : Dev nD) : W7 m ρ c (Proc.devRef .tc main_v56) = Stage.zrow := by
  -- The zero vector was made by the host stretch before hop 0 and has not been written since.
  have e33 := (Keep.keep_v33_W6 m ρ c).trans (Vals.W3_v33 m ρ c)
  show StableHlo.after hostOps3 _ (Proc.devRef .tc main_v56) = _
  simp only [hostOps3, List.flatten_cons, List.flatten_nil, List.append_nil, List.cons_append, List.nil_append]
  after_results_simp
  rw [e33]
  rfl

/-- The matrix-product region leaves the dense layer of the hop's input. -/
theorem hopB_xw (c : Dev nD) (H : FVec Ideal S50000x128 .f32) (hH : W6 m ρ c (Proc.devRef .tc main_v53) = H) :
    W8 m ρ c (Proc.devRef .tc main_v57)
      = Cert.Spec.linear H (Stage.wk1 (m ((c : Thread nD τ).loc main_arg5))) Stage.zrow := by
  refine (W8_arr m ρ c 3).trans ((Reg.arr3 (V7 m ρ) c).trans ?_)
  have e1 : V7 m ρ c main_v53 = H := (Keep.stepH3 m ρ c main_v53 (by decide)).trans hH
  have e2 : V7 m ρ c main_v55 = Stage.wk1 (m ((c : Thread nD τ).loc main_arg5)) := hopB_w m ρ c
  have e3 : V7 m ρ c main_v56 = Stage.zrow := hopB_z m ρ c
  rw [e1, e2, e3]

/-- The second host stretch gathers the product's rows at the edges' sources, scales them and adds them up at the
    edges' targets. -/
theorem hopB_agg (c : Dev nD) (X : FVec Ideal S50000x128 .f32) (hX : W8 m ρ c (Proc.devRef .tc main_v57) = X) :
    W9 m ρ c (Proc.devRef .tc main_v69) = Stage.agg X (m ((c : Thread nD τ).loc main_arg1)) := by
  have e1 : W8 m ρ c (Proc.devRef .tc main_v1) = Stage.src (m ((c : Thread nD τ).loc main_arg1)) :=
    (Keep.keep_v1_W8 m ρ c).trans (Vals.W1_v1 m ρ c)
  have e3 : W8 m ρ c (Proc.devRef .tc main_v3) = Stage.dst (m ((c : Thread nD τ).loc main_arg1)) :=
    (Keep.keep_v3_W8 m ρ c).trans (Vals.W1_v3 m ρ c)
  have e28 : W8 m ρ c (Proc.devRef .tc main_v28) = Stage.enorm (m ((c : Thread nD τ).loc main_arg1)) :=
    (Keep.keep_v28_W8 m ρ c).trans (Vals.W1_v28 m ρ c)
  show StableHlo.after hostOps4 _ (Proc.devRef .tc main_v69) = _
  simp only [hostOps4, List.flatten_cons, List.flatten_nil, List.append_nil, List.cons_append, List.nil_append]
  after_results_simp
  rw [hX, e1, e3, e28]
  rfl

/-- The hop's bias row, sliced out of the stacked biases by the second host stretch. -/
theorem hopB_b (c : Dev nD) :
    W9 m ρ c (Proc.devRef .tc main_v72) = Stage.bk1 (m ((c : Thread nD τ).loc main_arg6)) := by
  show StableHlo.after hostOps4 _ (Proc.devRef .tc main_v72) = _
  simp only [hostOps4, List.flatten_cons, List.flatten_nil, List.append_nil, List.cons_append, List.nil_append]
  after_results_simp
  rw [Keep.keep_arg6_W8 m ρ c]
  rfl

/-- If the hop's input buffer holds `H` when the hop begins, its output buffer holds hop 1 of `H` when it ends. -/
theorem hopB (c : Dev nD) (H : FVec Ideal S50000x128 .f32) (hH : W6 m ρ c (Proc.devRef .tc main_v53) = H) :
    W10 m ρ c (Proc.devRef .tc main_v73) = Stage.hop1 H (m ((c : Thread nD τ).loc main_arg1)) (m ((c : Thread nD τ).loc main_arg5)) (m ((c : Thread nD τ).loc main_arg6)) := by
  -- The product of the hop's input with its weights, as the matrix-product region leaves it.
  have hX := hopB_xw m ρ c H hH
  -- The output buffer is the combining region's fifth array: the combination of its entry contents.
  refine (W10_arr m ρ c 4).trans ((Reg.arr4 (V9 m ρ) c).trans ?_)
  have eM : V9 m ρ c main_v69 = Stage.agg (Cert.Spec.linear H (Stage.wk1 (m ((c : Thread nD τ).loc main_arg5))) Stage.zrow)
      (m ((c : Thread nD τ).loc main_arg1)) := hopB_agg m ρ c _ hX
  have eP : V9 m ρ c main_v57 = Cert.Spec.linear H (Stage.wk1 (m ((c : Thread nD τ).loc main_arg5))) Stage.zrow :=
    (Keep.stepH4 m ρ c main_v57 (by decide)).trans hX
  have eS : V9 m ρ c main_v30 = Stage.snorm (m ((c : Thread nD τ).loc main_arg1)) :=
    (Keep.keep_v30_W9 m ρ c).trans (Vals.W1_v30 m ρ c)
  have eB : V9 m ρ c main_v72 = Stage.bk1 (m ((c : Thread nD τ).loc main_arg6)) := hopB_b m ρ c
  rw [eM, eP, eS, eB]
  rfl

end Cert.KernelIdeal.Chain

end
-- ==== Proof.KHopC.lean ====
/- Hop 2 of the message passing, from the boundary where its input features are ready to the boundary after its combining region: a host stretch slices the hop's weights, a region multiplies, a host stretch gathers, scales and scatters the messages, a region combines. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.RegLinear
import proofs.«427692_j27324581937611_1_alg».proof.Proof.RegCombine
import proofs.«427692_j27324581937611_1_alg».proof.Proof.KVals
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The hop's weight matrix, sliced out of the stacked weights by the first host stretch. -/
theorem hopC_w (c : Dev nD) :
    W11 m ρ c (Proc.devRef .tc main_v75) = Stage.wk2 (m ((c : Thread nD τ).loc main_arg5)) := by
  show StableHlo.after hostOps5 _ (Proc.devRef .tc main_v75) = _
  simp only [hostOps5, List.flatten_cons, List.flatten_nil, List.append_nil, List.cons_append, List.nil_append]
  after_results_simp
  rw [Keep.keep_arg5_W10 m ρ c]
  rfl

/-- The zero bias row the hop's matrix product is given, reshaped from the zero vector made before hop 0. -/
theorem hopC_z (c : Dev nD) : W11 m ρ c (Proc.devRef .tc main_v76) = Stage.zrow := by
  -- The zero vector was made by the host stretch before hop 0 and has not been written since.
  have e33 := (Keep.keep_v33_W10 m ρ c).trans (Vals.W3_v33 m ρ c)
  show StableHlo.after hostOps5 _ (Proc.devRef .tc main_v76) = _
  simp only [hostOps5, List.flatten_cons, List.flatten_nil, List.append_nil, List.cons_append, List.nil_append]
  after_results_simp
  rw [e33]
  rfl

/-- The matrix-product region leaves the dense layer of the hop's input. -/
theorem hopC_xw (c : Dev nD) (H : FVec Ideal S50000x128 .f32) (hH : W10 m ρ c (Proc.devRef .tc main_v73) = H) :
    W12 m ρ c (Proc.devRef .tc main_v77)
      = Cert.Spec.linear H (Stage.wk2 (m ((c : Thread nD τ).loc main_arg5))) Stage.zrow := by
  refine (W12_arr m ρ c 3).trans ((Reg.arr5 (V11 m ρ) c).trans ?_)
  have e1 : V11 m ρ c main_v73 = H := (Keep.stepH5 m ρ c main_v73 (by decide)).trans hH
  have e2 : V11 m ρ c main_v75 = Stage.wk2 (m ((c : Thread nD τ).loc main_arg5)) := hopC_w m ρ c
  have e3 : V11 m ρ c main_v76 = Stage.zrow := hopC_z m ρ c
  rw [e1, e2, e3]

/-- The second host stretch gathers the product's rows at the edges' sources, scales them and adds them up at the
    edges' targets. -/
theorem hopC_agg (c : Dev nD) (X : FVec Ideal S50000x128 .f32) (hX : W12 m ρ c (Proc.devRef .tc main_v77) = X) :
    W13 m ρ c (Proc.devRef .tc main_v89) = Stage.agg X (m ((c : Thread nD τ).loc main_arg1)) := by
  have e1 : W12 m ρ c (Proc.devRef .tc main_v1) = Stage.src (m ((c : Thread nD τ).loc main_arg1)) :=
    (Keep.keep_v1_W12 m ρ c).trans (Vals.W1_v1 m ρ c)
  have e3 : W12 m ρ c (Proc.devRef .tc main_v3) = Stage.dst (m ((c : Thread nD τ).loc main_arg1)) :=
    (Keep.keep_v3_W12 m ρ c).trans (Vals.W1_v3 m ρ c)
  have e28 : W12 m ρ c (Proc.devRef .tc main_v28) = Stage.enorm (m ((c : Thread nD τ).loc main_arg1)) :=
    (Keep.keep_v28_W12 m ρ c).trans (Vals.W1_v28 m ρ c)
  show StableHlo.after hostOps6 _ (Proc.devRef .tc main_v89) = _
  simp only [hostOps6, List.flatten_cons, List.flatten_nil, List.append_nil, List.cons_append, List.nil_append]
  after_results_simp
  rw [hX, e1, e3, e28]
  rfl

/-- The hop's bias row, sliced out of the stacked biases by the second host stretch. -/
theorem hopC_b (c : Dev nD) :
    W13 m ρ c (Proc.devRef .tc main_v92) = Stage.bk2 (m ((c : Thread nD τ).loc main_arg6)) := by
  show StableHlo.after hostOps6 _ (Proc.devRef .tc main_v92) = _
  simp only [hostOps6, List.flatten_cons, List.flatten_nil, List.append_nil, List.cons_append, List.nil_append]
  after_results_simp
  rw [Keep.keep_arg6_W12 m ρ c]
  rfl

/-- If the hop's input buffer holds `H` when the hop begins, its output buffer holds hop 2 of `H` when it ends. -/
theorem hopC (c : Dev nD) (H : FVec Ideal S50000x128 .f32) (hH : W10 m ρ c (Proc.devRef .tc main_v73) = H) :
    W14 m ρ c (Proc.devRef .tc main_v93) = Stage.hop2 H (m ((c : Thread nD τ).loc main_arg1)) (m ((c : Thread nD τ).loc main_arg5)) (m ((c : Thread nD τ).loc main_arg6)) := by
  -- The product of the hop's input with its weights, as the matrix-product region leaves it.
  have hX := hopC_xw m ρ c H hH
  -- The output buffer is the combining region's fifth array: the combination of its entry contents.
  refine (W14_arr m ρ c 4).trans ((Reg.arr6 (V13 m ρ) c).trans ?_)
  have eM : V13 m ρ c main_v89 = Stage.agg (Cert.Spec.linear H (Stage.wk2 (m ((c : Thread nD τ).loc main_arg5))) Stage.zrow)
      (m ((c : Thread nD τ).loc main_arg1)) := hopC_agg m ρ c _ hX
  have eP : V13 m ρ c main_v77 = Cert.Spec.linear H (Stage.wk2 (m ((c : Thread nD τ).loc main_arg5))) Stage.zrow :=
    (Keep.stepH6 m ρ c main_v77 (by decide)).trans hX
  have eS : V13 m ρ c main_v30 = Stage.snorm (m ((c : Thread nD τ).loc main_arg1)) :=
    (Keep.keep_v30_W13 m ρ c).trans (Vals.W1_v30 m ρ c)
  have eB : V13 m ρ c main_v92 = Stage.bk2 (m ((c : Thread nD τ).loc main_arg6)) := hopC_b m ρ c
  rw [eM, eP, eS, eB]
  rfl

end Cert.KernelIdeal.Chain

end
-- ==== Proof.KHopD.lean ====
/- Hop 3 of the message passing, from the boundary where its input features are ready to the boundary after its combining region: a host stretch slices the hop's weights, a region multiplies, a host stretch gathers, scales and scatters the messages, a region combines. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.RegLinear
import proofs.«427692_j27324581937611_1_alg».proof.Proof.RegCombine
import proofs.«427692_j27324581937611_1_alg».proof.Proof.KVals
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The hop's weight matrix, sliced out of the stacked weights by the first host stretch. -/
theorem hopD_w (c : Dev nD) :
    W15 m ρ c (Proc.devRef .tc main_v95) = Stage.wk3 (m ((c : Thread nD τ).loc main_arg5)) := by
  show StableHlo.after hostOps7 _ (Proc.devRef .tc main_v95) = _
  simp only [hostOps7, List.flatten_cons, List.flatten_nil, List.append_nil, List.cons_append, List.nil_append]
  after_results_simp
  rw [Keep.keep_arg5_W14 m ρ c]
  rfl

/-- The zero bias row the hop's matrix product is given, reshaped from the zero vector made before hop 0. -/
theorem hopD_z (c : Dev nD) : W15 m ρ c (Proc.devRef .tc main_v96) = Stage.zrow := by
  -- The zero vector was made by the host stretch before hop 0 and has not been written since.
  have e33 := (Keep.keep_v33_W14 m ρ c).trans (Vals.W3_v33 m ρ c)
  show StableHlo.after hostOps7 _ (Proc.devRef .tc main_v96) = _
  simp only [hostOps7, List.flatten_cons, List.flatten_nil, List.append_nil, List.cons_append, List.nil_append]
  after_results_simp
  rw [e33]
  rfl

/-- The matrix-product region leaves the dense layer of the hop's input. -/
theorem hopD_xw (c : Dev nD) (H : FVec Ideal S50000x128 .f32) (hH : W14 m ρ c (Proc.devRef .tc main_v93) = H) :
    W16 m ρ c (Proc.devRef .tc main_v97)
      = Cert.Spec.linear H (Stage.wk3 (m ((c : Thread nD τ).loc main_arg5))) Stage.zrow := by
  refine (W16_arr m ρ c 3).trans ((Reg.arr7 (V15 m ρ) c).trans ?_)
  have e1 : V15 m ρ c main_v93 = H := (Keep.stepH7 m ρ c main_v93 (by decide)).trans hH
  have e2 : V15 m ρ c main_v95 = Stage.wk3 (m ((c : Thread nD τ).loc main_arg5)) := hopD_w m ρ c
  have e3 : V15 m ρ c main_v96 = Stage.zrow := hopD_z m ρ c
  rw [e1, e2, e3]

/-- The second host stretch gathers the product's rows at the edges' sources, scales them and adds them up at the
    edges' targets. -/
theorem hopD_agg (c : Dev nD) (X : FVec Ideal S50000x128 .f32) (hX : W16 m ρ c (Proc.devRef .tc main_v97) = X) :
    W17 m ρ c (Proc.devRef .tc main_v109) = Stage.agg X (m ((c : Thread nD τ).loc main_arg1)) := by
  have e1 : W16 m ρ c (Proc.devRef .tc main_v1) = Stage.src (m ((c : Thread nD τ).loc main_arg1)) :=
    (Keep.keep_v1_W16 m ρ c).trans (Vals.W1_v1 m ρ c)
  have e3 : W16 m ρ c (Proc.devRef .tc main_v3) = Stage.dst (m ((c : Thread nD τ).loc main_arg1)) :=
    (Keep.keep_v3_W16 m ρ c).trans (Vals.W1_v3 m ρ c)
  have e28 : W16 m ρ c (Proc.devRef .tc main_v28) = Stage.enorm (m ((c : Thread nD τ).loc main_arg1)) :=
    (Keep.keep_v28_W16 m ρ c).trans (Vals.W1_v28 m ρ c)
  show StableHlo.after hostOps8 _ (Proc.devRef .tc main_v109) = _
  simp only [hostOps8, List.flatten_cons, List.flatten_nil, List.append_nil, List.cons_append, List.nil_append]
  after_results_simp
  rw [hX, e1, e3, e28]
  rfl

/-- The hop's bias row, sliced out of the stacked biases by the second host stretch. -/
theorem hopD_b (c : Dev nD) :
    W17 m ρ c (Proc.devRef .tc main_v112) = Stage.bk3 (m ((c : Thread nD τ).loc main_arg6)) := by
  show StableHlo.after hostOps8 _ (Proc.devRef .tc main_v112) = _
  simp only [hostOps8, List.flatten_cons, List.flatten_nil, List.append_nil, List.cons_append, List.nil_append]
  after_results_simp
  rw [Keep.keep_arg6_W16 m ρ c]
  rfl

/-- If the hop's input buffer holds `H` when the hop begins, its output buffer holds hop 3 of `H` when it ends. -/
theorem hopD (c : Dev nD) (H : FVec Ideal S50000x128 .f32) (hH : W14 m ρ c (Proc.devRef .tc main_v93) = H) :
    W18 m ρ c (Proc.devRef .tc main_v113) = Stage.hop3 H (m ((c : Thread nD τ).loc main_arg1)) (m ((c : Thread nD τ).loc main_arg5)) (m ((c : Thread nD τ).loc main_arg6)) := by
  -- The product of the hop's input with its weights, as the matrix-product region leaves it.
  have hX := hopD_xw m ρ c H hH
  -- The output buffer is the combining region's fifth array: the combination of its entry contents.
  refine (W18_arr m ρ c 4).trans ((Reg.arr8 (V17 m ρ) c).trans ?_)
  have eM : V17 m ρ c main_v109 = Stage.agg (Cert.Spec.linear H (Stage.wk3 (m ((c : Thread nD τ).loc main_arg5))) Stage.zrow)
      (m ((c : Thread nD τ).loc main_arg1)) := hopD_agg m ρ c _ hX
  have eP : V17 m ρ c main_v97 = Cert.Spec.linear H (Stage.wk3 (m ((c : Thread nD τ).loc main_arg5))) Stage.zrow :=
    (Keep.stepH8 m ρ c main_v97 (by decide)).trans hX
  have eS : V17 m ρ c main_v30 = Stage.snorm (m ((c : Thread nD τ).loc main_arg1)) :=
    (Keep.keep_v30_W17 m ρ c).trans (Vals.W1_v30 m ρ c)
  have eB : V17 m ρ c main_v112 = Stage.bk3 (m ((c : Thread nD τ).loc main_arg6)) := hopD_b m ρ c
  rw [eM, eP, eS, eB]
  rfl

end Cert.KernelIdeal.Chain

end
-- ==== Proof.PoolPoint.lean ====
/- One point of the pooling kernel, read at an index: the stored block is the block found plus, per segment and column,
   the sum over the point's 5000 rows carrying the segment's id of the row's logit (columns 0-9) or of one (column 10);
   the first point's reset stores zeros. -/
import proofs.«427692_j27324581937611_1_alg».proof.Proof.Gen.KernelIdeal.Skeleton
import proofs.«427692_j27324581937611_1_alg».proof.Proof.KStages
import Idealize.ShloMosaic.Lib.Pipeline.Value
import Idealize.ShloMosaic.Lib.ValueLayout
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.ValueIdx

/-- The reset stores zero everywhere. -/
theorem pay1_apply (i : S128x11.Idx) : k10_pay1 (F := Ideal) i = 0 := by
  show Ideal.ofBits .f32 0x00000000#32 = 0
  exact Ideal.ofBits_zero_f32

/-! ## The update: a product of two factors contracted along the block's rows

The stored block is the block found plus `Aᵀ B`, where `A` is [5000, 128] with `A r g = 1` when row `r` carries
segment `g`'s id word and `0` otherwise, and `B` is [5000, 11], the logits with a column of ones appended. Entry
`(g, j)` of the product is `∑ r, A r g * B r j`: the rows of `B`'s column `j` that carry `g`'s id, added up. -/

/-- The product's contraction record: both operands are contracted along axis 0 (the 5000 rows); the free axes are the
    128 segments on the left and the 11 columns on the right. -/
abbrev D10 := dot_S5000x128_S5000x11_S128x11_0_0_1_1_n_n

/-- Left operand, axis 0: the contracted row. -/
theorem lhs10_0 (i : S128x11.Idx) (q : D10.contr.Idx) : (D10.lhsIdx i q 0).val = (q ⟨0, by decide⟩).val :=
  D10.lhsIdx_val_of_single rfl i q
/-- Right operand, axis 0: the same contracted row. -/
theorem rhs10_0 (i : S128x11.Idx) (q : D10.contr.Idx) : (D10.rhsIdx i q 0).val = (q ⟨0, by decide⟩).val :=
  D10.rhsIdx_val_of_single rfl i q
/-- Left operand, axis 1: the output's segment. -/
theorem lhs10_1 (i : S128x11.Idx) (q : D10.contr.Idx) : (D10.lhsIdx i q 1).val = (i 0).val := by
  unfold DotDims.lhsIdx
  rw [dif_neg (show ¬(1 : Fin S5000x128.rank) ∈ D10.lhsBatch by decide), dif_pos (show (1 : Fin S5000x128.rank) ∈ D10.lhsNonContracting by decide)]
  rfl
/-- Right operand, axis 1: the output's column. -/
theorem rhs10_1 (i : S128x11.Idx) (q : D10.contr.Idx) : (D10.rhsIdx i q 1).val = (i 1).val := by
  unfold DotDims.rhsIdx
  rw [dif_neg (show ¬(1 : Fin S5000x11.rank) ∈ D10.rhsBatch by decide), dif_pos (show (1 : Fin S5000x11.rank) ∈ D10.rhsNonContracting by decide)]
  rfl

/-- The left factor as a whole array: the id column spread over 128 columns, compared entry by entry with the column's
    number, the one-bit answer widened and read as a number. -/
abbrev onehot (ids : Vec Ideal S5000x1 .i32) : FVec Ideal S5000x128 .bf16 :=
  truncf .bf16 (sitofp .f32 (extui 32 (cmpi .eq (broadcastTo S5000x128 (shapeCast S5000x1 ids Gen.shapeCasts_S5000x1_S5000x1) Gen.broadcasts_S5000x1_S5000x128)
    (iota .tc S5000x128 32 [1] Gen.iota_S5000x128_d1_w32)) Gen.natLt_1_32)) Gen.bitsLt_bf16_f32

/-- The right factor as a whole array: the block of logits with a column of ones appended. -/
abbrev yaug (y : Vec Ideal S5000x10 .f32) : FVec Ideal S5000x11 .bf16 :=
  truncf .bf16 (concatenate S5000x11 1 [⟨S5000x10, shapeCast S5000x10 y Gen.shapeCasts_S5000x10_S5000x10⟩,
    ⟨S5000x1, broadcast S5000x1 (Scalar.ofBits (F := Ideal) .f32 0x3F800000#32)⟩] Gen.concatenates_S5000x10_S5000x1_S5000x11_d1) Gen.bitsLt_bf16_f32

/-- The update is the block found plus the product of the two factors started from zero. -/
theorem pay2_eq (ids : Vec Ideal S5000x1 .i32) (y : Vec Ideal S5000x10 .f32) (acc : Vec Ideal S128x11 .f32) :
    k10_pay2 (F := Ideal) ids y acc = addf (shapeCast S128x11 acc Gen.shapeCasts_S128x11_S128x11) (matmul D10 none (onehot ids) (yaug y) (constant S128x11 .f32 0x00000000#32)) := rfl

/-- The left factor at (r, g): 1 when row `r`'s id word is the 32-bit word of `g`, else 0. The spread column reads row
    `r`'s id; the column counter reads `g` as a word; equal words compare to the bit 1, which widens to the word 1 and
    reads as the number 1; unequal words compare to the bit 0, which reads as 0. -/
theorem onehot_apply (ids : Vec Ideal S5000x1 .i32) (r : Fin 5000) (g : Fin 128) :
    onehot ids (ix2 r g) = if ids (ix2 r 0) = BitVec.ofNat 32 g.val then 1 else 0 := by
  show FloatOps.sitofp (F := Ideal) .f32 ((IntOp.cmpi .eq (broadcastTo S5000x128 (shapeCast S5000x1 ids Gen.shapeCasts_S5000x1_S5000x1) Gen.broadcasts_S5000x1_S5000x128 (ix2 r g)) (iota .tc S5000x128 32 [1] Gen.iota_S5000x128_d1_w32 (ix2 r g))).setWidth 32) = _
  have e1 : broadcastTo S5000x128 (shapeCast S5000x1 ids Gen.shapeCasts_S5000x1_S5000x1) Gen.broadcasts_S5000x1_S5000x128 (ix2 r g) = ids (ix2 r 0) := by
    refine (broadcastTo_apply _ Gen.broadcasts_S5000x1_S5000x128 (ix2 r g) (ix2 r 0) (fun a => ?_)).trans (congrFun (shapeCast_self ids _) _)
    match a with
    | ⟨0, _⟩ => show r.val = if (5000 : Nat) = 1 then 0 else r.val; rw [if_neg (by decide)]
    | ⟨1, _⟩ => show 0 = if (1 : Nat) = 1 then 0 else g.val; rw [if_pos rfl]
  have e2 : iota .tc S5000x128 32 [1] Gen.iota_S5000x128_d1_w32 (ix2 r g) = BitVec.ofNat 32 g.val :=
    iota_single_apply .tc S5000x128 32 1 Gen.iota_S5000x128_d1_w32 (ix2 r g)
  rw [e1, e2]
  by_cases h : ids (ix2 r 0) = BitVec.ofNat 32 g.val
  · rw [if_pos h, h]
    have hb : IntOp.cmpi .eq (BitVec.ofNat 32 g.val) (BitVec.ofNat 32 g.val) = 1#1 := by simp [IntOp.cmpi]
    rw [hb]
    show (((BitVec.toInt (1#32) : ℤ) : ℝ) : EReal) = 1
    rw [show BitVec.toInt (1#32) = 1 from by decide]
    norm_num
  · rw [if_neg h]
    have hb : IntOp.cmpi .eq (ids (ix2 r 0)) (BitVec.ofNat 32 g.val) = 0#1 := by
      unfold IntOp.cmpi
      rw [show (ids (ix2 r 0) == BitVec.ofNat 32 g.val) = false from beq_false_of_ne h]
      rfl
    rw [hb]
    show (((BitVec.toInt (0#32) : ℤ) : ℝ) : EReal) = 0
    rw [show BitVec.toInt (0#32) = 0 from by decide]
    norm_num

/-- The right factor at (r, j): row `r`'s logit in column `j` for the first ten columns, the unit in the eleventh. A
    column below ten falls in the first piece of the concatenation, at the same coordinates; column ten falls in the
    second piece, at its only column. -/
theorem yaug_apply (y : Vec Ideal S5000x10 .f32) (r : Fin 5000) (j : Fin 11) :
    yaug y (ix2 r j) = if h : j.val < 10 then y (ix2 r ⟨j.val, h⟩) else Cert.KernelIdeal.Stage.one := by
  show concatenate S5000x11 1 [⟨S5000x10, shapeCast S5000x10 y Gen.shapeCasts_S5000x10_S5000x10⟩,
    ⟨S5000x1, broadcast S5000x1 (Scalar.ofBits (F := Ideal) .f32 0x3F800000#32)⟩] Gen.concatenates_S5000x10_S5000x1_S5000x11_d1 (ix2 r j) = _
  by_cases h : j.val < 10
  · rw [dif_pos h]
    refine (concatenate_pair_apply_left (1 : Fin S5000x11.rank) _ _ Gen.concatenates_S5000x10_S5000x1_S5000x11_d1 (ix2 r j) rfl (ix2 r ⟨j.val, h⟩) (fun b => ?_)).trans
      (congrFun (shapeCast_self y _) _)
    match b with
    | ⟨0, _⟩ => rfl
    | ⟨1, _⟩ => rfl
  · rw [dif_neg h]
    refine (concatenate_pair_apply_right (1 : Fin S5000x11.rank) _ _ Gen.concatenates_S5000x10_S5000x1_S5000x11_d1 (ix2 r j) rfl rfl (ix2 r 0) (fun b hb => ?_) ?_).trans ?_
    · match b with
      | ⟨0, _⟩ => rfl
      | ⟨1, _⟩ => exact absurd rfl hb
    · show 0 + 10 = j.val
      have := j.isLt; omega
    · rfl

/-- The update adds, at segment `g` and column `j`, the rows of this block that carry `g`'s id word. -/
theorem pay2_apply (ids : Vec Ideal S5000x1 .i32) (y : Vec Ideal S5000x10 .f32) (acc : Vec Ideal S128x11 .f32)
    (g : Fin 128) (j : Fin 11) :
    k10_pay2 (F := Ideal) ids y acc (ix2 g j)
      = acc (ix2 g j) + ∑ r : Fin 5000,
          if ids (ix2 r 0) = BitVec.ofNat 32 g.val then (if h : j.val < 10 then y (ix2 r ⟨j.val, h⟩) else Stage.one) else 0 := by
  rw [pay2_eq]
  show (shapeCast S128x11 acc Gen.shapeCasts_S128x11_S128x11 (ix2 g j)) + FloatOps.matmul D10 none (onehot ids) (yaug y) (constant S128x11 .f32 0x00000000#32) (ix2 g j) = _
  rw [shapeCast_self, Ideal.matmul_constant_zero_apply, ← Equiv.sum_comp (contrEquiv1 D10 5000 rfl rfl).symm]
  congr 1
  refine Finset.sum_congr rfl fun k _ => ?_
  have hk := contrEquiv1_symm_val D10 5000 rfl rfl k
  have el : D10.lhsIdx (ix2 g j) ((contrEquiv1 D10 5000 rfl rfl).symm k) = ix2 k g := funext fun a => Fin.ext (by
    match a with
    | ⟨0, _⟩ => exact (lhs10_0 _ _).trans hk
    | ⟨1, _⟩ => exact lhs10_1 _ _)
  have er : D10.rhsIdx (ix2 g j) ((contrEquiv1 D10 5000 rfl rfl).symm k) = ix2 k j := funext fun a => Fin.ext (by
    match a with
    | ⟨0, _⟩ => exact (rhs10_0 _ _).trans hk
    | ⟨1, _⟩ => exact rhs10_1 _ _)
  rw [el, er, onehot_apply, yaug_apply]
  by_cases h : ids (ix2 k 0) = BitVec.ofNat 32 g.val
  · rw [if_pos h, if_pos h, one_mul]
  · rw [if_neg h, if_neg h, zero_mul]

end Cert.KernelIdeal.Reg

end
-- ==== Proof.RegPool.lean ====
/- The pooling region: over its ten points the one output block accumulates, per segment, the sums of the logits' rows and the row count. -/
import proofs.«427692_j27324581937611_1_alg».proof.Proof.Gen.KernelIdeal.Frame
import proofs.«427692_j27324581937611_1_alg».proof.Proof.KStages
import proofs.«427692_j27324581937611_1_alg».proof.Proof.PoolPoint
import Idealize.ShloMosaic.Lib.Pipeline.Value
import Idealize.ShloMosaic.PureOps.Ideal.Laws

set_option maxRecDepth 16384

noncomputable section

namespace Cert.KernelIdeal.Reg

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

section Pieces
variable {F : FTy → Type} [FloatOps F]

/-- The zero offsets, as a constant function. -/
theorem hz10 : (![0, 0] : Fin 2 → Nat) = fun _ => 0 := funext fun a => by fin_cases a <;> rfl

/-- A point after the first: the body's one store covers the block, and its payload is the update of what the
    block held, computed from the two input blocks. -/
theorem piece10_B (c : Dev nD) (i : grid10.Coords) (a1 : Memref sig .tc .vmem S5000x10 .f32) (h1 : a1.IsWhole)
    (a2 : Memref sig .tc .vmem S5000x1 .i32) (h2 : a2.IsWhole) (a3 : Memref sig .tc .vmem S128x11 .f32) (h3 : a3.IsWhole)
    (hc : ¬cond10_0 i) (x0 : Vec F S5000x10 .f32) (x1 : Vec F S5000x1 .i32) (xo : Vec F S128x11 .f32) :
    out10_B_2 c i a1 h1 a2 h2 a3 h3 hc x0 x1 xo = k10_pay2 x1 x0 xo := by
  unfold out10_B_2
  rw [View.read_writes_eq_canon _ _ _ (cover10_B_2 c i a1 h1 a2 h2 a3 h3 hc x0 x1 xo)]
  unfold kernelRun10_B
  dsimp only
  sl_unfold_words
  rw [View.canon_unit_zero hz10]
  simp only [View.readAt_eq_ld, h1.read_unread, h2.read_unread, h3.read_unread, View.ld_unit_zero (S := S5000x1) hz10,
    View.ld_unit_zero (S := S5000x10) hz10, View.ld_unit_zero (S := S128x11) hz10]

/-- The first point: the block is first overwritten with the reset payload, read back, and the update of that is
    stored over it; the later store covers the block. -/
theorem piece10_A (c : Dev nD) (i : grid10.Coords) (a1 : Memref sig .tc .vmem S5000x10 .f32) (h1 : a1.IsWhole)
    (a2 : Memref sig .tc .vmem S5000x1 .i32) (h2 : a2.IsWhole) (a3 : Memref sig .tc .vmem S128x11 .f32) (h3 : a3.IsWhole)
    (hc : cond10_0 i) (x0 : Vec F S5000x10 .f32) (x1 : Vec F S5000x1 .i32) :
    out10_A_2 c i a1 h1 a2 h2 a3 h3 hc x0 x1 = k10_pay2 x1 x0 (k10_pay1 (F := F)) := by
  unfold out10_A_2
  rw [View.read_writes_eq_canon _ _ _ (cover10_A_2 c i a1 h1 a2 h2 a3 h3 hc x0 x1)]
  unfold kernelRun10_A
  dsimp only
  sl_unfold_words
  rw [View.canon_cons_unit_zero (S := S128x11) hz10, View.readCov_unit_zero (S := S128x11) _ hz10]
  simp only [View.readAt_eq_ld, h1.read_unread, h2.read_unread, View.ld_unit_zero (S := S5000x1) hz10,
    View.ld_unit_zero (S := S5000x10) hz10]

end Pieces

/-- The logits array and the segment-id column, and the blocks of them the region's windows hold at a point. -/
abbrev yarr10 (c : Dev nD) : Vec Ideal S50000x10 .f32 := V c main_v115
abbrev idarr10 (c : Dev nD) : Vec Ideal S50000x1 .i32 := V c main_v4
abbrev yblk10 (c : Dev nD) (t : Fin cfg10.N) : Vec Ideal S5000x10 .f32 := iblk10 V c 0 t
abbrev idblk10 (c : Dev nD) (t : Fin cfg10.N) : Vec Ideal S5000x1 .i32 := iblk10 V c 1 t

/-- Row `r` of block `t` is a row of the array. -/
theorem row10_lt (t : Fin cfg10.N) (r : Fin 5000) : 5000 * t.val + r.val < 50000 := by
  have h1 : t.val < 10 := lt_of_lt_of_eq t.isLt (show cfg10.N = 10 from N_10)
  have h2 := r.isLt
  omega

/-- The two input windows' block index at point `t` is `(t, 0)`. -/
theorem index10_0 : ∀ t : Fin cfg10.N, win10_0.index t 0 = t.val ∧ win10_0.index t 1 = 0 :=
  (by decide +kernel : ∀ t : Fin grid10.N, win10_0.index t 0 = t.val ∧ win10_0.index t 1 = 0)
theorem index10_1 : ∀ t : Fin cfg10.N, win10_1.index t 0 = t.val ∧ win10_1.index t 1 = 0 :=
  (by decide +kernel : ∀ t : Fin grid10.N, win10_1.index t 0 = t.val ∧ win10_1.index t 1 = 0)

/-- Point `t`'s logits block is rows `5000·t … 5000·t + 4999` of the logits array. -/
theorem yblk10_apply (c : Dev nD) (t : Fin cfg10.N) (r : Fin 5000) (k : Fin 10) :
    yblk10 V c t (ix2 r k) = yarr10 V c (ix2 ⟨5000 * t.val + r.val, row10_lt t r⟩ k) := by
  have hi := index10_0 t
  show iblk10 V c 0 t (ix2 r k) = _
  unfold iblk10
  rw [View.read_apply]
  show V c main_v115 _ = V c main_v115 _
  congr 1
  funext a
  apply Fin.ext
  match a with
  | ⟨0, _⟩ => show win10_0.index t 0 * 5000 + 1 * r.val = 5000 * t.val + r.val; rw [hi.1]; omega
  | ⟨1, _⟩ => show win10_0.index t 1 * 10 + 1 * k.val = k.val; rw [hi.2]; omega

/-- Point `t`'s id block is the same rows of the id column. -/
theorem idblk10_apply (c : Dev nD) (t : Fin cfg10.N) (r : Fin 5000) :
    idblk10 V c t (ix2 r 0) = idarr10 V c (ix2 ⟨5000 * t.val + r.val, row10_lt t r⟩ 0) := by
  have hi := index10_1 t
  show iblk10 V c 1 t (ix2 r 0) = _
  unfold iblk10
  rw [View.read_apply]
  show V c main_v4 _ = V c main_v4 _
  congr 1
  funext a
  apply Fin.ext
  match a with
  | ⟨0, _⟩ => show win10_1.index t 0 * 5000 + 1 * r.val = 5000 * t.val + r.val; rw [hi.1]; omega
  | ⟨1, _⟩ => show win10_1.index t 1 * 1 + 1 * 0 = 0; rw [hi.2]

/-- Row `m`'s contribution to the entry of segment `g` and column `j`: nothing unless the row carries the segment's
    id; then its logit in that column, or one in the last column. -/
def term10 (c : Dev nD) (g : Fin 128) (j : Fin 11) (m : Fin 50000) : EReal :=
  if idarr10 V c (ix2 m 0) = BitVec.ofNat 32 g.val then
    (if h : j.val < 10 then yarr10 V c (ix2 m ⟨j.val, h⟩) else Cert.KernelIdeal.Stage.one) else 0

/-- The contributions of the 5000 rows of block `t`, summed (nothing past the tenth block). -/
def blockSum10 (c : Dev nD) (g : Fin 128) (j : Fin 11) (t : ℕ) : EReal :=
  if h : t < 10 then ∑ r : Fin 5000, term10 V c g j ⟨5000 * t + r.val, by have := r.isLt; omega⟩ else 0

/-- What one point adds to an entry, read off the point's two blocks, is the block sum of the arrays' rows. -/
theorem point10_sum (c : Dev nD) (t : Fin cfg10.N) (g : Fin 128) (j : Fin 11) :
    (∑ r : Fin 5000, if idblk10 V c t (ix2 r 0) = BitVec.ofNat 32 g.val then
        (if h : j.val < 10 then yblk10 V c t (ix2 r ⟨j.val, h⟩) else Cert.KernelIdeal.Stage.one) else 0)
      = blockSum10 V c g j t.val := by
  have h1 : t.val < 10 := lt_of_lt_of_eq t.isLt (show cfg10.N = 10 from N_10)
  unfold blockSum10
  rw [dif_pos h1]
  refine Finset.sum_congr rfl fun r _ => ?_
  unfold term10
  rw [idblk10_apply]
  by_cases hj : j.val < 10
  · rw [dif_pos hj, dif_pos hj, yblk10_apply]
  · rw [dif_neg hj, dif_neg hj]

/-- After point `n` the output block holds, at each entry, the block sums of the points so far: at the first point
    the block is zeroed and the first block sum added, at every later point the next block sum is added to what the
    point before left. -/
theorem outsAt10_apply (c : Dev nD) : ∀ (n : ℕ) (hn : n < cfg10.N) (g : Fin 128) (j : Fin 11),
    outsAt10 V c n hn (ix2 g j) = ∑ t ∈ Finset.range (n + 1), blockSum10 V c g j t
  | 0, hn, g, j => by
    refine (congrFun ((outsAt10_A V c ⟨0, hn⟩ rfl).trans (piece10_A (F := Ideal) c (grid10.coords ⟨0, hn⟩) (ms10_0 ⟨0, hn⟩) (hs10_0 ⟨0, hn⟩)
      (ms10_1 ⟨0, hn⟩) (hs10_1 ⟨0, hn⟩) (ms10_2 ⟨0, hn⟩) (hs10_2 ⟨0, hn⟩) ((hcond10_0 ⟨0, hn⟩).mpr rfl)
      (yblk10 V c ⟨0, hn⟩) (idblk10 V c ⟨0, hn⟩))) (ix2 g j)).trans ?_
    rw [pay2_apply, pay1_apply, zero_add, Finset.sum_range_one]
    exact point10_sum V c ⟨0, hn⟩ g j
  | n + 1, hn, g, j => by
    have hN : n + 1 < 10 := lt_of_lt_of_eq hn (show cfg10.N = 10 from N_10)
    have hB : ¬(⟨n + 1, hn⟩ : Fin cfg10.N).val % 10 = 0 := by dsimp only; omega
    refine (congrFun ((outsAt10_B V c ⟨n + 1, hn⟩ hB).trans (piece10_B (F := Ideal) c (grid10.coords ⟨n + 1, hn⟩) (ms10_0 ⟨n + 1, hn⟩) (hs10_0 ⟨n + 1, hn⟩)
      (ms10_1 ⟨n + 1, hn⟩) (hs10_1 ⟨n + 1, hn⟩) (ms10_2 ⟨n + 1, hn⟩) (hs10_2 ⟨n + 1, hn⟩) (fun h => hB ((hcond10_0 ⟨n + 1, hn⟩).mp h))
      (yblk10 V c ⟨n + 1, hn⟩) (idblk10 V c ⟨n + 1, hn⟩) (outsAt10 V c n (Nat.lt_of_succ_lt hn)))) (ix2 g j)).trans ?_
    rw [pay2_apply, outsAt10_apply c n (Nat.lt_of_succ_lt hn) g j, Finset.sum_range_succ _ (n + 1)]
    exact congrArg (_ + ·) (point10_sum V c ⟨n + 1, hn⟩ g j)

/-- The ten block sums together are the sum over all 50000 rows: a row number is 5000·(its block) + (its place
    in the block). -/
theorem total10 (c : Dev nD) (g : Fin 128) (j : Fin 11) :
    ∑ t ∈ Finset.range 10, blockSum10 V c g j t = ∑ m : Fin 50000, term10 V c g j m := by
  have e : ∑ m : Fin 50000, term10 V c g j m = ∑ p : Fin 10 × Fin 5000, term10 V c g j (finProdFinEquiv p) :=
    (Equiv.sum_comp (finProdFinEquiv (m := 10) (n := 5000)) (fun m : Fin 50000 => term10 V c g j m)).symm
  rw [e, Fintype.sum_prod_type, Finset.sum_range]
  refine Finset.sum_congr rfl fun t _ => ?_
  unfold blockSum10
  rw [dif_pos t.isLt]
  refine Finset.sum_congr rfl fun r _ => ?_
  refine congrArg (term10 V c g j) (Fin.ext ?_)
  show 5000 * t.val + r.val = r.val + 5000 * t.val
  omega

/-- The pooled array at an entry is that sum over all rows. -/
theorem pooled10_apply (c : Dev nD) (g : Fin 128) (j : Fin 11) :
    Cert.Spec.pooled 128 (yarr10 V c) (fun n => idarr10 V c (ix2 n 0)) Cert.KernelIdeal.Stage.one (ix2 g j)
      = ∑ m : Fin 50000, term10 V c g j m := by
  unfold Cert.Spec.pooled
  show (if h : j.val < 10 then Cert.Spec.segSum 128 (yarr10 V c) (fun n => idarr10 V c (ix2 n 0)) (ix2 g ⟨j.val, h⟩)
    else Cert.Spec.segCnt (fun n => idarr10 V c (ix2 n 0)) Cert.KernelIdeal.Stage.one g.val) = _
  by_cases hj : j.val < 10
  · rw [dif_pos hj]
    unfold Cert.Spec.segSum
    refine Finset.sum_congr rfl fun m _ => ?_
    unfold term10
    by_cases hh : idarr10 V c (ix2 m 0) = BitVec.ofNat 32 g.val
    · rw [if_pos (show Cert.Spec.hit (fun n => idarr10 V c (ix2 n 0)) m g.val from hh), if_pos hh, dif_pos hj]
    · rw [if_neg (show ¬Cert.Spec.hit (fun n => idarr10 V c (ix2 n 0)) m g.val from hh), if_neg hh]
  · rw [dif_neg hj]
    unfold Cert.Spec.segCnt
    refine Finset.sum_congr rfl fun m _ => ?_
    unfold term10
    by_cases hh : idarr10 V c (ix2 m 0) = BitVec.ofNat 32 g.val
    · rw [if_pos (show Cert.Spec.hit (fun n => idarr10 V c (ix2 n 0)) m g.val from hh), if_pos hh, dif_neg hj]
    · rw [if_neg (show ¬Cert.Spec.hit (fun n => idarr10 V c (ix2 n 0)) m g.val from hh), if_neg hh]

/-- So after the last point the block is the pooled array. -/
theorem outsAt10_last (c : Dev nD) (n : ℕ) (hn : n < cfg10.N) (h9 : n = 9) :
    outsAt10 V c n hn = Cert.Spec.pooled 128 (yarr10 V c) (fun n => idarr10 V c (ix2 n 0)) Cert.KernelIdeal.Stage.one := by
  subst h9
  funext i
  obtain ⟨g, j, rfl⟩ : ∃ (g : Fin 128) (j : Fin 11), i = ix2 g j := ⟨i 0, i 1, eq_ix2 i⟩
  rw [outsAt10_apply V c 9 hn g j, total10, pooled10_apply]

/-- Region 10's output array after its ten points: per segment the column sums of the rows carrying its id, and in the last
    column their number. -/
theorem arr10 (c : Dev nD) :
    (dat10 (F := Ideal) V c).arrAt 2 cfg10.N
      = Cert.Spec.pooled 128 (V c main_v115) (fun n => V c main_v4 (ix2 n 0)) Cert.KernelIdeal.Stage.one := by
  refine (dat10 (F := Ideal) V c).arrAt_eq_of_cover 2 _ (fun t hf => ?_) (fun i => ?_)
  · have hN : cfg10.N = 10 := N_10
    have h9 : t.val = 9 := by have := (flush10_2 t).mp hf; have := t.isLt; omega
    obtain rfl : t = t10_9 := Fin.ext h9
    show (cfg10.win 2).cut (grid10.coords t10_9) ((dat10 V c).after 2 t10_9) = _
    rw [after10_2, outsAt10_last V c t10_9.val t10_9.isLt rfl]
    have hz' : (fun a => win10_2.index t10_9 a * main_v116.ty.shape.size a) = fun _ => 0 := funext fun a => by fin_cases a <;> decide
    exact (Memref.read_access_unit_zero (Elt Ideal) main_v116 hz' (fun a => by rw [congrFun hz' a]; simp) _).symm
  · refine ⟨t10_9, (flush10_2 t10_9).mpr rfl, ?_⟩
    show i ∈ ((View.whole main_v116).slice (win10_2.rect t10_9)).set
    rw [View.set_slice_whole, Rect.mem_set_unit]
    intro a
    have h0 : (i 0 : Nat) < 128 := (i 0).isLt
    have h1 : (i 1 : Nat) < 11 := (i 1).isLt
    match a with
    | ⟨0, _⟩ =>
      show win10_2.index t10_9 0 * win10_2.size 0 ≤ (i 0 : Nat) ∧ (i 0 : Nat) < win10_2.index t10_9 0 * win10_2.size 0 + win10_2.xsize (grid10.coords t10_9) 0
      rw [show win10_2.index t10_9 0 * win10_2.size 0 = 0 from by decide +kernel, show win10_2.xsize (grid10.coords t10_9) 0 = 128 from by decide +kernel]; omega
    | ⟨1, _⟩ =>
      show win10_2.index t10_9 1 * win10_2.size 1 ≤ (i 1 : Nat) ∧ (i 1 : Nat) < win10_2.index t10_9 1 * win10_2.size 1 + win10_2.xsize (grid10.coords t10_9) 1
      rw [show win10_2.index t10_9 1 * win10_2.size 1 = 0 from by decide +kernel, show win10_2.xsize (grid10.coords t10_9) 1 = 11 from by decide +kernel]; omega

end Cert.KernelIdeal.Reg

end
-- ==== Proof.KTail.lean ====
/- From the last hop's output to the program's result: the classifier's dense layer, the pooling region, and the closing host stretch that divides sums by counts. -/
import proofs.«427692_j27324581937611_1_alg».proof.Proof.Gen.KernelIdeal.Frame
import proofs.«427692_j27324581937611_1_alg».proof.Proof.KStages
import proofs.«427692_j27324581937611_1_alg».proof.Proof.Keep
import proofs.«427692_j27324581937611_1_alg».proof.Proof.KVals
import proofs.«427692_j27324581937611_1_alg».proof.Proof.RegLinear
import proofs.«427692_j27324581937611_1_alg».proof.Proof.RegPool
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-! ## Entry of the classifier's region: its three input arrays -/

/-- The classifier's bias, reshaped to a row by the one operation before the region. -/
theorem tail_bias (c : Dev nD) :
    W19 m ρ c (Proc.devRef .tc main_v114) = Stage.crow (m ((c : Thread nD τ).loc main_arg8)) := by
  show StableHlo.after hostOps9 _ (Proc.devRef .tc main_v114) = _
  simp only [hostOps9, List.flatten_cons, List.flatten_nil, List.append_nil, List.cons_append, List.nil_append]
  after_results_simp
  rw [Keep.keep_arg8_W18 m ρ c]
  rfl

/-- The reshape writes only the bias row, so the last hop's output is still what it was. -/
theorem tail_feat (c : Dev nD) (H : FVec Ideal S50000x128 .f32) (hH : W18 m ρ c (Proc.devRef .tc main_v113) = H) :
    W19 m ρ c (Proc.devRef .tc main_v113) = H :=
  (Keep.stepH9 m ρ c main_v113 (by decide)).trans hH

/-- The classifier's weights are an argument nothing has written. -/
theorem tail_weights (c : Dev nD) :
    W19 m ρ c (Proc.devRef .tc main_arg7) = m ((c : Thread nD τ).loc main_arg7) :=
  (Keep.keep_arg7_W19 m ρ c).trans rfl

/-! ## The classifier's region: the logits -/

/-- At the region's exit its output array is the dense layer of the three arrays above. -/
theorem tail_logits (c : Dev nD) (H : FVec Ideal S50000x128 .f32) (hH : W18 m ρ c (Proc.devRef .tc main_v113) = H) :
    W20 m ρ c (Proc.devRef .tc main_v115)
      = Stage.logits H (m ((c : Thread nD τ).loc main_arg7)) (m ((c : Thread nD τ).loc main_arg8)) := by
  have h := (W20_arr m ρ c 3).trans (Reg.arr9 (V19 m ρ) c)
  dsimp only [V19] at h
  rw [tail_feat m ρ c H hH, tail_weights m ρ c, tail_bias m ρ c] at h
  exact h

/-- The segment ids, made a column at the very start and never written again. -/
theorem tail_ids (c : Dev nD) :
    W20 m ρ c (Proc.devRef .tc main_v4) = Stage.idcol (m ((c : Thread nD τ).loc main_arg2)) :=
  (Keep.keep_v4_W20 m ρ c).trans (Vals.W1_v4 m ρ c)

/-! ## The pooling region: per segment, column sums and the row count -/

theorem tail_pooled (c : Dev nD) (H : FVec Ideal S50000x128 .f32) (hH : W18 m ρ c (Proc.devRef .tc main_v113) = H) :
    W21 m ρ c (Proc.devRef .tc main_v116)
      = Cert.Spec.pooled 128 (Stage.logits H (m ((c : Thread nD τ).loc main_arg7)) (m ((c : Thread nD τ).loc main_arg8)))
          (fun n => Stage.idcol (m ((c : Thread nD τ).loc main_arg2)) (ix2 n 0)) Stage.one := by
  have h := (W21_arr m ρ c 2).trans (Reg.arr10 (V20 m ρ) c)
  dsimp only [V20] at h
  rw [tail_logits m ρ c H hH, tail_ids m ρ c] at h
  exact h

/-- If the last hop's output buffer holds `H`, the result buffer ends at the pooled logits of `H`, sums over counts. -/
theorem tail (c : Dev nD) (H : FVec Ideal S50000x128 .f32) (hH : W18 m ρ c (Proc.devRef .tc main_v113) = H) :
    W22 m ρ c (Proc.devRef .tc main_v122)
      = Stage.fin (Cert.Spec.pooled 128 (Stage.logits H (m ((c : Thread nD τ).loc main_arg7)) (m ((c : Thread nD τ).loc main_arg8))) (fun n => Stage.idcol (m ((c : Thread nD τ).loc main_arg2)) (ix2 n 0)) Stage.one) := by
  show StableHlo.after hostOps11 _ (Proc.devRef .tc main_v122) = _
  simp only [hostOps11, List.flatten_cons, List.flatten_nil, List.append_nil, List.cons_append, List.nil_append]
  after_results_simp
  rw [tail_pooled m ρ c H hH]
  rfl

end Cert.KernelIdeal.Chain

end
-- ==== Proof.KChain.lean ====
/- The kernel program's result buffer, at the last boundary of its run, as one function of @main's arguments: the encoder, the four hops and the tail chained. -/
import proofs.«427692_j27324581937611_1_alg».proof.Proof.Gen.KernelIdeal.Frame
import proofs.«427692_j27324581937611_1_alg».proof.Proof.KStages
import proofs.«427692_j27324581937611_1_alg».proof.Proof.KEnc
import proofs.«427692_j27324581937611_1_alg».proof.Proof.KHopA
import proofs.«427692_j27324581937611_1_alg».proof.Proof.KHopB
import proofs.«427692_j27324581937611_1_alg».proof.Proof.KHopC
import proofs.«427692_j27324581937611_1_alg».proof.Proof.KHopD
import proofs.«427692_j27324581937611_1_alg».proof.Proof.KTail
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo

variable (m : (ℓ : Loc nD τ sig) → Buf (Elt Ideal) ℓ) (ρ : Dev nD → PrngReg)

/-- The result buffer at the last boundary is the stage functions' composition at the launch contents of the arguments. -/
theorem kernel_value (c : Dev nD) :
    W22 m ρ c (Proc.devRef .tc main_v122)
      = Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Stage.result Stage.feat
  exact tail m ρ c _ (hopD m ρ c _ (hopC m ρ c _ (hopB m ρ c _ (hopA m ρ c _ (enc m ρ c)))))

end Cert.KernelIdeal.Chain

end
-- ==== Proof.JoinDenseLemmas.lean ====
/- What the join of the two programs' dense parts is made of, over any operands: broadcasts and splat constants read at an index, the two matrix products as sums over the contracted coordinate, the dense layers and the hops' combinations element by element, and the stages both programs spell with the same operations of the same operands. -/
import proofs.«427692_j27324581937611_1_alg».proof.Proof.Gen.ReferenceIdeal.Read
import proofs.«427692_j27324581937611_1_alg».proof.Proof.KStages
import Idealize.ShloMosaic.Lib.Pipeline.Value
import Idealize.ShloMosaic.Lib.ValueLayout
import Idealize.ShloMosaic.PureOps.Ideal.Laws

set_option maxRecDepth 16384

noncomputable section

namespace Cert.Join

open Idealize.ShloMosaic Idealize.ShloMosaic.ValueIdx
open Cert.ReferenceIdeal.Facts₀ Cert.ReferenceIdeal.Facts

/-! ## Bias rows, scale columns and splat constants read at an index -/

/-- A vector of length H broadcast to one row and then to N rows reads, at (r, j), the vector at j. -/
theorem bcast_row_apply {N H : Nat} (b : (⟨1, ![H]⟩ : Shape).Idx → EReal)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (i : (⟨2, ![N, H]⟩ : Shape).Idx) :
    broadcastInDim ⟨2, ![N, H]⟩ ![0, 1] h2 (broadcastInDim ⟨2, ![1, H]⟩ ![1] h1 b) i = b (ix1 (i 1)) := by
  have hi : (i 1).val < H := (i 1).isLt
  refine (broadcastInDim_apply _ h2 _ i (ix2 (0 : Fin 1) (i 1)) (fun a => match a with
    | ⟨0, _⟩ => by show 0 = if (1 : Nat) = 1 then 0 else (i 0).val; rw [if_pos rfl]
    | ⟨1, _⟩ => by
        show (i 1).val = if H = 1 then 0 else (i 1).val
        by_cases hH : H = 1
        · rw [if_pos hH]; omega
        · rw [if_neg hH])).trans ?_
  exact broadcastInDim_apply _ h1 b _ (ix1 (i 1)) (fun a => match a with
    | ⟨0, _⟩ => by
        show (i 1).val = if H = 1 then 0 else (i 1).val
        by_cases hH : H = 1
        · rw [if_pos hH]; omega
        · rw [if_neg hH])

/-- A column of N entries broadcast along H columns reads, at (r, j), the column at r. -/
theorem bcast_col_apply {N H : Nat} (s : (⟨2, ![N, 1]⟩ : Shape).Idx → EReal)
    (h : (⟨2, ![N, 1]⟩ : Shape).BroadcastsInDim ⟨2, ![N, H]⟩ (![0, 1] : Fin 2 → Fin 2))
    (i : (⟨2, ![N, H]⟩ : Shape).Idx) :
    broadcastInDim ⟨2, ![N, H]⟩ ![0, 1] h s i = s (ix2 (i 0) (0 : Fin 1)) := by
  have hi : (i 0).val < N := (i 0).isLt
  exact broadcastInDim_apply _ h s i (ix2 (i 0) (0 : Fin 1)) (fun a => match a with
    | ⟨0, _⟩ => by
        show (i 0).val = if N = 1 then 0 else (i 0).val
        by_cases hN : N = 1
        · rw [if_pos hN]; omega
        · rw [if_neg hN]
    | ⟨1, _⟩ => by show 0 = if (1 : Nat) = 1 then 0 else (i 1).val; rw [if_pos rfl])

/-- A scalar broadcast to any shape reads the scalar everywhere. -/
theorem bcast_scalar_apply {t : Shape} (c : (⟨0, ![]⟩ : Shape).Idx → EReal)
    (h : (⟨0, ![]⟩ : Shape).BroadcastsInDim t (![] : Fin 0 → Fin t.rank)) (i : t.Idx) :
    broadcastInDim t ![] h c i = c ix0 :=
  broadcastInDim_apply _ h c i ix0 (fun a => a.elim0)

/-! ## The two matrix products read at an index -/

/-- Left operand, row axis: the result's row. -/
theorem dotH_lhs0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- Left operand, column axis: the contracted coordinate. -/
theorem dotH_lhs1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- Right operand, row axis: the contracted coordinate. -/
theorem dotH_rhs0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- Right operand, column axis: the result's column. -/
theorem dotH_rhs1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
/-- The matrix product at (r, j): the sum over k of x[r, k] · w[k, j]. -/
theorem dotH_apply (x : FVec Ideal ⟨2, ![50000, 128]⟩ .f32) (w : FVec Ideal ⟨2, ![128, 128]⟩ .f32)
    (i : (⟨2, ![50000, 128]⟩ : Shape).Idx) :
    Host.dotGeneral Cert.ReferenceIdeal.dot_S50000x128_S128x128_S50000x128_1_0_0_1_n_n none x w i = ∑ k : Fin 128, x (ix2 (i 0) k) * w (ix2 k (i 1)) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = ix2 (i 0) k := funext fun a => Fin.ext (by
    match a with
    | ⟨0, _⟩ => exact dotH_lhs0 _ _
    | ⟨1, _⟩ => exact (dotH_lhs1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ix2 k (i 1) := funext fun a => Fin.ext (by
    match a with
    | ⟨0, _⟩ => exact (dotH_rhs0 _ _).trans hk
    | ⟨1, _⟩ => exact dotH_rhs1 _ _)
  exact congrArg₂ (· * ·) (congrArg x el) (congrArg w er)

/-- Left operand, row axis: the result's row. -/
theorem dotC_lhs0 (i : Cert.ReferenceIdeal.S50000x10.Idx) (q : Cert.ReferenceIdeal.dot_S50000x128_S128x10_S50000x10_1_0_0_1_n_n.contr.Idx) :
    (Cert.ReferenceIdeal.dot_S50000x128_S128x10_S50000x10_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x10_S50000x10_1_0_0_1_n_n.lhsBatch by decide), dif_pos (show (0 : Fin Cert.ReferenceIdeal.S50000x128.rank) ∈ Cert.ReferenceIdeal.dot_S50000x128_S128x10_S50000x10_1_0_0_1_n_n.lhsNonContracting by decide)]
  rfl
/-- Left operand, column axis: the contracted coordinate. -/
theorem dotC_lhs1 (i : Cert.ReferenceIdeal.S50000x10.Idx) (q : Cert.ReferenceIdeal.dot_S50000x128_S128x10_S50000x10_1_0_0_1_n_n.contr.Idx) :
    (Cert.ReferenceIdeal.dot_S50000x128_S128x10_S50000x10_1_0_0_1_n_n.lhsIdx i q 1).val = (q ⟨0, by decide⟩).val :=
  Cert.ReferenceIdeal.dot_S50000x128_S128x10_S50000x10_1_0_0_1_n_n.lhsIdx_val_of_single rfl i q
/-- Right operand, row axis: the contracted coordinate. -/
theorem dotC_rhs0 (i : Cert.ReferenceIdeal.S50000x10.Idx) (q : Cert.ReferenceIdeal.dot_S50000x128_S128x10_S50000x10_1_0_0_1_n_n.contr.Idx) :
    (Cert.ReferenceIdeal.dot_S50000x128_S128x10_S50000x10_1_0_0_1_n_n.rhsIdx i q 0).val = (q ⟨0, by decide⟩).val :=
  Cert.ReferenceIdeal.dot_S50000x128_S128x10_S50000x10_1_0_0_1_n_n.rhsIdx_val_of_single rfl i q
/-- Right operand, column axis: the result's column. -/
theorem dotC_rhs1 (i : Cert.ReferenceIdeal.S50000x10.Idx) (q : Cert.ReferenceIdeal.dot_S50000x128_S128x10_S50000x10_1_0_0_1_n_n.contr.Idx) :
    (Cert.ReferenceIdeal.dot_S50000x128_S128x10_S50000x10_1_0_0_1_n_n.rhsIdx i q 1).val = (i 1).val := by
  unfold DotDims.rhsIdx
  rw [dif_neg (show ¬(1 : Fin Cert.ReferenceIdeal.S128x10.rank) ∈ Cert.ReferenceIdeal.dot_S50000x128_S128x10_S50000x10_1_0_0_1_n_n.rhsBatch by decide), dif_pos (show (1 : Fin Cert.ReferenceIdeal.S128x10.rank) ∈ Cert.ReferenceIdeal.dot_S50000x128_S128x10_S50000x10_1_0_0_1_n_n.rhsNonContracting by decide)]
  rfl
/-- The matrix product at (r, j): the sum over k of x[r, k] · w[k, j]. -/
theorem dotC_apply (x : FVec Ideal ⟨2, ![50000, 128]⟩ .f32) (w : FVec Ideal ⟨2, ![128, 10]⟩ .f32)
    (i : (⟨2, ![50000, 10]⟩ : Shape).Idx) :
    Host.dotGeneral Cert.ReferenceIdeal.dot_S50000x128_S128x10_S50000x10_1_0_0_1_n_n none x w i = ∑ k : Fin 128, x (ix2 (i 0) k) * w (ix2 k (i 1)) := by
  simp only [Host.dotGeneral]
  rw [Ideal.dotGeneral_apply, ← Equiv.sum_comp (ValueIdx.contrEquiv1 Cert.ReferenceIdeal.dot_S50000x128_S128x10_S50000x10_1_0_0_1_n_n 128 rfl rfl).symm]
  refine Finset.sum_congr rfl fun k _ => ?_
  have hk := ValueIdx.contrEquiv1_symm_val Cert.ReferenceIdeal.dot_S50000x128_S128x10_S50000x10_1_0_0_1_n_n 128 rfl rfl k
  have el : Cert.ReferenceIdeal.dot_S50000x128_S128x10_S50000x10_1_0_0_1_n_n.lhsIdx i ((ValueIdx.contrEquiv1 Cert.ReferenceIdeal.dot_S50000x128_S128x10_S50000x10_1_0_0_1_n_n 128 rfl rfl).symm k) = ix2 (i 0) k := funext fun a => Fin.ext (by
    match a with
    | ⟨0, _⟩ => exact dotC_lhs0 _ _
    | ⟨1, _⟩ => exact (dotC_lhs1 _ _).trans hk)
  have er : Cert.ReferenceIdeal.dot_S50000x128_S128x10_S50000x10_1_0_0_1_n_n.rhsIdx i ((ValueIdx.contrEquiv1 Cert.ReferenceIdeal.dot_S50000x128_S128x10_S50000x10_1_0_0_1_n_n 128 rfl rfl).symm k) = ix2 k (i 1) := funext fun a => Fin.ext (by
    match a with
    | ⟨0, _⟩ => exact (dotC_rhs0 _ _).trans hk
    | ⟨1, _⟩ => exact dotC_rhs1 _ _)
  exact congrArg₂ (· * ·) (congrArg x el) (congrArg w er)

/-! ## The dense layers and the hops' combinations, over any operands -/

/-- The encoder's bias row reads the bias vector. -/
theorem brow_apply (b : FVec Ideal ⟨1, ![128]⟩ .f32) (j : Fin 128) :
    Cert.KernelIdeal.Stage.brow b (ix2 (0 : Fin 1) j) = b (ix1 j) :=
  shapeCast_a_1a_apply b _ 0 j
/-- The classifier's bias row reads the bias vector. -/
theorem crow_apply (b : FVec Ideal ⟨1, ![10]⟩ .f32) (j : Fin 10) :
    Cert.KernelIdeal.Stage.crow b (ix2 (0 : Fin 1) j) = b (ix1 j) :=
  shapeCast_a_1a_apply b _ 0 j
/-- The zero row is zero. -/
theorem zrow_apply (j : Fin 128) : Cert.KernelIdeal.Stage.zrow (ix2 (0 : Fin 1) j) = 0 := by
  unfold Cert.KernelIdeal.Stage.zrow
  refine (shapeCast_a_1a_apply _ _ 0 j).trans ?_
  rw [bcast_scalar_apply, constant_apply, Ideal.ofBits_zero_f32]

/-- The encoder's shape: a product with the [128, 128] weights plus a broadcast bias is the dense layer with that
    bias as its row. -/
theorem dense_bias (x : FVec Ideal ⟨2, ![50000, 128]⟩ .f32) (w : FVec Ideal ⟨2, ![128, 128]⟩ .f32)
    (b : FVec Ideal ⟨1, ![128]⟩ .f32) :
    addf (Host.dotGeneral Cert.ReferenceIdeal.dot_S50000x128_S128x128_S50000x128_1_0_0_1_n_n none x w)
        (broadcastInDim Cert.ReferenceIdeal.S50000x128 ![0, 1] bcast_S1x128_S50000x128_0_1
          (broadcastInDim Cert.ReferenceIdeal.S1x128 ![1] bcast_S128_S1x128_1 b))
      = Cert.Spec.linear x w (Cert.KernelIdeal.Stage.brow b) := by
  funext i
  show Host.dotGeneral _ none x w i + broadcastInDim _ _ _ (broadcastInDim _ _ _ b) i
    = (∑ k : Fin 128, x (ix2 (i 0) k) * w (ix2 k (i 1))) + Cert.KernelIdeal.Stage.brow b (ix2 (0 : Fin 1) (i 1))
  rw [dotH_apply, bcast_row_apply b _ _ i]
  congr 1
  exact (brow_apply b (i 1)).symm

/-- The classifier's shape: the same with the [128, 10] weights. -/
theorem dense_bias_out (x : FVec Ideal ⟨2, ![50000, 128]⟩ .f32) (w : FVec Ideal ⟨2, ![128, 10]⟩ .f32)
    (b : FVec Ideal ⟨1, ![10]⟩ .f32) :
    addf (Host.dotGeneral Cert.ReferenceIdeal.dot_S50000x128_S128x10_S50000x10_1_0_0_1_n_n none x w)
        (broadcastInDim Cert.ReferenceIdeal.S50000x10 ![0, 1] bcast_S1x10_S50000x10_0_1
          (broadcastInDim Cert.ReferenceIdeal.S1x10 ![1] bcast_S10_S1x10_1 b))
      = Cert.Spec.linear x w (Cert.KernelIdeal.Stage.crow b) := by
  funext i
  show Host.dotGeneral _ none x w i + broadcastInDim _ _ _ (broadcastInDim _ _ _ b) i
    = (∑ k : Fin 128, x (ix2 (i 0) k) * w (ix2 k (i 1))) + Cert.KernelIdeal.Stage.crow b (ix2 (0 : Fin 1) (i 1))
  rw [dotC_apply, bcast_row_apply b _ _ i]
  congr 1
  exact (crow_apply b (i 1)).symm

/-- A hop's product has no bias: it is the dense layer whose bias row is zero, since adding zero changes nothing. -/
theorem dense_zero (x : FVec Ideal ⟨2, ![50000, 128]⟩ .f32) (w : FVec Ideal ⟨2, ![128, 128]⟩ .f32) :
    Host.dotGeneral Cert.ReferenceIdeal.dot_S50000x128_S128x128_S50000x128_1_0_0_1_n_n none x w
      = Cert.Spec.linear x w Cert.KernelIdeal.Stage.zrow := by
  funext i
  rw [dotH_apply]
  refine Eq.symm (Eq.trans ?_ (add_zero _))
  show (∑ k : Fin 128, x (ix2 (i 0) k) * w (ix2 k (i 1))) + Cert.KernelIdeal.Stage.zrow (ix2 (0 : Fin 1) (i 1)) = _ + 0
  congr 1
  exact zrow_apply (i 1)

/-- Messages plus the node's own scaled features plus the broadcast bias, element by element. -/
theorem combine_eq (a y : FVec Ideal ⟨2, ![50000, 128]⟩ .f32) (s : FVec Ideal ⟨2, ![50000, 1]⟩ .f32)
    (b : FVec Ideal ⟨1, ![128]⟩ .f32) :
    addf (addf a (mulf y (broadcastInDim Cert.ReferenceIdeal.S50000x128 ![0, 1] bcast_S50000x1_S50000x128_0_1 s)))
        (broadcastInDim Cert.ReferenceIdeal.S50000x128 ![0, 1] bcast_S1x128_S50000x128_0_1
          (broadcastInDim Cert.ReferenceIdeal.S1x128 ![1] bcast_S128_S1x128_1 b))
      = Cert.Spec.combine a y s (Cert.KernelIdeal.Stage.brow b) := by
  funext i
  show (a i + y i * broadcastInDim _ _ _ s i) + broadcastInDim _ _ _ (broadcastInDim _ _ _ b) i
    = (a i + y i * s (ix2 (i 0) 0)) + Cert.KernelIdeal.Stage.brow b (ix2 (0 : Fin 1) (i 1))
  rw [bcast_col_apply s _ i, bcast_row_apply b _ _ i]
  congr 1
  exact (brow_apply b (i 1)).symm

/-- The same under the maximum with the zero splat. -/
theorem combineRelu_eq (a y : FVec Ideal ⟨2, ![50000, 128]⟩ .f32) (s : FVec Ideal ⟨2, ![50000, 1]⟩ .f32)
    (b : FVec Ideal ⟨1, ![128]⟩ .f32) :
    maximumf
        (addf (addf a (mulf y (broadcastInDim Cert.ReferenceIdeal.S50000x128 ![0, 1] bcast_S50000x1_S50000x128_0_1 s)))
          (broadcastInDim Cert.ReferenceIdeal.S50000x128 ![0, 1] bcast_S1x128_S50000x128_0_1
            (broadcastInDim Cert.ReferenceIdeal.S1x128 ![1] bcast_S128_S1x128_1 b)))
        (broadcastInDim Cert.ReferenceIdeal.S50000x128 ![] bcast_S_S50000x128 (constant (F := Ideal) Cert.ReferenceIdeal.S_ .f32 0x00000000#32))
      = Cert.Spec.combineRelu a y s (Cert.KernelIdeal.Stage.brow b) := by
  rw [combine_eq a y s b]
  funext i
  rw [maximumf_apply, bcast_scalar_apply, constant_apply, Ideal.ofBits_zero_f32]
  rfl

/-! ## The stages both programs share: the same operations of the same operands -/

/-- The edge list's first row. -/
theorem src_eq (x1 : (⟨Cert.ReferenceIdeal.S2x800000, .i32⟩ : BufTy).Contents (Elt Ideal)) : Cert.ReferenceIdeal.Read.val_main_v1 (F := Ideal) x1 = Cert.KernelIdeal.Stage.src x1 := rfl
/-- The edge list's second row. -/
theorem dst_eq (x1 : (⟨Cert.ReferenceIdeal.S2x800000, .i32⟩ : BufTy).Contents (Elt Ideal)) : Cert.ReferenceIdeal.Read.val_main_v3 (F := Ideal) x1 = Cert.KernelIdeal.Stage.dst x1 := rfl

/-- The in-degree normalizer per node. -/
theorem dinv_eq (x1 : (⟨Cert.ReferenceIdeal.S2x800000, .i32⟩ : BufTy).Contents (Elt Ideal)) : Cert.ReferenceIdeal.Read.val_main_v15 (F := Ideal) x1 = Cert.KernelIdeal.Stage.dinv x1 := by
  unfold Cert.ReferenceIdeal.Read.val_main_v15 Cert.ReferenceIdeal.Read.val_main_v14 Cert.ReferenceIdeal.Read.val_main_cst_2 Cert.ReferenceIdeal.Read.val_main_v13 Cert.ReferenceIdeal.Read.val_main_v12 Cert.ReferenceIdeal.Read.val_main_cst_1 Cert.ReferenceIdeal.Read.val_main_v11 Cert.ReferenceIdeal.Read.val_main_v10 Cert.ReferenceIdeal.Read.val_main_v9 Cert.ReferenceIdeal.Read.val_main_cst_0 Cert.ReferenceIdeal.Read.val_main_v8 Cert.ReferenceIdeal.Read.val_main_cst
  rw [dst_eq]
  rfl

/-- The wrapped index column of a vector of node ids, as the reference spells it. -/
theorem nidx_var (v : IVec Cert.ReferenceIdeal.S800000 32) :
    broadcastInDim Cert.ReferenceIdeal.S800000x1 ![0] bcast_S800000_S800000x1_0
      (select (cmpi .slt v (broadcastInDim Cert.ReferenceIdeal.S800000 ![] bcast_S_S800000 (constantI Cert.ReferenceIdeal.S_ 32 0#32)))
        (addi v (broadcastInDim Cert.ReferenceIdeal.S800000 ![] bcast_S_S800000 (constantI Cert.ReferenceIdeal.S_ 32 50000#32))) v)
      = Cert.KernelIdeal.Stage.nidx v := rfl

/-- The normalizer's gather indices at the sources. -/
theorem nsrc_eq (x1 : (⟨Cert.ReferenceIdeal.S2x800000, .i32⟩ : BufTy).Contents (Elt Ideal)) : Cert.ReferenceIdeal.Read.val_main_v21 (F := Ideal) x1 = Cert.KernelIdeal.Stage.nidx (Cert.KernelIdeal.Stage.src x1) := by
  unfold Cert.ReferenceIdeal.Read.val_main_v21 Cert.ReferenceIdeal.Read.val_main_v20 Cert.ReferenceIdeal.Read.val_main_v19 Cert.ReferenceIdeal.Read.val_main_v18 Cert.ReferenceIdeal.Read.val_main_c_3 Cert.ReferenceIdeal.Read.val_main_v17 Cert.ReferenceIdeal.Read.val_main_v16 Cert.ReferenceIdeal.Read.val_main_c
  rw [src_eq]
  exact nidx_var _
/-- The normalizer's gather indices at the targets. -/
theorem ndst_eq (x1 : (⟨Cert.ReferenceIdeal.S2x800000, .i32⟩ : BufTy).Contents (Elt Ideal)) : Cert.ReferenceIdeal.Read.val_main_v28 (F := Ideal) x1 = Cert.KernelIdeal.Stage.nidx (Cert.KernelIdeal.Stage.dst x1) := by
  unfold Cert.ReferenceIdeal.Read.val_main_v28 Cert.ReferenceIdeal.Read.val_main_v27 Cert.ReferenceIdeal.Read.val_main_v26 Cert.ReferenceIdeal.Read.val_main_v25 Cert.ReferenceIdeal.Read.val_main_c_5 Cert.ReferenceIdeal.Read.val_main_v24 Cert.ReferenceIdeal.Read.val_main_v23 Cert.ReferenceIdeal.Read.val_main_c_4
  rw [dst_eq]
  exact nidx_var _
/-- The per-edge normalizer column. -/
theorem enorm_eq (x1 : (⟨Cert.ReferenceIdeal.S2x800000, .i32⟩ : BufTy).Contents (Elt Ideal)) : Cert.ReferenceIdeal.Read.val_main_v31 (F := Ideal) x1 = Cert.KernelIdeal.Stage.enorm x1 := by
  unfold Cert.ReferenceIdeal.Read.val_main_v31 Cert.ReferenceIdeal.Read.val_main_v30 Cert.ReferenceIdeal.Read.val_main_v29 Cert.ReferenceIdeal.Read.val_main_v22
  rw [nsrc_eq, ndst_eq, dinv_eq]
  rfl
/-- The per-node normalizer column. -/
theorem snorm_eq (x1 : (⟨Cert.ReferenceIdeal.S2x800000, .i32⟩ : BufTy).Contents (Elt Ideal)) : Cert.ReferenceIdeal.Read.val_main_v33 (F := Ideal) x1 = Cert.KernelIdeal.Stage.snorm x1 := by
  unfold Cert.ReferenceIdeal.Read.val_main_v33 Cert.ReferenceIdeal.Read.val_main_v32
  rw [dinv_eq]
  rfl

/-- Messages along the edges, over any features: gather at the sources, scale per edge, add up at the targets. -/
theorem agg_var (y : FVec Ideal Cert.ReferenceIdeal.S50000x128 .f32) (x1 : (⟨Cert.ReferenceIdeal.S2x800000, .i32⟩ : BufTy).Contents (Elt Ideal)) :
    Host.scatterAdd Cert.ReferenceIdeal.scatter_S50000x128_S800000x1_S800000x128_1_0_0_1
      (broadcastInDim Cert.ReferenceIdeal.S50000x128 ![] bcast_S_S50000x128 (constant (F := Ideal) Cert.ReferenceIdeal.S_ .f32 0x00000000#32))
      (broadcastInDim Cert.ReferenceIdeal.S800000x1 ![0] bcast_S800000_S800000x1_0 (Cert.KernelIdeal.Stage.dst x1))
      (mulf (Host.gather Cert.ReferenceIdeal.gather_S50000x128_S800000x1_S800000x128_1_0_n_n_0_1_1128 y (Cert.KernelIdeal.Stage.nidx (Cert.KernelIdeal.Stage.src x1)))
        (broadcastInDim Cert.ReferenceIdeal.S800000x128 ![0, 1] bcast_S800000x1_S800000x128_0_1 (Cert.KernelIdeal.Stage.enorm x1)))
      = Cert.KernelIdeal.Stage.agg y x1 := rfl

end Cert.Join

end
-- ==== Proof.JoinDenseHop0.lean ====
/- Hop 0 of the reference's dense part is the kernel program's hop 0 of the same input features: its product is the dense layer with the zero bias row, and its gather, scaling, scatter-add, own-feature term, bias and maximum are the hop's aggregation and combination. -/
import proofs.«427692_j27324581937611_1_alg».proof.Proof.JoinDenseLemmas

set_option maxRecDepth 16384

noncomputable section

namespace Cert.Join

open Idealize.ShloMosaic Idealize.ShloMosaic.ValueIdx
open Cert.ReferenceIdeal.Facts₀ Cert.ReferenceIdeal.Facts

/-- Hop 0's weights. -/
theorem wk0_eq (x5 : (⟨Cert.ReferenceIdeal.S4x128x128, .f32⟩ : BufTy).Contents (Elt Ideal)) : Cert.ReferenceIdeal.Read.val_main_v35 (F := Ideal) x5 = Cert.KernelIdeal.Stage.wk0 x5 := rfl
/-- Hop 0's bias row is the row of the reference's bias vector. -/
theorem bk0_eq (x6 : (⟨Cert.ReferenceIdeal.S4x128, .f32⟩ : BufTy).Contents (Elt Ideal)) : Cert.KernelIdeal.Stage.bk0 x6 = Cert.KernelIdeal.Stage.brow (Cert.ReferenceIdeal.Read.val_main_v37 (F := Ideal) x6) := rfl
/-- Hop 0's gather indices: the sources, wrapped. -/
theorem gidx0_eq (x1 : (⟨Cert.ReferenceIdeal.S2x800000, .i32⟩ : BufTy).Contents (Elt Ideal)) : Cert.ReferenceIdeal.Read.val_main_v44 (F := Ideal) x1 = Cert.KernelIdeal.Stage.nidx (Cert.KernelIdeal.Stage.src x1) := by
  unfold Cert.ReferenceIdeal.Read.val_main_v44 Cert.ReferenceIdeal.Read.val_main_v43 Cert.ReferenceIdeal.Read.val_main_v42 Cert.ReferenceIdeal.Read.val_main_v41 Cert.ReferenceIdeal.Read.val_main_c_7 Cert.ReferenceIdeal.Read.val_main_v40 Cert.ReferenceIdeal.Read.val_main_v39 Cert.ReferenceIdeal.Read.val_main_c_6
  rw [src_eq]
  exact nidx_var _
/-- Hop 0's product is the dense layer with the zero row. -/
theorem xw0_eq (x0 : (⟨Cert.ReferenceIdeal.S50000x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) :
    Cert.ReferenceIdeal.Read.val_main_v38 (F := Ideal) x0 x3 x4 x5 = Cert.Spec.linear (Cert.ReferenceIdeal.Read.val_main_v7 (F := Ideal) x0 x3 x4) (Cert.KernelIdeal.Stage.wk0 x5) Cert.KernelIdeal.Stage.zrow := by
  unfold Cert.ReferenceIdeal.Read.val_main_v38
  rw [wk0_eq]
  exact dense_zero _ _
/-- Hop 0: the reference's stages from the product to the hop's output are the kernel program's hop. -/
theorem hop0_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v57 (F := Ideal) x0 x1 x3 x4 x5 x6 = Cert.KernelIdeal.Stage.hop0 (Cert.ReferenceIdeal.Read.val_main_v7 (F := Ideal) x0 x3 x4) x1 x5 x6 := by
  unfold Cert.ReferenceIdeal.Read.val_main_v57 Cert.ReferenceIdeal.Read.val_main_call0_v0 Cert.ReferenceIdeal.Read.val_main_call0_cst Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_cst_8 Cert.ReferenceIdeal.Read.val_main_v47 Cert.ReferenceIdeal.Read.val_main_v46 Cert.ReferenceIdeal.Read.val_main_v45
  rw [xw0_eq, gidx0_eq, enorm_eq, snorm_eq, dst_eq, agg_var]
  unfold Cert.KernelIdeal.Stage.hop0
  rw [bk0_eq]
  exact combineRelu_eq _ _ _ _

end Cert.Join

end
-- ==== Proof.JoinDenseHop1.lean ====
/- Hop 1 of the reference's dense part is the kernel program's hop 1 of the same input features. -/
import proofs.«427692_j27324581937611_1_alg».proof.Proof.JoinDenseLemmas

set_option maxRecDepth 16384

noncomputable section

namespace Cert.Join

open Idealize.ShloMosaic Idealize.ShloMosaic.ValueIdx
open Cert.ReferenceIdeal.Facts₀ Cert.ReferenceIdeal.Facts

/-- Hop 1's weights. -/
theorem wk1_eq (x5 : (⟨Cert.ReferenceIdeal.S4x128x128, .f32⟩ : BufTy).Contents (Elt Ideal)) : Cert.ReferenceIdeal.Read.val_main_v59 (F := Ideal) x5 = Cert.KernelIdeal.Stage.wk1 x5 := rfl
/-- Hop 1's bias row is the row of the reference's bias vector. -/
theorem bk1_eq (x6 : (⟨Cert.ReferenceIdeal.S4x128, .f32⟩ : BufTy).Contents (Elt Ideal)) : Cert.KernelIdeal.Stage.bk1 x6 = Cert.KernelIdeal.Stage.brow (Cert.ReferenceIdeal.Read.val_main_v61 (F := Ideal) x6) := rfl
/-- Hop 1's gather indices: the sources, wrapped. -/
theorem gidx1_eq (x1 : (⟨Cert.ReferenceIdeal.S2x800000, .i32⟩ : BufTy).Contents (Elt Ideal)) : Cert.ReferenceIdeal.Read.val_main_v68 (F := Ideal) x1 = Cert.KernelIdeal.Stage.nidx (Cert.KernelIdeal.Stage.src x1) := by
  unfold Cert.ReferenceIdeal.Read.val_main_v68 Cert.ReferenceIdeal.Read.val_main_v67 Cert.ReferenceIdeal.Read.val_main_v66 Cert.ReferenceIdeal.Read.val_main_v65 Cert.ReferenceIdeal.Read.val_main_c_10 Cert.ReferenceIdeal.Read.val_main_v64 Cert.ReferenceIdeal.Read.val_main_v63 Cert.ReferenceIdeal.Read.val_main_c_9
  rw [src_eq]
  exact nidx_var _
/-- Hop 1's product is the dense layer with the zero row. -/
theorem xw1_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v62 (F := Ideal) x0 x1 x3 x4 x5 x6 = Cert.Spec.linear (Cert.ReferenceIdeal.Read.val_main_v57 (F := Ideal) x0 x1 x3 x4 x5 x6) (Cert.KernelIdeal.Stage.wk1 x5) Cert.KernelIdeal.Stage.zrow := by
  unfold Cert.ReferenceIdeal.Read.val_main_v62
  rw [wk1_eq]
  exact dense_zero _ _
/-- Hop 1: the reference's stages from the product to the hop's output are the kernel program's hop. -/
theorem hop1_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v81 (F := Ideal) x0 x1 x3 x4 x5 x6 = Cert.KernelIdeal.Stage.hop1 (Cert.ReferenceIdeal.Read.val_main_v57 (F := Ideal) x0 x1 x3 x4 x5 x6) x1 x5 x6 := by
  unfold Cert.ReferenceIdeal.Read.val_main_v81 Cert.ReferenceIdeal.Read.val_main_call1_v0 Cert.ReferenceIdeal.Read.val_main_call1_cst Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_cst_11 Cert.ReferenceIdeal.Read.val_main_v71 Cert.ReferenceIdeal.Read.val_main_v70 Cert.ReferenceIdeal.Read.val_main_v69
  rw [xw1_eq, gidx1_eq, enorm_eq, snorm_eq, dst_eq, agg_var]
  unfold Cert.KernelIdeal.Stage.hop1
  rw [bk1_eq]
  exact combineRelu_eq _ _ _ _

end Cert.Join

end
-- ==== Proof.JoinDenseHop2.lean ====
/- Hop 2 of the reference's dense part is the kernel program's hop 2 of the same input features. -/
import proofs.«427692_j27324581937611_1_alg».proof.Proof.JoinDenseLemmas

set_option maxRecDepth 16384

noncomputable section

namespace Cert.Join

open Idealize.ShloMosaic Idealize.ShloMosaic.ValueIdx
open Cert.ReferenceIdeal.Facts₀ Cert.ReferenceIdeal.Facts

/-- Hop 2's weights. -/
theorem wk2_eq (x5 : (⟨Cert.ReferenceIdeal.S4x128x128, .f32⟩ : BufTy).Contents (Elt Ideal)) : Cert.ReferenceIdeal.Read.val_main_v83 (F := Ideal) x5 = Cert.KernelIdeal.Stage.wk2 x5 := rfl
/-- Hop 2's bias row is the row of the reference's bias vector. -/
theorem bk2_eq (x6 : (⟨Cert.ReferenceIdeal.S4x128, .f32⟩ : BufTy).Contents (Elt Ideal)) : Cert.KernelIdeal.Stage.bk2 x6 = Cert.KernelIdeal.Stage.brow (Cert.ReferenceIdeal.Read.val_main_v85 (F := Ideal) x6) := rfl
/-- Hop 2's gather indices: the sources, wrapped. -/
theorem gidx2_eq (x1 : (⟨Cert.ReferenceIdeal.S2x800000, .i32⟩ : BufTy).Contents (Elt Ideal)) : Cert.ReferenceIdeal.Read.val_main_v92 (F := Ideal) x1 = Cert.KernelIdeal.Stage.nidx (Cert.KernelIdeal.Stage.src x1) := by
  unfold Cert.ReferenceIdeal.Read.val_main_v92 Cert.ReferenceIdeal.Read.val_main_v91 Cert.ReferenceIdeal.Read.val_main_v90 Cert.ReferenceIdeal.Read.val_main_v89 Cert.ReferenceIdeal.Read.val_main_c_13 Cert.ReferenceIdeal.Read.val_main_v88 Cert.ReferenceIdeal.Read.val_main_v87 Cert.ReferenceIdeal.Read.val_main_c_12
  rw [src_eq]
  exact nidx_var _
/-- Hop 2's product is the dense layer with the zero row. -/
theorem xw2_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v86 (F := Ideal) x0 x1 x3 x4 x5 x6 = Cert.Spec.linear (Cert.ReferenceIdeal.Read.val_main_v81 (F := Ideal) x0 x1 x3 x4 x5 x6) (Cert.KernelIdeal.Stage.wk2 x5) Cert.KernelIdeal.Stage.zrow := by
  unfold Cert.ReferenceIdeal.Read.val_main_v86
  rw [wk2_eq]
  exact dense_zero _ _
/-- Hop 2: the reference's stages from the product to the hop's output are the kernel program's hop. -/
theorem hop2_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v105 (F := Ideal) x0 x1 x3 x4 x5 x6 = Cert.KernelIdeal.Stage.hop2 (Cert.ReferenceIdeal.Read.val_main_v81 (F := Ideal) x0 x1 x3 x4 x5 x6) x1 x5 x6 := by
  unfold Cert.ReferenceIdeal.Read.val_main_v105 Cert.ReferenceIdeal.Read.val_main_call2_v0 Cert.ReferenceIdeal.Read.val_main_call2_cst Cert.ReferenceIdeal.Read.val_main_v104 Cert.ReferenceIdeal.Read.val_main_v103 Cert.ReferenceIdeal.Read.val_main_v102 Cert.ReferenceIdeal.Read.val_main_v101 Cert.ReferenceIdeal.Read.val_main_v100 Cert.ReferenceIdeal.Read.val_main_v99 Cert.ReferenceIdeal.Read.val_main_v98 Cert.ReferenceIdeal.Read.val_main_v97 Cert.ReferenceIdeal.Read.val_main_v96 Cert.ReferenceIdeal.Read.val_main_cst_14 Cert.ReferenceIdeal.Read.val_main_v95 Cert.ReferenceIdeal.Read.val_main_v94 Cert.ReferenceIdeal.Read.val_main_v93
  rw [xw2_eq, gidx2_eq, enorm_eq, snorm_eq, dst_eq, agg_var]
  unfold Cert.KernelIdeal.Stage.hop2
  rw [bk2_eq]
  exact combineRelu_eq _ _ _ _

end Cert.Join

end
-- ==== Proof.JoinDenseHop3.lean ====
/- Hop 3 of the reference's dense part is the kernel program's hop 3 of the same input features (this last hop has no maximum). -/
import proofs.«427692_j27324581937611_1_alg».proof.Proof.JoinDenseLemmas

set_option maxRecDepth 16384

noncomputable section

namespace Cert.Join

open Idealize.ShloMosaic Idealize.ShloMosaic.ValueIdx
open Cert.ReferenceIdeal.Facts₀ Cert.ReferenceIdeal.Facts

/-- Hop 3's weights. -/
theorem wk3_eq (x5 : (⟨Cert.ReferenceIdeal.S4x128x128, .f32⟩ : BufTy).Contents (Elt Ideal)) : Cert.ReferenceIdeal.Read.val_main_v107 (F := Ideal) x5 = Cert.KernelIdeal.Stage.wk3 x5 := rfl
/-- Hop 3's bias row is the row of the reference's bias vector. -/
theorem bk3_eq (x6 : (⟨Cert.ReferenceIdeal.S4x128, .f32⟩ : BufTy).Contents (Elt Ideal)) : Cert.KernelIdeal.Stage.bk3 x6 = Cert.KernelIdeal.Stage.brow (Cert.ReferenceIdeal.Read.val_main_v109 (F := Ideal) x6) := rfl
/-- Hop 3's gather indices: the sources, wrapped. -/
theorem gidx3_eq (x1 : (⟨Cert.ReferenceIdeal.S2x800000, .i32⟩ : BufTy).Contents (Elt Ideal)) : Cert.ReferenceIdeal.Read.val_main_v116 (F := Ideal) x1 = Cert.KernelIdeal.Stage.nidx (Cert.KernelIdeal.Stage.src x1) := by
  unfold Cert.ReferenceIdeal.Read.val_main_v116 Cert.ReferenceIdeal.Read.val_main_v115 Cert.ReferenceIdeal.Read.val_main_v114 Cert.ReferenceIdeal.Read.val_main_v113 Cert.ReferenceIdeal.Read.val_main_c_16 Cert.ReferenceIdeal.Read.val_main_v112 Cert.ReferenceIdeal.Read.val_main_v111 Cert.ReferenceIdeal.Read.val_main_c_15
  rw [src_eq]
  exact nidx_var _
/-- Hop 3's product is the dense layer with the zero row. -/
theorem xw3_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v110 (F := Ideal) x0 x1 x3 x4 x5 x6 = Cert.Spec.linear (Cert.ReferenceIdeal.Read.val_main_v105 (F := Ideal) x0 x1 x3 x4 x5 x6) (Cert.KernelIdeal.Stage.wk3 x5) Cert.KernelIdeal.Stage.zrow := by
  unfold Cert.ReferenceIdeal.Read.val_main_v110
  rw [wk3_eq]
  exact dense_zero _ _
/-- Hop 3: the reference's stages from the product to the hop's output are the kernel program's hop. -/
theorem hop3_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) :
    Cert.ReferenceIdeal.Read.val_main_v128 (F := Ideal) x0 x1 x3 x4 x5 x6 = Cert.KernelIdeal.Stage.hop3 (Cert.ReferenceIdeal.Read.val_main_v105 (F := Ideal) x0 x1 x3 x4 x5 x6) x1 x5 x6 := by
  unfold Cert.ReferenceIdeal.Read.val_main_v128 Cert.ReferenceIdeal.Read.val_main_v127 Cert.ReferenceIdeal.Read.val_main_v126 Cert.ReferenceIdeal.Read.val_main_v125 Cert.ReferenceIdeal.Read.val_main_v124 Cert.ReferenceIdeal.Read.val_main_v123 Cert.ReferenceIdeal.Read.val_main_v122 Cert.ReferenceIdeal.Read.val_main_v121 Cert.ReferenceIdeal.Read.val_main_v120 Cert.ReferenceIdeal.Read.val_main_cst_17 Cert.ReferenceIdeal.Read.val_main_v119 Cert.ReferenceIdeal.Read.val_main_v118 Cert.ReferenceIdeal.Read.val_main_v117
  rw [xw3_eq, gidx3_eq, enorm_eq, snorm_eq, dst_eq, agg_var]
  unfold Cert.KernelIdeal.Stage.hop3
  rw [bk3_eq]
  exact combine_eq _ _ _ _

end Cert.Join

end
-- ==== Proof.JoinDense.lean ====
/- The reference's dense part is the kernel program's: its host matrix products with their broadcast biases are the regions' dense layers, its pointwise adds, products and maxima the regions' combinations, and the gathers and scatter-adds in between are the same operations of the same operands. -/
import proofs.«427692_j27324581937611_1_alg».proof.Proof.Gen.ReferenceIdeal.Read
import proofs.«427692_j27324581937611_1_alg».proof.Proof.KStages
import proofs.«427692_j27324581937611_1_alg».proof.Proof.JoinDenseLemmas
import proofs.«427692_j27324581937611_1_alg».proof.Proof.JoinDenseHop0
import proofs.«427692_j27324581937611_1_alg».proof.Proof.JoinDenseHop1
import proofs.«427692_j27324581937611_1_alg».proof.Proof.JoinDenseHop2
import proofs.«427692_j27324581937611_1_alg».proof.Proof.JoinDenseHop3
import Idealize.ShloMosaic.Lib.Pipeline.Value
import Idealize.ShloMosaic.Lib.ValueLayout
import Idealize.ShloMosaic.PureOps.Ideal.Laws

set_option maxRecDepth 16384

noncomputable section

namespace Cert.Join

open Idealize.ShloMosaic Idealize.ShloMosaic.ValueIdx
open Cert.ReferenceIdeal.Facts₀ Cert.ReferenceIdeal.Facts

/-- The encoder. -/
theorem h0_eq (x0 : (⟨Cert.ReferenceIdeal.S50000x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) : Cert.ReferenceIdeal.Read.val_main_v7 (F := Ideal) x0 x3 x4 = Cert.KernelIdeal.Stage.h0 x0 x3 x4 := by
  unfold Cert.ReferenceIdeal.Read.val_main_v7 Cert.ReferenceIdeal.Read.val_main_v6 Cert.ReferenceIdeal.Read.val_main_v5 Cert.ReferenceIdeal.Read.val_main_v4
  exact dense_bias x0 x3 x4

/-- The reference's logits per node are the kernel program's. -/
theorem logits_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) (x7 : (⟨Cert.ReferenceIdeal.S128x10, .f32⟩ : BufTy).Contents (Elt Ideal)) (x8 : (⟨Cert.ReferenceIdeal.S10, .f32⟩ : BufTy).Contents (Elt Ideal)) :
    Cert.ReferenceIdeal.Read.val_main_v132 (F := Ideal) x0 x1 x3 x4 x5 x6 x7 x8
      = Cert.KernelIdeal.Stage.logits (Cert.KernelIdeal.Stage.feat x0 x1 x3 x4 x5 x6) x7 x8 := by
  unfold Cert.ReferenceIdeal.Read.val_main_v132 Cert.ReferenceIdeal.Read.val_main_v131 Cert.ReferenceIdeal.Read.val_main_v130 Cert.ReferenceIdeal.Read.val_main_v129
  rw [hop3_eq, hop2_eq, hop1_eq, hop0_eq, h0_eq]
  exact dense_bias_out _ x7 x8

end Cert.Join

end
-- ==== Proof.JoinPool.lean ====
/- Mean pooling two ways: the reference adds each node's logits, and a one, at its segment id by two scatter-adds and divides; the kernel program accumulates both by a one-hot matrix product over blocks of nodes, slices them apart and divides. Per segment both are the sum over the nodes carrying its id. -/
import proofs.«427692_j27324581937611_1_alg».proof.Proof.Gen.ReferenceIdeal.Read
import proofs.«427692_j27324581937611_1_alg».proof.Proof.KStages
import Idealize.ShloMosaic.Lib.Pipeline.Value
import Idealize.ShloMosaic.Lib.ValueLayout
import Idealize.ShloMosaic.PureOps.Ideal.Laws

set_option maxRecDepth 16384

noncomputable section

namespace Cert.Join

open Idealize.ShloMosaic Idealize.ShloMosaic.ValueIdx
open Cert.ReferenceIdeal.Facts₀ Cert.ReferenceIdeal.Facts

namespace Pool

/-- An update lands on an operand element exactly when start plus window coordinate is that element's coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  constructor
  · intro h a
    unfold ScatterDims.resultIdx? at h
    split at h
    · rename_i hb
      have h' := Option.some.inj h
      have := congrArg (fun f => (f a).val) h'
      simp only at this
      rw [← this]
      exact (Int.toNat_of_nonneg (hb a).1).symm
    · exact absurd h (by simp)
  · intro H
    unfold ScatterDims.resultIdx?
    rw [dif_pos (fun a => by rw [H a]; exact ⟨Int.natCast_nonneg _, by exact_mod_cast (i a).isLt⟩)]
    congr 1
    funext a
    apply Fin.ext
    show (d.start j idx a + (d.window j a : Int)).toNat = (i a).val
    rw [H a]; exact Int.toNat_natCast _

/-- The dimension numbers of the scatter-add of rows: update (n, c) goes to row `idx[n, 0]`, column `c`. -/
abbrev DR := Cert.ReferenceIdeal.scatter_S128x10_S50000x1_S50000x10_1_0_0_1
/-- The dimension numbers of the scatter-add of counts: update n goes to element `idx[n, 0]`. -/
abbrev DC := Cert.ReferenceIdeal.scatter_S128_S50000x1_S50000_n_0_0_1

theorem DR_siIdx (j : Cert.ReferenceIdeal.S50000x10.Idx) (c : Fin DR.scatterDimsToOperandDims.length) :
    DR.siIdx j c = ix2 (j 0) 0 := by
  funext b
  match b with
  | ⟨0, _⟩ => rfl
  | ⟨1, _⟩ => exact Fin.ext (by have := c.isLt; show c.val = 0; simp [DR, Cert.ReferenceIdeal.scatter_S128x10_S50000x1_S50000x10_1_0_0_1] at this; omega)

theorem DR_start0 (j : Cert.ReferenceIdeal.S50000x10.Idx) (idx : IVec Cert.ReferenceIdeal.S50000x1 32) :
    DR.start j idx 0 = (idx (ix2 (j 0) 0)).toInt := by
  unfold ScatterDims.start
  rw [dif_pos (by decide), DR_siIdx]; rfl

theorem DR_start1 (j : Cert.ReferenceIdeal.S50000x10.Idx) (idx : IVec Cert.ReferenceIdeal.S50000x1 32) :
    DR.start j idx 1 = 0 := by
  unfold ScatterDims.start
  rw [dif_neg (by decide)]

theorem DR_window0 (j : Cert.ReferenceIdeal.S50000x10.Idx) : DR.window j 0 = 0 := by
  unfold ScatterDims.window
  rw [dif_neg (by decide)]

theorem DR_window1 (j : Cert.ReferenceIdeal.S50000x10.Idx) : DR.window j 1 = (j 1).val := by
  unfold ScatterDims.window
  rw [dif_pos (by decide)]
  rfl

theorem DC_siIdx (j : Cert.ReferenceIdeal.S50000.Idx) (c : Fin DC.scatterDimsToOperandDims.length) :
    DC.siIdx j c = ix2 (j 0) 0 := by
  funext b
  match b with
  | ⟨0, _⟩ => rfl
  | ⟨1, _⟩ => exact Fin.ext (by have := c.isLt; show c.val = 0; simp [DC, Cert.ReferenceIdeal.scatter_S128_S50000x1_S50000_n_0_0_1] at this; omega)

theorem DC_start0 (j : Cert.ReferenceIdeal.S50000.Idx) (idx : IVec Cert.ReferenceIdeal.S50000x1 32) :
    DC.start j idx 0 = (idx (ix2 (j 0) 0)).toInt := by
  unfold ScatterDims.start
  rw [dif_pos (by decide), DC_siIdx]; rfl

theorem DC_window0 (j : Cert.ReferenceIdeal.S50000.Idx) : DC.window j 0 = 0 := by
  unfold ScatterDims.window
  rw [dif_neg (by decide)]

/-- A 32-bit word read signed is a number below 128 exactly when it is that number's word. -/
theorem toInt_eq_iff (b : BitVec 32) (g : Nat) (hg : g < 128) : b.toInt = (g : Int) ↔ b = BitVec.ofNat 32 g := by
  have hb : b.toNat < 4294967296 := b.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    have : g % 2 ^ 32 = g := Nat.mod_eq_of_lt (by omega)
    rw [this, if_pos (by omega)]

theorem DR_lands (n : Fin 50000) (c : Fin 10) (idx : IVec Cert.ReferenceIdeal.S50000x1 32) (g : Fin 128) (c' : Fin 10) :
    DR.resultIdx? (ix2 n c) idx = some (ix2 g c') ↔ idx (ix2 n 0) = BitVec.ofNat 32 g.val ∧ c' = c := by
  rw [resultIdx?_eq_some_iff, Fin.forall_fin_two, DR_start0, DR_start1, DR_window0, DR_window1, ← toInt_eq_iff _ _ g.isLt,
    Fin.ext_iff]
  show (idx (ix2 n 0)).toInt + ((0 : Nat) : Int) = ((g.val : Nat) : Int) ∧ (0 : Int) + ((c.val : Nat) : Int) = ((c'.val : Nat) : Int) ↔ _
  constructor <;> rintro ⟨h1, h2⟩ <;> constructor <;> omega

theorem DC_lands (n : Fin 50000) (idx : IVec Cert.ReferenceIdeal.S50000x1 32) (g : Fin 128) :
    DC.resultIdx? (ix1 n) idx = some (ix1 g) ↔ idx (ix2 n 0) = BitVec.ofNat 32 g.val := by
  rw [resultIdx?_eq_some_iff, Fin.forall_fin_one, DC_start0, DC_window0, ← toInt_eq_iff _ _ g.isLt]
  show (idx (ix2 n 0)).toInt + ((0 : Nat) : Int) = ((g.val : Nat) : Int) ↔ _
  constructor <;> intro h <;> omega

/-- The updates landing on row `g`, column `c` of the operand are the entries in column `c` of the update rows whose index word is `g`. -/
theorem rows_sum (idx : IVec Cert.ReferenceIdeal.S50000x1 32) (upd : Cert.ReferenceIdeal.S50000x10.Idx → EReal) (g : Fin 128) (c : Fin 10) :
    ∑ j ∈ Finset.univ.filter (fun j => DR.resultIdx? j idx = some (ix2 g c)), upd j
      = ∑ n : Fin 50000, if idx (ix2 n 0) = BitVec.ofNat 32 g.val then upd (ix2 n c) else 0 := by
  rw [Finset.sum_filter, sum_idx2]
  refine Finset.sum_congr rfl fun n _ => ?_
  simp only [DR_lands]
  by_cases hA : idx (ix2 n 0) = BitVec.ofNat 32 g.val
  · simp only [hA, true_and, if_true]
    rw [Finset.sum_ite_eq, if_pos (Finset.mem_univ _)]
  · simp only [hA, false_and, if_false, Finset.sum_const_zero]

/-- The updates landing on element `g` of a vector operand are those whose index word is `g`. -/
theorem cnt_sum (idx : IVec Cert.ReferenceIdeal.S50000x1 32) (upd : Cert.ReferenceIdeal.S50000.Idx → EReal) (g : Fin 128) :
    ∑ j ∈ Finset.univ.filter (fun j => DC.resultIdx? j idx = some (ix1 g)), upd j
      = ∑ n : Fin 50000, if idx (ix2 n 0) = BitVec.ofNat 32 g.val then upd (ix1 n) else 0 := by
  rw [Finset.sum_filter]
  let e : Cert.ReferenceIdeal.S50000.Idx ≃ Fin 50000 :=
    ⟨fun j => j 0, fun n => ix1 n, fun j => (eq_ix1 j).symm, fun _ => rfl⟩
  rw [← Equiv.sum_comp e.symm]
  refine Finset.sum_congr rfl fun n _ => ?_
  show (if DC.resultIdx? (ix1 n) idx = some (ix1 g) then upd (ix1 n) else 0) = _
  simp only [DC_lands]

/-- The segment ids as a column, read at a row, under the reference's broadcast. -/
theorem idcol_ref (x2 : (⟨Cert.ReferenceIdeal.S50000, .i32⟩ : BufTy).Contents (Elt Ideal)) (n : Fin 50000) :
    Cert.ReferenceIdeal.Read.val_main_v134 (F := Ideal) x2 (ix2 n 0) = x2 (ix1 n) := by
  rw [Cert.ReferenceIdeal.Read.val_main_v134_apply]
  exact congrArg x2 (funext fun a => match a with | ⟨0, _⟩ => rfl)

theorem idcol_ref' (x2 : (⟨Cert.ReferenceIdeal.S50000, .i32⟩ : BufTy).Contents (Elt Ideal)) (n : Fin 50000) :
    Cert.ReferenceIdeal.Read.val_main_v138 (F := Ideal) x2 (ix2 n 0) = x2 (ix1 n) := by
  rw [Cert.ReferenceIdeal.Read.val_main_v138_apply]
  exact congrArg x2 (funext fun a => match a with | ⟨0, _⟩ => rfl)

/-- The segment ids as a column, read at a row, under the kernel program's reshape. -/
theorem idcol_ker (x2 : (⟨Cert.ReferenceIdeal.S50000, .i32⟩ : BufTy).Contents (Elt Ideal)) (n : Fin 50000) :
    Cert.KernelIdeal.Stage.idcol x2 (ix2 n 0) = x2 (ix1 n) := by
  unfold Cert.KernelIdeal.Stage.idcol
  refine shapeCast_apply _ _ _ _ ?_
  rw [Shape.rowMajor_val_two, Shape.rowMajor_val_one]
  show n.val = n.val * 1 + 0
  omega

/-- The closing stretch at row `g`, column `c`: the pooled array's entry there over its last column's entry raised to at least one. -/
theorem fin_apply (p : FVec Ideal Cert.KernelIdeal.S128x11 .f32) (g : Fin 128) (c : Fin 10) :
    Cert.KernelIdeal.Stage.fin p (ix2 g c)
      = Ideal.div (p (ix2 g ⟨c.val, by omega⟩)) (max (p (ix2 g 10)) Cert.KernelIdeal.Stage.one) := by
  unfold Cert.KernelIdeal.Stage.fin
  show Ideal.div (extractStridedSlice _ _ p _ (ix2 g c)) (broadcastInDim _ _ _ _ (ix2 g c)) = _
  rw [extractStridedSlice_apply _ p _ (ix2 g c) (ix2 g ⟨c.val, by omega⟩) (fun a => match a with
      | ⟨0, _⟩ => by show g.val = 0 + g.val; omega
      | ⟨1, _⟩ => by show c.val = 0 + c.val; omega),
    broadcastInDim_apply _ _ _ (ix2 g c) (ix2 g 0) (fun a => match a with
      | ⟨0, _⟩ => by show g.val = if (128 : Nat) = 1 then 0 else g.val; rw [if_neg (by decide)]
      | ⟨1, _⟩ => by show 0 = if (1 : Nat) = 1 then 0 else c.val; rw [if_pos rfl])]
  show Ideal.div _ (max (extractStridedSlice _ _ p _ (ix2 g 0)) _) = _
  rw [extractStridedSlice_apply _ p _ (ix2 g 0) (ix2 g 10) (fun a => match a with
      | ⟨0, _⟩ => by show g.val = 0 + g.val; omega
      | ⟨1, _⟩ => by show 10 = 10 + 0; rfl)]
  rfl

/-- The reference's sums: row `g`, column `c` adds up column `c` of the rows of `y` whose id word is `g`. -/
theorem ref_num (y : (⟨Cert.ReferenceIdeal.S50000x10, .f32⟩ : BufTy).Contents (Elt Ideal))
    (x2 : (⟨Cert.ReferenceIdeal.S50000, .i32⟩ : BufTy).Contents (Elt Ideal)) (g : Fin 128) (c : Fin 10) :
    Host.scatterAdd (F := Ideal) (φ := .f32) Cert.ReferenceIdeal.scatter_S128x10_S50000x1_S50000x10_1_0_0_1
        (Cert.ReferenceIdeal.Read.val_main_v133 (F := Ideal)) (Cert.ReferenceIdeal.Read.val_main_v134 (F := Ideal) x2) y (ix2 g c)
      = ∑ n : Fin 50000, if x2 (ix1 n) = BitVec.ofNat 32 g.val then y (ix2 n c) else 0 := by
  show Ideal.hostScatterAdd DR _ _ y (ix2 g c) = _
  unfold Ideal.hostScatterAdd
  beta_reduce
  rw [rows_sum, Cert.ReferenceIdeal.Read.val_main_v133_apply, Cert.ReferenceIdeal.Read.val_main_cst_18_apply]
  show Ideal.ofBits .f32 0x00000000#32 + _ = _
  rw [Ideal.ofBits_zero_f32, zero_add]
  simp only [idcol_ref]

/-- The reference's counts: element `g` adds up a one for every row whose id word is `g`. -/
theorem ref_cnt (x2 : (⟨Cert.ReferenceIdeal.S50000, .i32⟩ : BufTy).Contents (Elt Ideal)) (g : Fin 128) :
    Cert.ReferenceIdeal.Read.val_main_v139 (F := Ideal) x2 (ix1 g)
      = ∑ n : Fin 50000, if x2 (ix1 n) = BitVec.ofNat 32 g.val then Cert.KernelIdeal.Stage.one else 0 := by
  unfold Cert.ReferenceIdeal.Read.val_main_v139
  show Ideal.hostScatterAdd DC _ _ _ (ix1 g) = _
  unfold Ideal.hostScatterAdd
  beta_reduce
  rw [cnt_sum, Cert.ReferenceIdeal.Read.val_main_v137_apply, Cert.ReferenceIdeal.Read.val_main_cst_20_apply]
  show Ideal.ofBits .f32 0x00000000#32 + _ = _
  rw [Ideal.ofBits_zero_f32, zero_add]
  simp only [idcol_ref', Cert.ReferenceIdeal.Read.val_main_v136_apply, Cert.ReferenceIdeal.Read.val_main_cst_19_apply]
  rfl

/-- The reference's divisor: the count raised to at least one, whatever the column. -/
theorem ref_den (x2 : (⟨Cert.ReferenceIdeal.S50000, .i32⟩ : BufTy).Contents (Elt Ideal)) (g : Fin 128) (c : Fin 10) :
    Cert.ReferenceIdeal.Read.val_main_v143 (F := Ideal) x2 (ix2 g c)
      = max (∑ n : Fin 50000, if x2 (ix1 n) = BitVec.ofNat 32 g.val then Cert.KernelIdeal.Stage.one else 0) Cert.KernelIdeal.Stage.one := by
  rw [Cert.ReferenceIdeal.Read.val_main_v143_apply, Cert.ReferenceIdeal.Read.val_main_v142_apply,
    Cert.ReferenceIdeal.Read.val_main_v141_apply, Cert.ReferenceIdeal.Read.val_main_v140_apply,
    Cert.ReferenceIdeal.Read.val_main_cst_21_apply]
  have hk : Cert.ReferenceIdeal.Read.idx_main_v142 (Cert.ReferenceIdeal.Read.idx_main_v143 (ix2 g c)) = ix1 g :=
    funext fun a => match a with | ⟨0, _⟩ => rfl
  rw [hk, ref_cnt]
  rfl

/-- The pooled array's first ten columns hold the sums. -/
theorem pooled_lt (y : FVec Ideal ⟨2, ![50000, 10]⟩ .f32) (ids : Fin 50000 → BitVec 32) (one : EReal) (g : Fin 128) (c : Fin 10) :
    Cert.Spec.pooled 128 y ids one (ix2 g ⟨c.val, by omega⟩)
      = ∑ n : Fin 50000, if ids n = BitVec.ofNat 32 g.val then y (ix2 n c) else 0 := by
  unfold Cert.Spec.pooled
  show (if h : c.val < 10 then _ else _) = _
  rw [dif_pos c.isLt]
  rfl

/-- Its last column holds the counts. -/
theorem pooled_last (y : FVec Ideal ⟨2, ![50000, 10]⟩ .f32) (ids : Fin 50000 → BitVec 32) (one : EReal) (g : Fin 128) :
    Cert.Spec.pooled 128 y ids one (ix2 g 10)
      = ∑ n : Fin 50000, if ids n = BitVec.ofNat 32 g.val then one else 0 := by
  unfold Cert.Spec.pooled
  show (if h : 10 < 10 then _ else _) = _
  rw [dif_neg (by omega)]
  rfl

/-- The host's division reads elementwise. -/
theorem hostDivf_at {s : Shape} (a b : FVec Ideal s .f32) (i : s.Idx) : Host.divf a b i = Ideal.div (a i) (b i) := rfl

end Pool

open Pool in
/-- The reference's quotient of the two scatter-adds is the kernel program's closing stretch of the pooled array. -/
theorem pool_eq (y : (⟨Cert.ReferenceIdeal.S50000x10, .f32⟩ : BufTy).Contents (Elt Ideal)) (x2 : (⟨Cert.ReferenceIdeal.S50000, .i32⟩ : BufTy).Contents (Elt Ideal)) :
    Host.divf
        (Host.scatterAdd Cert.ReferenceIdeal.scatter_S128x10_S50000x1_S50000x10_1_0_0_1
          (Cert.ReferenceIdeal.Read.val_main_v133 (F := Ideal)) (Cert.ReferenceIdeal.Read.val_main_v134 (F := Ideal) x2) y)
        (Cert.ReferenceIdeal.Read.val_main_v143 (F := Ideal) x2)
      = Cert.KernelIdeal.Stage.fin
          (Cert.Spec.pooled 128 y (fun n => Cert.KernelIdeal.Stage.idcol x2 (ix2 n 0)) Cert.KernelIdeal.Stage.one) := by
  funext i
  obtain ⟨g, c, rfl⟩ : ∃ (g : Fin 128) (c : Fin 10), i = ix2 g c := ⟨i 0, i 1, eq_ix2 i⟩
  rw [fin_apply, pooled_lt, pooled_last, hostDivf_at, ref_num, ref_den]
  simp only [idcol_ker]

end Cert.Join

end
-- ==== Proof.Join.lean ====
/- The reference's result, as its generated stages compose it, is the kernel program's result function of the same arguments. -/
import proofs.«427692_j27324581937611_1_alg».proof.Proof.Gen.ReferenceIdeal.Read
import proofs.«427692_j27324581937611_1_alg».proof.Proof.KStages
import proofs.«427692_j27324581937611_1_alg».proof.Proof.JoinDense
import proofs.«427692_j27324581937611_1_alg».proof.Proof.JoinPool
import Idealize.ShloMosaic.Lib.Pipeline.Value
import Idealize.ShloMosaic.Lib.ValueLayout
import Idealize.ShloMosaic.PureOps.Ideal.Laws

set_option maxRecDepth 16384

noncomputable section

namespace Cert.Join

open Idealize.ShloMosaic Idealize.ShloMosaic.ValueIdx
open Cert.ReferenceIdeal.Facts₀ Cert.ReferenceIdeal.Facts

theorem join (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S4x128x128, .f32⟩ : BufTy).Contents (Elt Ideal)) (x6 : (⟨Cert.ReferenceIdeal.S4x128, .f32⟩ : BufTy).Contents (Elt Ideal)) (x7 : (⟨Cert.ReferenceIdeal.S128x10, .f32⟩ : BufTy).Contents (Elt Ideal)) (x8 : (⟨Cert.ReferenceIdeal.S10, .f32⟩ : BufTy).Contents (Elt Ideal)) :
    Cert.ReferenceIdeal.Read.val_main_v144 (F := Ideal) x0 x1 x2 x3 x4 x5 x6 x7 x8
      = Cert.KernelIdeal.Stage.result x0 x1 x2 x3 x4 x5 x6 x7 x8 := by
  unfold Cert.ReferenceIdeal.Read.val_main_v144 Cert.ReferenceIdeal.Read.val_main_v135 Cert.KernelIdeal.Stage.result
  rw [logits_eq]
  exact pool_eq _ x2

end Cert.Join

end
-- ==== Proof.lean ====
/-
  A four-hop graph convolution network with mean pooling, as eleven TPU kernel regions among host stretches, against its
  plain jnp reference, over the extended reals.

  Both programs compute the symmetric normalizers, the per-edge gather / scale / scatter-add of messages and the final
  quotient by the same host operations of the same operands. They differ in three places, each an identity of exact
  arithmetic: a dense layer computed block of rows by block of rows with the bias row added inside the region (the
  hops' products are given a zero bias row, and x + 0 = x on the extended reals) against one whole matrix product plus a
  broadcast bias; the combination agg + xw · selfnorm + b (then max with 0) computed block by block against the same
  pointwise operations on whole arrays; and the per-segment sums and counts, accumulated over ten blocks of nodes as
  one-hot matrix products (a node contributes to segment g exactly when its id word is g's) against two scatter-adds
  (an id outside the segments' range lands nowhere on either side). Finiteness of the inputs is not used.
-/
import proofs.«427692_j27324581937611_1_alg».proof.Defs
import proofs.«427692_j27324581937611_1_alg».proof.Proof.Gen.Kernel
import proofs.«427692_j27324581937611_1_alg».proof.Proof.Gen.Kernel.Frame
import proofs.«427692_j27324581937611_1_alg».proof.Proof.Gen.KernelIdeal
import proofs.«427692_j27324581937611_1_alg».proof.Proof.Gen.KernelIdeal.Frame
import proofs.«427692_j27324581937611_1_alg».proof.Proof.Gen.ReferenceIdeal
import proofs.«427692_j27324581937611_1_alg».proof.Proof.Gen.ReferenceIdeal.Run
import proofs.«427692_j27324581937611_1_alg».proof.Proof.Gen.ReferenceIdeal.Read
import proofs.«427692_j27324581937611_1_alg».proof.Proof.Gen.Pre_finite_inputs
import proofs.«427692_j27324581937611_1_alg».proof.Proof.KRun
import proofs.«427692_j27324581937611_1_alg».proof.Proof.KChain
import proofs.«427692_j27324581937611_1_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the kernel program's result function of the arguments: the kernel program by its run and the
    chain through its boundaries, the reference by its generated run, its stages, and their identification with that
    function; the arguments agree by hypothesis. -/
theorem algebraic : Cert.algebraic_KernelIdeal_ReferenceIdeal := by
  intro m ρ m' ρ' _ hagree
  refine ⟨fun c => Cert.KernelIdeal.Stage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.kernel_value m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v144_eq, Cert.Join.join, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
